-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v53)) (v2 : (c : Dev Cert.KernelIdeal.nD) → Buf (Elt Ideal) ((c.tc : Thread Cert.KernelIdeal.nD Cert.KernelIdeal.τ).loc Cert.KernelIdeal.main_v59)) (v3 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_v59) = v2 c
          ∧ r.2.mem ((c.tc : Thread Cert.KernelIdeal.nD Cert.KernelIdeal.τ).loc Cert.KernelIdeal.main_v65) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x512 .f32) (main_arg1 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 1 := constantI S_ 1 1#1
  let main_v6 : IVec S_ 1 := (fun x v => Host.reduce IntOp.andi x v reducesTo_S4096_S_d0 h_S_) main_v5 main_c_1
  let main_v7 : IVec S_ 1 := andi main_v3 main_v6
  let main_c_2 : IVec S_ 32 := constantI S_ 32 256#32
  let main_v8 : IVec S4096 32 := broadcastInDim S4096 ![] bcast_S_S4096 main_c_2
  let main_v9 : IVec S4096 1 := cmpi .slt main_arg1 main_v8
  let main_c_3 : IVec S_ 1 := constantI S_ 1 1#1
  let main_v10 : IVec S_ 1 := (fun x v => Host.reduce IntOp.andi x v reducesTo_S4096_S_d0 h_S_) main_v9 main_c_3
  let main_v11 : IVec S_ 1 := andi main_v7 main_v10
  main_v11
-- ==== Kernel.lean ====
abbrev S4096x512 : Shape := ⟨2, ![4096, 512]⟩
abbrev S4096 : Shape := ⟨1, ![4096]⟩
abbrev S4096x1 : Shape := ⟨2, ![4096, 1]⟩
abbrev S1x4096 : Shape := ⟨2, ![1, 4096]⟩
abbrev S_ : Shape := ⟨0, ![]⟩
abbrev S256 : Shape := ⟨1, ![256]⟩
abbrev S4096x8 : Shape := ⟨2, ![4096, 8]⟩
abbrev S512x1 : Shape := ⟨2, ![512, 1]⟩
abbrev S512x8 : Shape := ⟨2, ![512, 8]⟩
abbrev S512x512 : Shape := ⟨2, ![512, 512]⟩
abbrev S1x512 : Shape := ⟨2, ![1, 512]⟩
abbrev S512 : Shape := ⟨1, ![512]⟩
abbrev S512x3 : Shape := ⟨2, ![512, 3]⟩
abbrev S1 : Shape := ⟨1, ![1]⟩

abbrev nBuf : Space → Nat
  | .hbm => 91
  | .vmem => 13
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x512, .bf16⟩
  | .hbm, ⟨3, _⟩ => ⟨S4096x1, .i32⟩
  | .hbm, ⟨4, _⟩ => ⟨S1x4096, .i32⟩
  | .hbm, ⟨5, _⟩ => ⟨S4096x512, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .i32⟩
  | .hbm, ⟨10, _⟩ => ⟨S256, .i32⟩
  | .hbm, ⟨11, _⟩ => ⟨S_, .i32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096x1, .i32⟩
  | .hbm, ⟨23, _⟩ => ⟨S_, .i32⟩
  | .hbm, ⟨24, _⟩ => ⟨S4096, .i32⟩
  | .hbm, ⟨25, _⟩ => ⟨S256, .i32⟩
  | .hbm, ⟨26, _⟩ => ⟨S256, .f32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S4096x8, .f32⟩
  | .hbm, ⟨40, _⟩ => ⟨S4096x1, .f32⟩
  | .hbm, ⟨41, _⟩ => ⟨S4096, .f32⟩
  | .hbm, ⟨42, _⟩ => ⟨S4096x1, .f32⟩
  | .hbm, ⟨43, _⟩ => ⟨S4096, .f32⟩
  | .hbm, ⟨44, _⟩ => ⟨S4096x1, .f32⟩
  | .hbm, ⟨45, _⟩ => ⟨S4096, .f32⟩
  | .hbm, ⟨46, _⟩ => ⟨S4096x1, .f32⟩
  | .hbm, ⟨47, _⟩ => ⟨S4096, .f32⟩
  | .hbm, ⟨48, _⟩ => ⟨S4096x1, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .i1⟩
  | .hbm, ⟨61, _⟩ => ⟨S4096, .f32⟩
  | .hbm, ⟨62, _⟩ => ⟨S_, .f32⟩
  | .hbm, ⟨63, _⟩ => ⟨S_, .f32⟩
  | .hbm, ⟨64, _⟩ => ⟨S4096, .f32⟩
  | .hbm, ⟨65, _⟩ => ⟨S4096, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S4096, .i1⟩
  | .hbm, ⟨71, _⟩ => ⟨S4096, .i32⟩
  | .hbm, ⟨72, _⟩ => ⟨S_, .i32⟩
  | .hbm, ⟨73, _⟩ => ⟨S_, .i32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S1, .f32⟩
  | .hbm, ⟨78, _⟩ => ⟨S_, .f32⟩
  | .hbm, ⟨79, _⟩ => ⟨S1, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S1, .f32⟩
  | .hbm, ⟨85, _⟩ => ⟨S_, .f32⟩
  | .hbm, ⟨86, _⟩ => ⟨S1, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .local _ .vmem, ⟨0, _⟩ => ⟨S4096x512, .bf16⟩
  | .local _ .vmem, ⟨1, _⟩ => ⟨S512x1, .i32⟩
  | .local _ .vmem, ⟨2, _⟩ => ⟨S512x1, .i32⟩
  | .local _ .vmem, ⟨3, _⟩ => ⟨S1x4096, .i32⟩
  | .local _ .vmem, ⟨4, _⟩ => ⟨S512x1, .f32⟩
  | .local _ .vmem, ⟨5, _⟩ => ⟨S512x1, .f32⟩
  | .local _ .vmem, ⟨6, _⟩ => ⟨S512x8, .f32⟩
  | .local _ .vmem, ⟨7, _⟩ => ⟨S512x8, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_call1_v0 : Ref sig .tc := ⟨.hbm, 63, rfl⟩
abbrev main_call1_v1 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_13 : Ref sig .tc := ⟨.hbm, 72, rfl⟩
abbrev main_v51 : Ref sig .tc := ⟨.hbm, 73, rfl⟩
abbrev main_v52 : Ref sig .tc := ⟨.hbm, 74, rfl⟩
abbrev main_cst_14 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_15 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_16 : Ref sig .tc := ⟨.hbm, 88, rfl⟩
abbrev main_v64 : Ref sig .tc := ⟨.hbm, 89, rfl⟩
abbrev main_v65 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_off1 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v2 : Index := Scalar.indexCast v1
  let c0 : Index := 0#32
  ![v2.toNat, 0]
@[reducible] def k0_t1_loop : Scf.Loop 32 :=
  let c0_i32 : BitVec 32 := 0#32
  let c8_i32 : BitVec 32 := 8#32
  let v32 : BitVec 32 := Scalar.addi c0_i32 c8_i32
  let c1_i32 : BitVec 32 := 1#32
  ⟨c0_i32, v32, c1_i32⟩
def k0_mult2 (k0_t1 : Fin k0_t1_loop.trips) : BitVec 32 :=
  let c0_i32_33 : BitVec 32 := 0#32
  let c0_i32 : BitVec 32 := 0#32
  let c1_i32 : BitVec 32 := 1#32
  let arg11 : BitVec 32 := Scf.iv c0_i32 c1_i32 k0_t1
  let c1_i32_32 : BitVec 32 := 1#32
  let v41 : BitVec 32 := Scalar.muli arg11 c1_i32_32
  let v42 : BitVec 32 := Scalar.addi c0_i32_33 v41
  let c512_i32_34 : BitVec 32 := 512#32
  let v43 : BitVec 32 := Scalar.muli v42 c512_i32_34
  v43
def k0_off2 (k0_t1 : Fin k0_t1_loop.trips) : Fin 2 → Nat :=
  let c0_i32_33 : BitVec 32 := 0#32
  let c0_i32 : BitVec 32 := 0#32
  let c1_i32 : BitVec 32 := 1#32
  let arg11 : BitVec 32 := Scf.iv c0_i32 c1_i32 k0_t1
  let c1_i32_32 : BitVec 32 := 1#32
  let v41 : BitVec 32 := Scalar.muli arg11 c1_i32_32
  let v42 : BitVec 32 := Scalar.addi c0_i32_33 v41
  let c512_i32_34 : BitVec 32 := 512#32
  let v43 : BitVec 32 := Scalar.muli v42 c512_i32_34
  let v44 : BitVec 32 := v43
  let v45 : Index := Scalar.indexCast v44
  let c0_35 : Index := 0#32
  ![v45.toNat, 0]
def k0_off3 (k0_t1 : Fin k0_t1_loop.trips) : Fin 2 → Nat :=
  let c0_36 : Index := 0#32
  let c0_i32_33 : BitVec 32 := 0#32
  let c0_i32 : BitVec 32 := 0#32
  let c1_i32 : BitVec 32 := 1#32
  let arg11 : BitVec 32 := Scf.iv c0_i32 c1_i32 k0_t1
  let c1_i32_32 : BitVec 32 := 1#32
  let v41 : BitVec 32 := Scalar.muli arg11 c1_i32_32
  let v42 : BitVec 32 := Scalar.addi c0_i32_33 v41
  let c512_i32_34 : BitVec 32 := 512#32
  let v43 : BitVec 32 := Scalar.muli v42 c512_i32_34
  let v44 : BitVec 32 := v43
  let v48 : Index := Scalar.indexCast v44
  ![0, v48.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  shapeCasts_S4096_S4096x1 : S4096.ShapeCasts S4096x1
  shapeCasts_S4096_S1x4096 : S4096.ShapeCasts S1x4096
  reducesTo_S4096x512_S4096_d1 : S4096x512.ReducesTo [1] S4096
  h_S_ : 0 < S_.numel
  bcast_S_S256 : S_.BroadcastsInDim S256 (![] : Fin 0 → Fin S256.rank)
  bcast_S_S4096 : S_.BroadcastsInDim S4096 (![] : Fin 0 → Fin S4096.rank)
  bcast_S4096_S4096x1_0 : S4096.BroadcastsInDim S4096x1 (![0] : Fin 1 → Fin S4096x1.rank)
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1_d0_w32 : S512x1.Iotas .tc 32 [0]
  h_S1x512 : 0 < S1x512.numel
  shapeCasts_S1x512_S1x512 : S1x512.ShapeCasts S1x512
  transposes_S512x512_p1_0_S512x512 : S512x512.Transposes [1, 0] S512x512
  iota_S1x512_d1_w32 : S1x512.Iotas .tc 32 [1]
  broadcasts_S512x1_S512x512 : S512x1.Broadcasts S512x512
  broadcasts_S1x512_S512x512 : S1x512.Broadcasts S512x512
  natLt_1_32 : 1 < 32
  reduces_S512x512_S512 : S512x512.Reduces [1] S512
  shapeCasts_S512_S512x1 : S512.ShapeCasts S512x1
  concatenates_S512x1_S512x1_S512x1_S512x1_S512x1_S512x3_S512x8_d1 : Shape.Concatenates [S512x1, S512x1, S512x1, S512x1, S512x1, S512x3] S512x8 1
  inb_S512x8_S512x8_0_0 : ∀ a, (![0, 0] : Fin 2 → Nat) a + S512x8.size a ≤ S512x8.size a
  h_S512x8 : 0 < S512x8.numel
  slices_S4096x8_S4096x1_0_0 : S4096x8.Slices ![0, 0] S4096x1
  shapeCasts_S4096x1_S4096 : S4096x1.ShapeCasts S4096
  slices_S4096x8_S4096x1_0_1 : S4096x8.Slices ![0, 1] S4096x1
  slices_S4096x8_S4096x1_0_2 : S4096x8.Slices ![0, 2] S4096x1
  slices_S4096x8_S4096x1_0_3 : S4096x8.Slices ![0, 3] S4096x1
  slices_S4096x8_S4096x1_0_4 : S4096x8.Slices ![0, 4] S4096x1
  reducesTo_S4096_S_d0 : S4096.ReducesTo [0] S_
  slices_S4096_S1_4095 : S4096.Slices ![4095] S1
  shapeCasts_S1_S_ : S1.ShapeCasts S_
  scatter_S256_S4096x1_S4096_n_0_0_1_wf : ScatterDims.WF S256 S4096x1 S4096 [] [0] [0] 1
  gather_S256_S4096x1_S4096_n_0_n_n_0_1_1_wf : GatherDims.WF S256 S4096x1 S4096 [] [0] [] [0] [] 1 ![1]
  dot_S512x512_S512x512_S512x512_1_0_0_1_n_n_wf : DotDims.WF S512x512 S512x512 S512x512 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x512.size a ≤ S4096x512.size a
  k0_t1_ok : k0_t1_loop.OK
  k0_mult2_dvd : ∀ k0_t1 : Fin k0_t1_loop.trips, 512 ∣ (k0_mult2 k0_t1).toNat
  k0_off2_inb : ∀ k0_t1 : Fin k0_t1_loop.trips, ∀ a, (k0_off2 k0_t1) a + S512x512.size a ≤ S4096x512.size a
  k0_off3_inb : ∀ k0_t1 : Fin k0_t1_loop.trips, ∀ a, (k0_off3 k0_t1) a + S1x512.size a ≤ S1x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x512.size a
  hwx0_0 : ∀ i : grid0.Coords, EltTy.bits .bf16 = 32 ∨ (Rect.block (s := S4096x512) S4096x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .i32 = 32 ∨ (Rect.block (s := S4096x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .i32 = 32 ∨ (Rect.block (s := S1x4096) S1x4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x8.size a ≤ S4096x8.size a
  hwx0_4 : ∀ i : grid0.Coords, EltTy.bits .f32 = 32 ∨ (Rect.block (s := S4096x8) S512x8.size (cc0_transform_4 i) (hinb0_4 i)).WholeWords (EltTy.packing .f32)

variable [Facts₀]

def scatter_S256_S4096x1_S4096_n_0_0_1 : ScatterDims S256 S4096x1 S4096 where
  updateWindowDims := []
  insertedWindowDims := [0]
  scatterDimsToOperandDims := [0]
  indexVectorDim := 1
  wf := scatter_S256_S4096x1_S4096_n_0_0_1_wf
def gather_S256_S4096x1_S4096_n_0_n_n_0_1_1 : GatherDims S256 S4096x1 S4096 where
  offsetDims := []
  collapsedSliceDims := [0]
  operandBatchingDims := []
  startIndicesBatchingDims := []
  startIndexMap := [0]
  indexVectorDim := 1
  sliceSizes := ![1]
  wf := gather_S256_S4096x1_S4096_n_0_n_n_0_1_1_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v0) S4096x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26) S512x8.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096 : Shape := ⟨1, ![4096]⟩
abbrev S512x4096 : Shape := ⟨2, ![512, 4096]⟩
abbrev S4096x4096 : Shape := ⟨2, ![4096, 4096]⟩
abbrev S4096x1 : Shape := ⟨2, ![4096, 1]⟩
abbrev S1x4096 : Shape := ⟨2, ![1, 4096]⟩
abbrev S_ : Shape := ⟨0, ![]⟩
abbrev S1 : Shape := ⟨1, ![1]⟩

abbrev nBuf : Space → Nat
  | .hbm => 131
  | .vmem => 0
  | .smem => 0
  | _ => 0

abbrev hbmTy0_0 (i : Nat) : BufTy := match i % 128 with
  | 0 => ⟨S4096x512, .f32⟩
  | 1 => ⟨S4096, .i32⟩
  | 2 => ⟨S512x4096, .f32⟩
  | 3 => ⟨S4096x4096, .f32⟩
  | 4 => ⟨S4096x1, .i32⟩
  | 5 => ⟨S1x4096, .i32⟩
  | 6 => ⟨S4096x4096, .i32⟩
  | 7 => ⟨S4096x4096, .i32⟩
  | 8 => ⟨S4096x4096, .i1⟩
  | 9 => ⟨S_, .f32⟩
  | 10 => ⟨S4096x4096, .f32⟩
  | 11 => ⟨S4096x4096, .i1⟩
  | 12 => ⟨S4096x4096, .i1⟩
  | 13 => ⟨S4096x4096, .i1⟩
  | 14 => ⟨S4096x4096, .i32⟩
  | 15 => ⟨S_, .i32⟩
  | 16 => ⟨S4096, .i32⟩
  | 17 => ⟨S4096, .f32⟩
  | 18 => ⟨S4096x4096, .i32⟩
  | 19 => ⟨S_, .i32⟩
  | 20 => ⟨S4096, .i32⟩
  | 21 => ⟨S4096, .f32⟩
  | 22 => ⟨S_, .f32⟩
  | 23 => ⟨S4096x4096, .f32⟩
  | 24 => ⟨S4096x4096, .f32⟩
  | 25 => ⟨S_, .f32⟩
  | 26 => ⟨S4096x4096, .f32⟩
  | 27 => ⟨S4096x4096, .f32⟩
  | 28 => ⟨S_, .f32⟩
  | 29 => ⟨S4096x4096, .f32⟩
  | 30 => ⟨S4096x4096, .f32⟩
  | 31 => ⟨S4096x4096, .f32⟩
  | 32 => ⟨S4096x4096, .f32⟩
  | 33 => ⟨S4096x4096, .i1⟩
  | 34 => ⟨S4096x4096, .f32⟩
  | 35 => ⟨S4096x4096, .f32⟩
  | 36 => ⟨S4096x4096, .f32⟩
  | 37 => ⟨S4096x4096, .f32⟩
  | 38 => ⟨S4096x4096, .f32⟩
  | 39 => ⟨S4096x4096, .f32⟩
  | 40 => ⟨S4096x4096, .f32⟩
  | 41 => ⟨S4096x4096, .f32⟩
  | 42 => ⟨S_, .f32⟩
  | 43 => ⟨S4096x4096, .f32⟩
  | 44 => ⟨S4096x4096, .f32⟩
  | 45 => ⟨S_, .f32⟩
  | 46 => ⟨S4096x4096, .f32⟩
  | 47 => ⟨S4096x4096, .f32⟩
  | 48 => ⟨S_, .f32⟩
  | 49 => ⟨S4096x4096, .f32⟩
  | 50 => ⟨S4096x4096, .f32⟩
  | 51 => ⟨S4096x4096, .f32⟩
  | 52 => ⟨S4096x4096, .f32⟩
  | 53 => ⟨S4096x4096, .i1⟩
  | 54 => ⟨S4096x4096, .f32⟩
  | 55 => ⟨S4096x4096, .f32⟩
  | 56 => ⟨S4096x4096, .f32⟩
  | 57 => ⟨S4096x4096, .f32⟩
  | 58 => ⟨S4096x4096, .f32⟩
  | 59 => ⟨S4096x4096, .f32⟩
  | 60 => ⟨S4096x4096, .f32⟩
  | 61 => ⟨S4096x4096, .f32⟩
  | 62 => ⟨S_, .f32⟩
  | 63 => ⟨S_, .f32⟩
  | 64 => ⟨S4096x4096, .f32⟩
  | 65 => ⟨S4096x4096, .f32⟩
  | 66 => ⟨S_, .f32⟩
  | 67 => ⟨S4096, .f32⟩
  | 68 => ⟨S_, .f32⟩
  | 69 => ⟨S4096, .f32⟩
  | 70 => ⟨S4096, .f32⟩
  | 71 => ⟨S4096, .f32⟩
  | 72 => ⟨S_, .f32⟩
  | 73 => ⟨S_, .f32⟩
  | 74 => ⟨S4096x4096, .f32⟩
  | 75 => ⟨S4096x4096, .f32⟩
  | 76 => ⟨S_, .f32⟩
  | 77 => ⟨S4096, .f32⟩
  | 78 => ⟨S_, .f32⟩
  | 79 => ⟨S4096, .f32⟩
  | 80 => ⟨S4096, .f32⟩
  | 81 => ⟨S4096, .f32⟩
  | 82 => ⟨S_, .f32⟩
  | 83 => ⟨S4096, .f32⟩
  | 84 => ⟨S4096, .i1⟩
  | 85 => ⟨S4096, .f32⟩
  | 86 => ⟨S_, .f32⟩
  | 87 => ⟨S_, .f32⟩
  | 88 => ⟨S4096, .f32⟩
  | 89 => ⟨S4096, .f32⟩
  | 90 => ⟨S_, .f32⟩
  | 91 => ⟨S_, .f32⟩
  | 92 => ⟨S_, .f32⟩
  | 93 => ⟨S_, .f32⟩
  | 94 => ⟨S4096, .i1⟩
  | 95 => ⟨S4096, .i32⟩
  | 96 => ⟨S_, .i32⟩
  | 97 => ⟨S_, .i32⟩
  | 98 => ⟨S_, .f32⟩
  | 99 => ⟨S_, .f32⟩
  | 100 => ⟨S_, .f32⟩
  | 101 => ⟨S1x4096, .i1⟩
  | 102 => ⟨S4096, .i1⟩
  | 103 => ⟨S1x4096, .f32⟩
  | 104 => ⟨S4096, .f32⟩
  | 105 => ⟨S_, .f32⟩
  | 106 => ⟨S_, .f32⟩
  | 107 => ⟨S4096, .f32⟩
  | 108 => ⟨S4096, .f32⟩
  | 109 => ⟨S_, .f32⟩
  | 110 => ⟨S_, .f32⟩
  | 111 => ⟨S1, .f32⟩
  | 112 => ⟨S_, .f32⟩
  | 113 => ⟨S_, .f32⟩
  | 114 => ⟨S_, .f32⟩
  | 115 => ⟨S_, .f32⟩
  | 116 => ⟨S1x4096, .i1⟩
  | 117 => ⟨S4096, .i1⟩
  | 118 => ⟨S1x4096, .f32⟩
  | 119 => ⟨S4096, .f32⟩
  | 120 => ⟨S_, .f32⟩
  | 121 => ⟨S_, .f32⟩
  | 122 => ⟨S4096, .f32⟩
  | 123 => ⟨S4096, .f32⟩
  | 124 => ⟨S_, .f32⟩
  | 125 => ⟨S_, .f32⟩
  | 126 => ⟨S1, .f32⟩
  | 127 => ⟨S_, .f32⟩
  | _ => ⟨S4096x512, .f32⟩

abbrev hbmTy0_1 (i : Nat) : BufTy := match i % 128 with
  | 0 => ⟨S_, .f32⟩
  | 1 => ⟨S_, .f32⟩
  | 2 => ⟨S_, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_call1_cst : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_v26 : Ref sig .tc := ⟨.hbm, 61, rfl⟩
abbrev main_cst_5 : Ref sig .tc := ⟨.hbm, 62, rfl⟩
abbrev main_call2_v0 : Ref sig .tc := ⟨.hbm, 63, rfl⟩
abbrev main_call2_v1 : Ref sig .tc := ⟨.hbm, 64, rfl⟩
abbrev main_v27 : Ref sig .tc := ⟨.hbm, 65, rfl⟩
abbrev main_cst_6 : Ref sig .tc := ⟨.hbm, 66, rfl⟩
abbrev main_v28 : Ref sig .tc := ⟨.hbm, 67, rfl⟩
abbrev main_cst_7 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_8 : Ref sig .tc := ⟨.hbm, 72, rfl⟩
abbrev main_call3_v0 : Ref sig .tc := ⟨.hbm, 73, rfl⟩
abbrev main_call3_v1 : Ref sig .tc := ⟨.hbm, 74, rfl⟩
abbrev main_v32 : Ref sig .tc := ⟨.hbm, 75, rfl⟩
abbrev main_cst_9 : Ref sig .tc := ⟨.hbm, 76, rfl⟩
abbrev main_v33 : Ref sig .tc := ⟨.hbm, 77, rfl⟩
abbrev main_cst_10 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_cst_11 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_cst_12 : Ref sig .tc := ⟨.hbm, 86, rfl⟩
abbrev main_call4_v0 : Ref sig .tc := ⟨.hbm, 87, rfl⟩
abbrev main_call4_v1 : Ref sig .tc := ⟨.hbm, 88, rfl⟩
abbrev main_v40 : Ref sig .tc := ⟨.hbm, 89, rfl⟩
abbrev main_cst_13 : Ref sig .tc := ⟨.hbm, 90, rfl⟩
abbrev main_v41 : Ref sig .tc := ⟨.hbm, 91, rfl⟩
abbrev main_cst_14 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_c_15 : Ref sig .tc := ⟨.hbm, 96, rfl⟩
abbrev main_v45 : Ref sig .tc := ⟨.hbm, 97, rfl⟩
abbrev main_v46 : Ref sig .tc := ⟨.hbm, 98, rfl⟩
abbrev main_cst_16 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_cst_17 : Ref sig .tc := ⟨.hbm, 105, rfl⟩
abbrev main_call5_v0 : Ref sig .tc := ⟨.hbm, 106, rfl⟩
abbrev main_call5_v1 : Ref sig .tc := ⟨.hbm, 107, rfl⟩
abbrev main_v52 : Ref sig .tc := ⟨.hbm, 108, rfl⟩
abbrev main_cst_18 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_19 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_cst_20 : Ref sig .tc := ⟨.hbm, 120, rfl⟩
abbrev main_call6_v0 : Ref sig .tc := ⟨.hbm, 121, rfl⟩
abbrev main_call6_v1 : Ref sig .tc := ⟨.hbm, 122, rfl⟩
abbrev main_v62 : Ref sig .tc := ⟨.hbm, 123, rfl⟩
abbrev main_cst_21 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_cst_22 : Ref sig .tc := ⟨.hbm, 128, rfl⟩
abbrev main_v66 : Ref sig .tc := ⟨.hbm, 129, rfl⟩
abbrev main_v67 : Ref sig .tc := ⟨.hbm, 130, rfl⟩

abbrev nD : Nat := 1
abbrev τ : Topo := Topo.v7x

variable {F : FTy → Type} [FloatOps F]

class Facts₀ : Prop where
  transposes_S4096x512_S512x4096_1_0 : S4096x512.Transposes [1, 0] S512x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  natLt_1_32 : 1 < 32
  reducesTo_S4096x4096_S4096_d1 : S4096x4096.ReducesTo [1] S4096
  h_S_ : 0 < S_.numel
  bcast_S_S4096 : S_.BroadcastsInDim S4096 (![] : Fin 0 → Fin S4096.rank)
  reducesTo_S4096_S_d0 : S4096.ReducesTo [0] S_
  slices_S4096x4096_S1x4096_4095_0 : S4096x4096.Slices ![4095, 0] S1x4096
  shapeCasts_S1x4096_S4096 : S1x4096.ShapeCasts S4096
  slices_S4096_S1_4095 : S4096.Slices ![4095] S1
  shapeCasts_S1_S_ : S1.ShapeCasts S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.BitsLoop.lean ====
/-
  The counted loop of the pairwise kernel's body, by its invariant.  One trip `k` of the loop reads column tile `k` of
  the resident feature matrix and of the resident label row, forms the tile of pairwise similarities and masks, and adds
  the tile's five masked row sums into five column accumulators (each loaded whole, added to, stored whole).  The
  accumulators do not feed one another, so what a trip leaves in each is a function of that accumulator's own prior
  contents and of the two read-only operands; the invariant says that before trip `k` each accumulator holds the
  `k`-fold iterate of its step from the contents it had when the loop was entered.  Stated for every float instance.
-/
import proofs.«416473_j45569603010930_3_alg».proof.Proof.Gen.Kernel.Loops
import proofs.«416473_j45569603010930_3_alg».proof.Proof.Gen.Kernel.Launch
import Idealize.ShloMosaic.Lib.Tactic

noncomputable section

namespace Cert.Proof.KB

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none
local notation "𝕄" => MT nD τ sig Unit (Elt F) ℕ (UU nD τ) ℕ

/-- The whole-buffer rectangle of a column accumulator, and trip `k`'s tile of the feature matrix (512 rows from row
    `512 k`) and of the label row (512 columns from column `512 k`), at the program's own offset chains. -/
abbrev rAcc : Rect S512x1 := Rect.unit (s := S512x1) ![0, 0] S512x1.size inb_S512x1_S512x1_0_0
abbrev rXj (k : Fin k0_t1_loop.trips) : Rect S4096x512 := Rect.unit (s := S4096x512) (k0_off2 k) S512x512.size (k0_off2_inb k)
abbrev rTj (k : Fin k0_t1_loop.trips) : Rect S1x4096 := Rect.unit (s := S1x4096) (k0_off3 k) S1x512.size (k0_off3_inb k)

section Trips

variable (c : Dev nD) (i : grid0.Coords)
  (arg1 : Memref sig .tc .vmem S4096x512 .bf16) (harg1 : arg1.IsWhole)
  (arg2 : Memref sig .tc .vmem S512x1 .i32) (harg2 : arg2.IsWhole)
  (arg3 : Memref sig .tc .vmem S1x4096 .i32) (harg3 : arg3.IsWhole)
  (arg4 : Memref sig .tc .vmem S512x1 .f32) (harg4 : arg4.IsWhole)
  (arg5 : Memref sig .tc .vmem S512x8 .f32) (harg5 : arg5.IsWhole)
  (arg6 : Memref sig .tc .vmem S512x1 .f32) (harg6 : arg6.IsWhole)
  (arg7 : Memref sig .tc .vmem S512x1 .f32) (harg7 : arg7.IsWhole)
  (arg8 : Memref sig .tc .vmem S512x1 .f32) (harg8 : arg8.IsWhole)
  (arg9 : Memref sig .tc .vmem S512x1 .f32) (harg9 : arg9.IsWhole)
  (arg10 : Memref sig .tc .vmem S512x1 .f32) (harg10 : arg10.IsWhole)
  (v4 : FVec F S512x512 .bf16) (v6 : IVec S512x1 32) (v8 : FVec F S512x1 .f32) (v11 : IVec S512x1 32) (c0_i32 : BitVec 32)
  (x1 : Buf (Elt F) (arg1.view.loc (c : Thread nD τ)))
  (x3 : Buf (Elt F) (arg3.view.loc (c : Thread nD τ)))

/-- What a trip holds: the two read-only operands at their contents and the five accumulators at theirs. -/
abbrev TRIP (f6 : Buf (Elt F) (arg6.view.loc (c : Thread nD τ))) (f7 : Buf (Elt F) (arg7.view.loc (c : Thread nD τ)))
    (f8 : Buf (Elt F) (arg8.view.loc (c : Thread nD τ))) (f9 : Buf (Elt F) (arg9.view.loc (c : Thread nD τ)))
    (f10 : Buf (Elt F) (arg10.view.loc (c : Thread nD τ))) : sProp 𝕄 :=
  iprop((arg1.view.loc (c : Thread nD τ) ↦[arg1.view.set]{fullShare} x1)
    ∗ (arg3.view.loc (c : Thread nD τ) ↦[arg3.view.set]{fullShare} x3)
    ∗ (arg6.view.loc (c : Thread nD τ) ↦[arg6.view.set]{fullShare} f6)
    ∗ (arg7.view.loc (c : Thread nD τ) ↦[arg7.view.set]{fullShare} f7)
    ∗ (arg8.view.loc (c : Thread nD τ) ↦[arg8.view.set]{fullShare} f8)
    ∗ (arg9.view.loc (c : Thread nD τ) ↦[arg9.view.set]{fullShare} f9)
    ∗ (arg10.view.loc (c : Thread nD τ) ↦[arg10.view.set]{fullShare} f10))

/-- Trip `k`'s tile of the feature matrix and of the label row, as loaded. -/
abbrev xTile (k : Fin k0_t1_loop.trips) : Vec F S512x512 .bf16 := View.readAt (Elt F) arg1.view (rXj k).toLoadRect x1
abbrev tTile (k : Fin k0_t1_loop.trips) : Vec F S1x512 .i32 := View.readAt (Elt F) arg3.view (rTj k).toLoadRect x3

/-- What trip `k` leaves in each accumulator over its prior contents: one whole-buffer store of the accumulator read back
    plus the tile's masked row sum (the count of positive pairs; their loss; their similarity; the negatives' loss; the
    negatives' similarity). -/
def STEP6 (k : Fin k0_t1_loop.trips) (f : Buf (Elt F) (arg6.view.loc (c : Thread nD τ))) : Buf (Elt F) (arg6.view.loc (c : Thread nD τ)) :=
  arg6.view.writes (Elt F) f
    [⟨rAcc, k0_pay12 (k0_pay8 v4 v6 v8 v11 c0_i32 1#32 k (xTile c arg1 x1 k) (tTile c arg3 x3 k))
        (View.readAt (Elt F) arg6.view rAcc.toLoadRect f)⟩]
def STEP7 (k : Fin k0_t1_loop.trips) (f : Buf (Elt F) (arg7.view.loc (c : Thread nD τ))) : Buf (Elt F) (arg7.view.loc (c : Thread nD τ)) :=
  arg7.view.writes (Elt F) f
    [⟨rAcc, k0_pay13 (k0_pay8 v4 v6 v8 v11 c0_i32 1#32 k (xTile c arg1 x1 k) (tTile c arg3 x3 k))
        (k0_pay10 v4 v8 v11 c0_i32 1#32 k (xTile c arg1 x1 k))
        (View.readAt (Elt F) arg7.view rAcc.toLoadRect f)⟩]
def STEP8 (k : Fin k0_t1_loop.trips) (f : Buf (Elt F) (arg8.view.loc (c : Thread nD τ))) : Buf (Elt F) (arg8.view.loc (c : Thread nD τ)) :=
  arg8.view.writes (Elt F) f
    [⟨rAcc, k0_pay1 (View.readAt (Elt F) arg8.view rAcc.toLoadRect f)
        (k0_pay14 (k0_pay7 v4 v8 v11 c0_i32 1#32 k (xTile c arg1 x1 k))
          (k0_pay8 v4 v6 v8 v11 c0_i32 1#32 k (xTile c arg1 x1 k) (tTile c arg3 x3 k)))⟩]
def STEP9 (k : Fin k0_t1_loop.trips) (f : Buf (Elt F) (arg9.view.loc (c : Thread nD τ))) : Buf (Elt F) (arg9.view.loc (c : Thread nD τ)) :=
  arg9.view.writes (Elt F) f
    [⟨rAcc, k0_pay2 (k0_pay9 (F := F) v6 (tTile c arg3 x3 k))
        (k0_pay11 (k0_pay5 v4 (xTile c arg1 x1 k)) (Scalar.ofBits .f32 0x3F000000#32))
        (View.readAt (Elt F) arg9.view rAcc.toLoadRect f)⟩]
def STEP10 (k : Fin k0_t1_loop.trips) (f : Buf (Elt F) (arg10.view.loc (c : Thread nD τ))) : Buf (Elt F) (arg10.view.loc (c : Thread nD τ)) :=
  arg10.view.writes (Elt F) f
    [⟨rAcc, k0_pay3 (k0_pay5 v4 (xTile c arg1 x1 k)) (k0_pay9 (F := F) v6 (tTile c arg3 x3 k))
        (View.readAt (Elt F) arg10.view rAcc.toLoadRect f)⟩]

/-- One trip, run once at a symbolic trip: from the operands at `x1`, `x3` and the accumulators at `f6 … f10` the
    loop's region runs to the same with each accumulator at its step. -/
theorem trip (k : Fin k0_t1_loop.trips) (f6 : Buf (Elt F) (arg6.view.loc (c : Thread nD τ))) (f7 : Buf (Elt F) (arg7.view.loc (c : Thread nD τ)))
    (f8 : Buf (Elt F) (arg8.view.loc (c : Thread nD τ))) (f9 : Buf (Elt F) (arg9.view.loc (c : Thread nD τ)))
    (f10 : Buf (Elt F) (arg10.view.loc (c : Thread nD τ))) :
    TRIP c arg1 arg3 arg6 arg7 arg8 arg9 arg10 x1 x3 f6 f7 f8 f9 f10
      ⊢ wp frame (wpE (defs₀ (F := F)) 𝒱₀ c none) Set.univ
          (k0_t1_body i arg1 harg1 arg2 harg2 arg3 harg3 arg4 harg4 arg5 harg5 arg6 harg6 arg7 harg7 arg8 harg8 arg9 harg9 arg10 harg10 v4 v6 v8 v11 c0_i32 k ())
          (fun _ => TRIP c arg1 arg3 arg6 arg7 arg8 arg9 arg10 x1 x3
            (STEP6 c arg1 arg3 arg6 v4 v6 v8 v11 c0_i32 x1 x3 k f6)
            (STEP7 c arg1 arg3 arg7 v4 v6 v8 v11 c0_i32 x1 x3 k f7)
            (STEP8 c arg1 arg3 arg8 v4 v6 v8 v11 c0_i32 x1 x3 k f8)
            (STEP9 c arg1 arg3 arg9 v4 v6 x1 x3 k f9)
            (STEP10 c arg1 arg3 arg10 v4 v6 x1 x3 k f10)) := by
  unfold k0_t1_body STEP6 STEP7 STEP8 STEP9 STEP10
  iintro ⟨H1, H3, H6, H7, H8, H9, H10⟩
  sl_exec
  sl_step
  sl_close

/-- Each accumulator after `n` trips from its contents at the loop's entry (constant once the trips are exhausted, a
    case the invariant never meets). -/
def ACC6 (f₀ : Buf (Elt F) (arg6.view.loc (c : Thread nD τ))) : ℕ → Buf (Elt F) (arg6.view.loc (c : Thread nD τ))
  | 0 => f₀
  | n + 1 => if h : n < k0_t1_loop.trips then STEP6 c arg1 arg3 arg6 v4 v6 v8 v11 c0_i32 x1 x3 ⟨n, h⟩ (ACC6 f₀ n) else ACC6 f₀ n
def ACC7 (f₀ : Buf (Elt F) (arg7.view.loc (c : Thread nD τ))) : ℕ → Buf (Elt F) (arg7.view.loc (c : Thread nD τ))
  | 0 => f₀
  | n + 1 => if h : n < k0_t1_loop.trips then STEP7 c arg1 arg3 arg7 v4 v6 v8 v11 c0_i32 x1 x3 ⟨n, h⟩ (ACC7 f₀ n) else ACC7 f₀ n
def ACC8 (f₀ : Buf (Elt F) (arg8.view.loc (c : Thread nD τ))) : ℕ → Buf (Elt F) (arg8.view.loc (c : Thread nD τ))
  | 0 => f₀
  | n + 1 => if h : n < k0_t1_loop.trips then STEP8 c arg1 arg3 arg8 v4 v6 v8 v11 c0_i32 x1 x3 ⟨n, h⟩ (ACC8 f₀ n) else ACC8 f₀ n
def ACC9 (f₀ : Buf (Elt F) (arg9.view.loc (c : Thread nD τ))) : ℕ → Buf (Elt F) (arg9.view.loc (c : Thread nD τ))
  | 0 => f₀
  | n + 1 => if h : n < k0_t1_loop.trips then STEP9 c arg1 arg3 arg9 v4 v6 x1 x3 ⟨n, h⟩ (ACC9 f₀ n) else ACC9 f₀ n
def ACC10 (f₀ : Buf (Elt F) (arg10.view.loc (c : Thread nD τ))) : ℕ → Buf (Elt F) (arg10.view.loc (c : Thread nD τ))
  | 0 => f₀
  | n + 1 => if h : n < k0_t1_loop.trips then STEP10 c arg1 arg3 arg10 v4 v6 x1 x3 ⟨n, h⟩ (ACC10 f₀ n) else ACC10 f₀ n

theorem ACC6_succ (f₀ : Buf (Elt F) (arg6.view.loc (c : Thread nD τ))) (k : Fin k0_t1_loop.trips) :
    ACC6 c arg1 arg3 arg6 v4 v6 v8 v11 c0_i32 x1 x3 f₀ (k.val + 1)
      = STEP6 c arg1 arg3 arg6 v4 v6 v8 v11 c0_i32 x1 x3 k (ACC6 c arg1 arg3 arg6 v4 v6 v8 v11 c0_i32 x1 x3 f₀ k.val) := by
  rw [ACC6.eq_2]; exact dif_pos k.isLt
theorem ACC7_succ (f₀ : Buf (Elt F) (arg7.view.loc (c : Thread nD τ))) (k : Fin k0_t1_loop.trips) :
    ACC7 c arg1 arg3 arg7 v4 v6 v8 v11 c0_i32 x1 x3 f₀ (k.val + 1)
      = STEP7 c arg1 arg3 arg7 v4 v6 v8 v11 c0_i32 x1 x3 k (ACC7 c arg1 arg3 arg7 v4 v6 v8 v11 c0_i32 x1 x3 f₀ k.val) := by
  rw [ACC7.eq_2]; exact dif_pos k.isLt
theorem ACC8_succ (f₀ : Buf (Elt F) (arg8.view.loc (c : Thread nD τ))) (k : Fin k0_t1_loop.trips) :
    ACC8 c arg1 arg3 arg8 v4 v6 v8 v11 c0_i32 x1 x3 f₀ (k.val + 1)
      = STEP8 c arg1 arg3 arg8 v4 v6 v8 v11 c0_i32 x1 x3 k (ACC8 c arg1 arg3 arg8 v4 v6 v8 v11 c0_i32 x1 x3 f₀ k.val) := by
  rw [ACC8.eq_2]; exact dif_pos k.isLt
theorem ACC9_succ (f₀ : Buf (Elt F) (arg9.view.loc (c : Thread nD τ))) (k : Fin k0_t1_loop.trips) :
    ACC9 c arg1 arg3 arg9 v4 v6 x1 x3 f₀ (k.val + 1)
      = STEP9 c arg1 arg3 arg9 v4 v6 x1 x3 k (ACC9 c arg1 arg3 arg9 v4 v6 x1 x3 f₀ k.val) := by
  rw [ACC9.eq_2]; exact dif_pos k.isLt
theorem ACC10_succ (f₀ : Buf (Elt F) (arg10.view.loc (c : Thread nD τ))) (k : Fin k0_t1_loop.trips) :
    ACC10 c arg1 arg3 arg10 v4 v6 x1 x3 f₀ (k.val + 1)
      = STEP10 c arg1 arg3 arg10 v4 v6 x1 x3 k (ACC10 c arg1 arg3 arg10 v4 v6 x1 x3 f₀ k.val) := by
  rw [ACC10.eq_2]; exact dif_pos k.isLt

set_option warn.classDefReducibility false in
/-- The loop by its invariant: before trip `k` each accumulator holds its `k`-fold iterate from its entry contents, and
    one trip takes each to the next iterate. -/
@[sl_loop] def loopInv (g6 : Buf (Elt F) (arg6.view.loc (c : Thread nD τ))) (g7 : Buf (Elt F) (arg7.view.loc (c : Thread nD τ)))
    (g8 : Buf (Elt F) (arg8.view.loc (c : Thread nD τ))) (g9 : Buf (Elt F) (arg9.view.loc (c : Thread nD τ)))
    (g10 : Buf (Elt F) (arg10.view.loc (c : Thread nD τ))) :
    Gen.LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 v4 v6 v8 v11 c0_i32 where
  inv k _ := TRIP c arg1 arg3 arg6 arg7 arg8 arg9 arg10 x1 x3
    (ACC6 c arg1 arg3 arg6 v4 v6 v8 v11 c0_i32 x1 x3 g6 k) (ACC7 c arg1 arg3 arg7 v4 v6 v8 v11 c0_i32 x1 x3 g7 k)
    (ACC8 c arg1 arg3 arg8 v4 v6 v8 v11 c0_i32 x1 x3 g8 k) (ACC9 c arg1 arg3 arg9 v4 v6 x1 x3 g9 k)
    (ACC10 c arg1 arg3 arg10 v4 v6 x1 x3 g10 k)
  step k acc := by
    rw [ACC6_succ, ACC7_succ, ACC8_succ, ACC9_succ, ACC10_succ]
    exact trip c i arg1 harg1 arg2 harg2 arg3 harg3 arg4 harg4 arg5 harg5 arg6 harg6 arg7 harg7 arg8 harg8 arg9 harg9 arg10 harg10 v4 v6 v8 v11 c0_i32 x1 x3 k _ _ _ _ _

end Trips

end Cert.Proof.KB

end
-- ==== Proof.BitsBody.lean ====
/-
  The pairwise kernel's body, the pipeline's proof data and the frame run.  At grid point `i` the body reads row tile
  `i` of the resident feature matrix, the point's label column and self-similarity column, zeroes five column
  accumulators, sweeps the eight column tiles (the loop, by its invariant), and stores the five accumulators side by
  side, followed by three zero columns, into the point's output block.  What the accumulators hold after `n` trips is
  stated as VALUES (`accV6 … accV10`: zeros, then per trip the accumulator plus the tile's masked row sum), the output
  block as `OUT` of the four input blocks; the body's triple, the proof data over those values, the body obligation at
  every point and the run around the region follow.  Stated for every float instance.
-/
import proofs.«416473_j45569603010930_3_alg».proof.Proof.BitsLoop
import proofs.«416473_j45569603010930_3_alg».proof.Proof.Gen.Kernel.Frame
import Idealize.ShloMosaic.Lib.Pipeline.Value

noncomputable section

namespace Cert.Proof.KB

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UU nD τ) ℕ

/-- The output block's whole rectangle, and row tile `i` of the feature matrix. -/
abbrev rOut : Rect S512x8 := Rect.unit (s := S512x8) ![0, 0] S512x8.size inb_S512x8_S512x8_0_0
abbrev rXi (i : grid0.Coords) : Rect S4096x512 := Rect.unit (s := S4096x512) (k0_off1 i) S512x512.size (k0_off1_inb i)

/-! ## The accumulators' values -/

section Values

variable (X1 : Vec F S4096x512 .bf16) (X3 : Vec F S1x4096 .i32)
  (v4 : FVec F S512x512 .bf16) (v6 : IVec S512x1 32) (v8 : FVec F S512x1 .f32) (v11 : IVec S512x1 32) (c0_i32 : BitVec 32)

/-- The accumulators' values after `n` trips: the zeros stored before the loop, then per trip the accumulator plus the
    masked row sum of the trip's tile (constant once the trips are exhausted). -/
def accV6 : ℕ → FVec F S512x1 .f32
  | 0 => k0_pay19
  | n + 1 => if h : n < k0_t1_loop.trips then
      k0_pay12 (k0_pay8 v4 v6 v8 v11 c0_i32 1#32 ⟨n, h⟩ (View.ld X1 (rXj ⟨n, h⟩)) (View.ld X3 (rTj ⟨n, h⟩))) (View.ld (accV6 n) rAcc)
    else accV6 n
def accV7 : ℕ → FVec F S512x1 .f32
  | 0 => k0_pay20
  | n + 1 => if h : n < k0_t1_loop.trips then
      k0_pay13 (k0_pay8 v4 v6 v8 v11 c0_i32 1#32 ⟨n, h⟩ (View.ld X1 (rXj ⟨n, h⟩)) (View.ld X3 (rTj ⟨n, h⟩)))
        (k0_pay10 v4 v8 v11 c0_i32 1#32 ⟨n, h⟩ (View.ld X1 (rXj ⟨n, h⟩))) (View.ld (accV7 n) rAcc)
    else accV7 n
def accV8 : ℕ → FVec F S512x1 .f32
  | 0 => k0_pay21
  | n + 1 => if h : n < k0_t1_loop.trips then
      k0_pay1 (View.ld (accV8 n) rAcc)
        (k0_pay14 (k0_pay7 v4 v8 v11 c0_i32 1#32 ⟨n, h⟩ (View.ld X1 (rXj ⟨n, h⟩)))
          (k0_pay8 v4 v6 v8 v11 c0_i32 1#32 ⟨n, h⟩ (View.ld X1 (rXj ⟨n, h⟩)) (View.ld X3 (rTj ⟨n, h⟩))))
    else accV8 n
def accV9 : ℕ → FVec F S512x1 .f32
  | 0 => k0_pay22
  | n + 1 => if h : n < k0_t1_loop.trips then
      k0_pay2 (k0_pay9 (F := F) v6 (View.ld X3 (rTj ⟨n, h⟩)))
        (k0_pay11 (k0_pay5 v4 (View.ld X1 (rXj ⟨n, h⟩))) (Scalar.ofBits .f32 0x3F000000#32)) (View.ld (accV9 n) rAcc)
    else accV9 n
def accV10 : ℕ → FVec F S512x1 .f32
  | 0 => k0_pay23
  | n + 1 => if h : n < k0_t1_loop.trips then
      k0_pay3 (k0_pay5 v4 (View.ld X1 (rXj ⟨n, h⟩))) (k0_pay9 (F := F) v6 (View.ld X3 (rTj ⟨n, h⟩))) (View.ld (accV10 n) rAcc)
    else accV10 n

end Values

/-- The whole-buffer rectangles' offsets are zero. -/
theorem off0 : (![0, 0] : Fin 2 → ℕ) = fun _ => 0 := funext fun a => by fin_cases a <;> rfl

/-- One store through an accumulator's whole rectangle covers every index; likewise the output block's. -/
theorem cover_rAcc (w : Vec F S512x1 .f32) (y : S512x1.Idx) :
    ∃ pc ∈ ([⟨rAcc, w⟩] : List (View.Piece (Elt F) S512x1 .f32)), y ∈ pc.1.set :=
  View.cover_of_tiled [⟨rAcc, w⟩] S512x1.size (by rfl) y
theorem cover_rOut (w : Vec F S512x8 .f32) (y : S512x8.Idx) :
    ∃ pc ∈ ([⟨rOut, w⟩] : List (View.Piece (Elt F) S512x8 .f32)), y ∈ pc.1.set :=
  View.cover_of_tiled [⟨rOut, w⟩] S512x8.size (by rfl) y

section Bufs

variable (c : Dev nD)
  (arg1 : Memref sig .tc .vmem S4096x512 .bf16) (arg3 : Memref sig .tc .vmem S1x4096 .i32)
  (arg6 arg7 arg8 arg9 arg10 : Memref sig .tc .vmem S512x1 .f32)
  (v4 : FVec F S512x512 .bf16) (v6 : IVec S512x1 32) (v8 : FVec F S512x1 .f32) (v11 : IVec S512x1 32) (c0_i32 : BitVec 32)
  (f1 : Buf (Elt F) (arg1.view.loc (c : Thread nD τ))) (f3 : Buf (Elt F) (arg3.view.loc (c : Thread nD τ)))

/-- An accumulator as the loop finds it: the zeros stored over whatever the scratch held. -/
def accAt0 (a : Memref sig .tc .vmem S512x1 .f32) (z : FVec F S512x1 .f32) : Buf (Elt F) (a.view.loc (c : Thread nD τ)) :=
  a.view.writes (Elt F) a.view.junk [⟨rAcc, z⟩]

theorem read_accAt0 (a : Memref sig .tc .vmem S512x1 .f32) (z : FVec F S512x1 .f32) : a.view.read (Elt F) (accAt0 c a z) = z := by
  unfold accAt0; rw [View.read_writes_eq_canon _ _ _ (cover_rAcc _), View.canon_unit_zero off0]

/-- The buffer the invariant carries after `n` trips reads as the accumulator's value after `n` trips, from what the
    operand buffers read as (each trip's store covers the buffer; the payload's loads read the contents). -/
theorem read_ACC6 : ∀ n, arg6.view.read (Elt F) (ACC6 c arg1 arg3 arg6 v4 v6 v8 v11 c0_i32 f1 f3 (accAt0 c arg6 k0_pay19) n)
      = accV6 (arg1.view.read (Elt F) f1) (arg3.view.read (Elt F) f3) v4 v6 v8 v11 c0_i32 n
  | 0 => read_accAt0 c arg6 _
  | n + 1 => by
    unfold ACC6 accV6
    split
    · next h =>
      unfold STEP6 xTile tTile
      rw [View.read_writes_eq_canon _ _ _ (cover_rAcc _), View.canon_unit_zero off0, View.readAt_eq_ld, View.readAt_eq_ld,
        View.readAt_eq_ld, read_ACC6 n]
    · exact read_ACC6 n
theorem read_ACC7 : ∀ n, arg7.view.read (Elt F) (ACC7 c arg1 arg3 arg7 v4 v6 v8 v11 c0_i32 f1 f3 (accAt0 c arg7 k0_pay20) n)
      = accV7 (arg1.view.read (Elt F) f1) (arg3.view.read (Elt F) f3) v4 v6 v8 v11 c0_i32 n
  | 0 => read_accAt0 c arg7 _
  | n + 1 => by
    unfold ACC7 accV7
    split
    · next h =>
      unfold STEP7 xTile tTile
      rw [View.read_writes_eq_canon _ _ _ (cover_rAcc _), View.canon_unit_zero off0, View.readAt_eq_ld, View.readAt_eq_ld,
        View.readAt_eq_ld, read_ACC7 n]
    · exact read_ACC7 n
theorem read_ACC8 : ∀ n, arg8.view.read (Elt F) (ACC8 c arg1 arg3 arg8 v4 v6 v8 v11 c0_i32 f1 f3 (accAt0 c arg8 k0_pay21) n)
      = accV8 (arg1.view.read (Elt F) f1) (arg3.view.read (Elt F) f3) v4 v6 v8 v11 c0_i32 n
  | 0 => read_accAt0 c arg8 _
  | n + 1 => by
    unfold ACC8 accV8
    split
    · next h =>
      unfold STEP8 xTile tTile
      rw [View.read_writes_eq_canon _ _ _ (cover_rAcc _), View.canon_unit_zero off0, View.readAt_eq_ld, View.readAt_eq_ld,
        View.readAt_eq_ld, read_ACC8 n]
    · exact read_ACC8 n
theorem read_ACC9 : ∀ n, arg9.view.read (Elt F) (ACC9 c arg1 arg3 arg9 v4 v6 f1 f3 (accAt0 c arg9 k0_pay22) n)
      = accV9 (arg1.view.read (Elt F) f1) (arg3.view.read (Elt F) f3) v4 v6 n
  | 0 => read_accAt0 c arg9 _
  | n + 1 => by
    unfold ACC9 accV9
    split
    · next h =>
      unfold STEP9 xTile tTile
      rw [View.read_writes_eq_canon _ _ _ (cover_rAcc _), View.canon_unit_zero off0, View.readAt_eq_ld, View.readAt_eq_ld,
        View.readAt_eq_ld, read_ACC9 n]
    · exact read_ACC9 n
theorem read_ACC10 : ∀ n, arg10.view.read (Elt F) (ACC10 c arg1 arg3 arg10 v4 v6 f1 f3 (accAt0 c arg10 k0_pay23) n)
      = accV10 (arg1.view.read (Elt F) f1) (arg3.view.read (Elt F) f3) v4 v6 n
  | 0 => read_accAt0 c arg10 _
  | n + 1 => by
    unfold ACC10 accV10
    split
    · next h =>
      unfold STEP10 xTile tTile
      rw [View.read_writes_eq_canon _ _ _ (cover_rAcc _), View.canon_unit_zero off0, View.readAt_eq_ld, View.readAt_eq_ld,
        View.readAt_eq_ld, read_ACC10 n]
    · exact read_ACC10 n

end Bufs

/-- What the body leaves in the output block at grid point `i`, from the feature matrix `X1`, the point's label column
    `X2`, the label row `X3` and the point's self-similarity column `X4`: the five accumulators after every trip, side by
    side, then three zero columns. -/
def OUT (i : grid0.Coords) (X1 : Vec F S4096x512 .bf16) (X2 : Vec F S512x1 .i32) (X3 : Vec F S1x4096 .i32) (X4 : Vec F S512x1 .f32) :
    FVec F S512x8 .f32 :=
  k0_pay4
    (View.ld (accV6 X1 X3 (k0_pay15 (View.ld X1 (rXi i))) (k0_pay16 (F := F) (View.ld X2 rAcc)) (k0_pay17 (View.ld X4 rAcc)) (k0_pay18 i) 0#32 k0_t1_loop.trips) rAcc)
    (View.ld (accV7 X1 X3 (k0_pay15 (View.ld X1 (rXi i))) (k0_pay16 (F := F) (View.ld X2 rAcc)) (k0_pay17 (View.ld X4 rAcc)) (k0_pay18 i) 0#32 k0_t1_loop.trips) rAcc)
    (View.ld (accV8 X1 X3 (k0_pay15 (View.ld X1 (rXi i))) (k0_pay16 (F := F) (View.ld X2 rAcc)) (k0_pay17 (View.ld X4 rAcc)) (k0_pay18 i) 0#32 k0_t1_loop.trips) rAcc)
    (View.ld (accV9 X1 X3 (k0_pay15 (View.ld X1 (rXi i))) (k0_pay16 (F := F) (View.ld X2 rAcc)) k0_t1_loop.trips) rAcc)
    (View.ld (accV10 X1 X3 (k0_pay15 (View.ld X1 (rXi i))) (k0_pay16 (F := F) (View.ld X2 rAcc)) k0_t1_loop.trips) rAcc)

/-! ## The body's triple -/

theorem sound_kernel (c : Dev nD) (i : grid0.Coords)
    (arg1 : Memref sig .tc .vmem S4096x512 .bf16) (harg1 : arg1.IsWhole) (arg2 : Memref sig .tc .vmem S512x1 .i32) (harg2 : arg2.IsWhole)
    (arg3 : Memref sig .tc .vmem S1x4096 .i32) (harg3 : arg3.IsWhole) (arg4 : Memref sig .tc .vmem S512x1 .f32) (harg4 : arg4.IsWhole)
    (arg5 : Memref sig .tc .vmem S512x8 .f32) (harg5 : arg5.IsWhole) (arg6 : Memref sig .tc .vmem S512x1 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1 .f32) (harg9 : arg9.IsWhole) (arg10 : Memref sig .tc .vmem S512x1 .f32) (harg10 : arg10.IsWhole)
    (x1 : Vec F S4096x512 .bf16) (x2 : Vec F S512x1 .i32) (x3 : Vec F S1x4096 .i32) (x4 : Vec F S512x1 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (∃ g, arg6.view.loc (c : Thread nD τ) ↦[arg6.view.set]{fullShare} g)
        ∗ (∃ g, arg7.view.loc (c : Thread nD τ) ↦[arg7.view.set]{fullShare} g)
        ∗ (∃ g, arg8.view.loc (c : Thread nD τ) ↦[arg8.view.set]{fullShare} g)
        ∗ (∃ g, arg9.view.loc (c : Thread nD τ) ↦[arg9.view.set]{fullShare} g)
        ∗ (∃ g, arg10.view.loc (c : Thread nD τ) ↦[arg10.view.set]{fullShare} g)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (OUT i x1 x2 x3 x4)
            ∗ (∃ g, arg6.view.loc (c : Thread nD τ) ↦[arg6.view.set]{fullShare} g)
            ∗ (∃ g, arg7.view.loc (c : Thread nD τ) ↦[arg7.view.set]{fullShare} g)
            ∗ (∃ g, arg8.view.loc (c : Thread nD τ) ↦[arg8.view.set]{fullShare} g)
            ∗ (∃ g, arg9.view.loc (c : Thread nD τ) ↦[arg9.view.set]{fullShare} g)
            ∗ (∃ g, arg10.view.loc (c : Thread nD τ) ↦[arg10.view.set]{fullShare} g)) -∗ K ⟨⟩))
      ⊢ wp frame (wpE (defs₀ (F := F)) 𝒱₀ c none) Set.univ
          (cc0__pairwise_kernel i arg1 harg1 arg2 harg2 arg3 harg3 arg4 harg4 arg5 harg5 arg6 harg6 arg7 harg7 arg8 harg8 arg9 harg9 arg10 harg10) K := by
  simp only [cc0__pairwise_kernel_eq_skeleton]; unfold cc0__pairwise_kernel_skel
  unfold owns
  iintro ⟨⟨%f1, %hf1, H1⟩, ⟨%f2, %hf2, H2⟩, ⟨%f3, %hf3, H3⟩, ⟨%f4, %hf4, H4⟩, ⟨%d5, %f5, -, H5⟩, ⟨%g6, H6⟩, ⟨%g7, H7⟩, ⟨%g8, H8⟩, ⟨%g9, H9⟩, ⟨%g10, H10⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover_rOut _), View.canon_unit_zero off0]
    sl_unfold_run_names
    simp only [View.readAt_eq_ld]
    unfold OUT
    refine congr (congr (congr (congr (congrArg k0_pay4 ?_) ?_) ?_) ?_) ?_
    · exact congrArg (fun z => View.ld z rAcc) (read_ACC6 c arg1 arg3 arg6 _ _ _ _ _ f1 f3 _)
    · exact congrArg (fun z => View.ld z rAcc) (read_ACC7 c arg1 arg3 arg7 _ _ _ _ _ f1 f3 _)
    · exact congrArg (fun z => View.ld z rAcc) (read_ACC8 c arg1 arg3 arg8 _ _ _ _ _ f1 f3 _)
    · exact congrArg (fun z => View.ld z rAcc) (read_ACC9 c arg1 arg3 arg9 _ _ f1 f3 _)
    · exact congrArg (fun z => View.ld z rAcc) (read_ACC10 c arg1 arg3 arg10 _ _ f1 f3 _)
  isplitl [H6]; · iexists _; iexact H6
  isplitl [H7]; · iexists _; iexact H7
  isplitl [H8]; · iexists _; iexact H8
  isplitl [H9]; · iexists _; iexact H9
  iexists _; iexact H10

/-! ## The pipeline's proof data -/

variable (m : (ℓ : Loc nD τ sig) → Buf (Elt F) ℓ) (ρ : Dev nD → PrngReg)

/-- The proof data of the one pipeline on core `c`: the arrays as the region finds them; after the body at point `t` each
    input's buffer at its block and the output's at `OUT` of the input blocks; the invariant the scoped rest (the five
    accumulators, at anything between points) and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => OUT (grid0.coords t) (iblk m c 0 t) (iblk m c 1 t) (iblk m c 2 t) (iblk m c 3 t)
  Φ _ := ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = OUT (grid0.coords t) (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- A scratch accumulator as the class invariant holds it and as the body's run names it: one points-to. -/
theorem scr0_eq (c : Dev nD) (f : Buf (Elt F) ((c : Thread nD τ).loc cc0_scratch0)) :
    ((Memref.whole cc0_scratch0 : Memref sig .tc .vmem S512x1 .f32).view.loc (c : Thread nD τ)
        ↦[(Memref.whole cc0_scratch0 : Memref sig .tc .vmem S512x1 .f32).view.set]{fullShare} f : sProp 𝕄)
      = ((c : Thread nD τ).loc cc0_scratch0) ↦{fullShare} f := by
  simp only [Memref.view_whole, View.set_whole]
theorem scr1_eq (c : Dev nD) (f : Buf (Elt F) ((c : Thread nD τ).loc cc0_scratch1)) :
    ((Memref.whole cc0_scratch1 : Memref sig .tc .vmem S512x1 .f32).view.loc (c : Thread nD τ)
        ↦[(Memref.whole cc0_scratch1 : Memref sig .tc .vmem S512x1 .f32).view.set]{fullShare} f : sProp 𝕄)
      = ((c : Thread nD τ).loc cc0_scratch1) ↦{fullShare} f := by
  simp only [Memref.view_whole, View.set_whole]
theorem scr2_eq (c : Dev nD) (f : Buf (Elt F) ((c : Thread nD τ).loc cc0_scratch2)) :
    ((Memref.whole cc0_scratch2 : Memref sig .tc .vmem S512x1 .f32).view.loc (c : Thread nD τ)
        ↦[(Memref.whole cc0_scratch2 : Memref sig .tc .vmem S512x1 .f32).view.set]{fullShare} f : sProp 𝕄)
      = ((c : Thread nD τ).loc cc0_scratch2) ↦{fullShare} f := by
  simp only [Memref.view_whole, View.set_whole]
theorem scr3_eq (c : Dev nD) (f : Buf (Elt F) ((c : Thread nD τ).loc cc0_scratch3)) :
    ((Memref.whole cc0_scratch3 : Memref sig .tc .vmem S512x1 .f32).view.loc (c : Thread nD τ)
        ↦[(Memref.whole cc0_scratch3 : Memref sig .tc .vmem S512x1 .f32).view.set]{fullShare} f : sProp 𝕄)
      = ((c : Thread nD τ).loc cc0_scratch3) ↦{fullShare} f := by
  simp only [Memref.view_whole, View.set_whole]
theorem scr4_eq (c : Dev nD) (f : Buf (Elt F) ((c : Thread nD τ).loc cc0_scratch4)) :
    ((Memref.whole cc0_scratch4 : Memref sig .tc .vmem S512x1 .f32).view.loc (c : Thread nD τ)
        ↦[(Memref.whole cc0_scratch4 : Memref sig .tc .vmem S512x1 .f32).view.set]{fullShare} f : sProp 𝕄)
      = ((c : Thread nD τ).loc cc0_scratch4) ↦{fullShare} f := by
  simp only [Memref.view_whole, View.set_whole]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, the class invariant yields the five accumulators and
    takes them back, so `sound_kernel` applies; the core's `owes` and the generator register pass through unread. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, show (dats m 0 c).Φ t.castSucc = ΦA spec0 c from rfl]
  unfold ΦA
  rw [scopedRest0_eq]
  iintro ⟨⟨⟨⟨%g0, HS0⟩, ⟨%g1, HS1⟩, ⟨%g2, HS2⟩, ⟨%g3, HS3⟩, ⟨%g4, HS4⟩⟩, HR⟩, Ho, ⟨%d0, H0⟩, ⟨%d1, H1⟩, ⟨%d2, H2⟩, ⟨%d3, H3⟩, ⟨%d4, H4⟩⟩
  iapply (sound_kernel c (grid0.coords t) _ _ _ _ _ _ _ _ _ _ (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [HS0]; · iexists g0; rw [scr0_eq]; iexact HS0
  isplitl [HS1]; · iexists g1; rw [scr1_eq]; iexact HS1
  isplitl [HS2]; · iexists g2; rw [scr2_eq]; iexact HS2
  isplitl [HS3]; · iexists g3; rw [scr3_eq]; iexact HS3
  isplitl [HS4]; · iexists g4; rw [scr4_eq]; iexact HS4
  iintro ⟨H0, H1, H2, H3, H4, ⟨%g0', HS0⟩, ⟨%g1', HS1⟩, ⟨%g2', HS2⟩, ⟨%g3', HS3⟩, ⟨%g4', HS4⟩⟩
  isplitl [HS0 HS1 HS2 HS3 HS4 HR]
  · isplitl [HS0 HS1 HS2 HS3 HS4]
    · isplitl [HS0]; · iexists g0'; rw [← scr0_eq]; iexact HS0
      isplitl [HS1]; · iexists g1'; rw [← scr1_eq]; iexact HS1
      isplitl [HS2]; · iexists g2'; rw [← scr2_eq]; iexact HS2
      isplitl [HS3]; · iexists g3'; rw [← scr3_eq]; iexact HS3
      iexists g4'; rw [← scr4_eq]; iexact HS4
    iexact HR
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) 𝒱₀ () Set.univ := fun t => by
  rw [bigSep_W0, bigSep_W0]
  exact sound_body m c t

/-! ## The run, the frame -/

set_option maxHeartbeats 4000000 in
set_option backward.isDefEq.respectTransparency.types false in
/-- At the compiled mesh, for any values, from any memory with zero counters: every weakly fair execution of @main
    terminates, every array of the pipeline ending at what the library computes from the proof data and every other
    unscoped buffer at what the host lines after the region leave of the region's exit contents. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1, hostOps1_1, hostOps1_2])
    (hsub := sfx_sub) (hfresh := sfx_fresh) (hkeep := sfx_keeps) (hmain := hmain m 𝒱₀) (hA := A_eq m) (hΦ := fun _ _ => rfl)

/-- The frame: the program runs to the end, nothing faulting, its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Proof.KB

end
-- ==== Proof.IdealLoop.lean ====
/-
  The counted loop of the pairwise kernel's body, by its invariant.  One trip `k` of the loop reads column tile `k` of
  the resident feature matrix and of the resident label row, forms the tile of pairwise similarities and masks, and adds
  the tile's five masked row sums into five column accumulators (each loaded whole, added to, stored whole).  The
  accumulators do not feed one another, so what a trip leaves in each is a function of that accumulator's own prior
  contents and of the two read-only operands; the invariant says that before trip `k` each accumulator holds the
  `k`-fold iterate of its step from the contents it had when the loop was entered.  Stated for every float instance.
-/
import proofs.«416473_j45569603010930_3_alg».proof.Proof.Gen.KernelIdeal.Loops
import proofs.«416473_j45569603010930_3_alg».proof.Proof.Gen.KernelIdeal.Launch
import Idealize.ShloMosaic.Lib.Tactic

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none
local notation "𝕄" => MT nD τ sig Unit (Elt F) ℕ (UU nD τ) ℕ

/-- The whole-buffer rectangle of a column accumulator, and trip `k`'s tile of the feature matrix (512 rows from row
    `512 k`) and of the label row (512 columns from column `512 k`), at the program's own offset chains. -/
abbrev rAcc : Rect S512x1 := Rect.unit (s := S512x1) ![0, 0] S512x1.size inb_S512x1_S512x1_0_0
abbrev rXj (k : Fin k0_t1_loop.trips) : Rect S4096x512 := Rect.unit (s := S4096x512) (k0_off2 k) S512x512.size (k0_off2_inb k)
abbrev rTj (k : Fin k0_t1_loop.trips) : Rect S1x4096 := Rect.unit (s := S1x4096) (k0_off3 k) S1x512.size (k0_off3_inb k)

section Trips

variable (c : Dev nD) (i : grid0.Coords)
  (arg1 : Memref sig .tc .vmem S4096x512 .bf16) (harg1 : arg1.IsWhole)
  (arg2 : Memref sig .tc .vmem S512x1 .i32) (harg2 : arg2.IsWhole)
  (arg3 : Memref sig .tc .vmem S1x4096 .i32) (harg3 : arg3.IsWhole)
  (arg4 : Memref sig .tc .vmem S512x1 .f32) (harg4 : arg4.IsWhole)
  (arg5 : Memref sig .tc .vmem S512x8 .f32) (harg5 : arg5.IsWhole)
  (arg6 : Memref sig .tc .vmem S512x1 .f32) (harg6 : arg6.IsWhole)
  (arg7 : Memref sig .tc .vmem S512x1 .f32) (harg7 : arg7.IsWhole)
  (arg8 : Memref sig .tc .vmem S512x1 .f32) (harg8 : arg8.IsWhole)
  (arg9 : Memref sig .tc .vmem S512x1 .f32) (harg9 : arg9.IsWhole)
  (arg10 : Memref sig .tc .vmem S512x1 .f32) (harg10 : arg10.IsWhole)
  (v4 : FVec F S512x512 .bf16) (v6 : IVec S512x1 32) (v8 : FVec F S512x1 .f32) (v11 : IVec S512x1 32) (c0_i32 : BitVec 32)
  (x1 : Buf (Elt F) (arg1.view.loc (c : Thread nD τ)))
  (x3 : Buf (Elt F) (arg3.view.loc (c : Thread nD τ)))

/-- What a trip holds: the two read-only operands at their contents and the five accumulators at theirs. -/
abbrev TRIP (f6 : Buf (Elt F) (arg6.view.loc (c : Thread nD τ))) (f7 : Buf (Elt F) (arg7.view.loc (c : Thread nD τ)))
    (f8 : Buf (Elt F) (arg8.view.loc (c : Thread nD τ))) (f9 : Buf (Elt F) (arg9.view.loc (c : Thread nD τ)))
    (f10 : Buf (Elt F) (arg10.view.loc (c : Thread nD τ))) : sProp 𝕄 :=
  iprop((arg1.view.loc (c : Thread nD τ) ↦[arg1.view.set]{fullShare} x1)
    ∗ (arg3.view.loc (c : Thread nD τ) ↦[arg3.view.set]{fullShare} x3)
    ∗ (arg6.view.loc (c : Thread nD τ) ↦[arg6.view.set]{fullShare} f6)
    ∗ (arg7.view.loc (c : Thread nD τ) ↦[arg7.view.set]{fullShare} f7)
    ∗ (arg8.view.loc (c : Thread nD τ) ↦[arg8.view.set]{fullShare} f8)
    ∗ (arg9.view.loc (c : Thread nD τ) ↦[arg9.view.set]{fullShare} f9)
    ∗ (arg10.view.loc (c : Thread nD τ) ↦[arg10.view.set]{fullShare} f10))

/-- Trip `k`'s tile of the feature matrix and of the label row, as loaded. -/
abbrev xTile (k : Fin k0_t1_loop.trips) : Vec F S512x512 .bf16 := View.readAt (Elt F) arg1.view (rXj k).toLoadRect x1
abbrev tTile (k : Fin k0_t1_loop.trips) : Vec F S1x512 .i32 := View.readAt (Elt F) arg3.view (rTj k).toLoadRect x3

/-- What trip `k` leaves in each accumulator over its prior contents: one whole-buffer store of the accumulator read back
    plus the tile's masked row sum (the count of positive pairs; their loss; their similarity; the negatives' loss; the
    negatives' similarity). -/
def STEP6 (k : Fin k0_t1_loop.trips) (f : Buf (Elt F) (arg6.view.loc (c : Thread nD τ))) : Buf (Elt F) (arg6.view.loc (c : Thread nD τ)) :=
  arg6.view.writes (Elt F) f
    [⟨rAcc, k0_pay12 (k0_pay8 v4 v6 v8 v11 c0_i32 1#32 k (xTile c arg1 x1 k) (tTile c arg3 x3 k))
        (View.readAt (Elt F) arg6.view rAcc.toLoadRect f)⟩]
def STEP7 (k : Fin k0_t1_loop.trips) (f : Buf (Elt F) (arg7.view.loc (c : Thread nD τ))) : Buf (Elt F) (arg7.view.loc (c : Thread nD τ)) :=
  arg7.view.writes (Elt F) f
    [⟨rAcc, k0_pay13 (k0_pay8 v4 v6 v8 v11 c0_i32 1#32 k (xTile c arg1 x1 k) (tTile c arg3 x3 k))
        (k0_pay10 v4 v8 v11 c0_i32 1#32 k (xTile c arg1 x1 k))
        (View.readAt (Elt F) arg7.view rAcc.toLoadRect f)⟩]
def STEP8 (k : Fin k0_t1_loop.trips) (f : Buf (Elt F) (arg8.view.loc (c : Thread nD τ))) : Buf (Elt F) (arg8.view.loc (c : Thread nD τ)) :=
  arg8.view.writes (Elt F) f
    [⟨rAcc, k0_pay1 (View.readAt (Elt F) arg8.view rAcc.toLoadRect f)
        (k0_pay14 (k0_pay7 v4 v8 v11 c0_i32 1#32 k (xTile c arg1 x1 k))
          (k0_pay8 v4 v6 v8 v11 c0_i32 1#32 k (xTile c arg1 x1 k) (tTile c arg3 x3 k)))⟩]
def STEP9 (k : Fin k0_t1_loop.trips) (f : Buf (Elt F) (arg9.view.loc (c : Thread nD τ))) : Buf (Elt F) (arg9.view.loc (c : Thread nD τ)) :=
  arg9.view.writes (Elt F) f
    [⟨rAcc, k0_pay2 (k0_pay9 (F := F) v6 (tTile c arg3 x3 k))
        (k0_pay11 (k0_pay5 v4 (xTile c arg1 x1 k)) (Scalar.ofBits .f32 0x3F000000#32))
        (View.readAt (Elt F) arg9.view rAcc.toLoadRect f)⟩]
def STEP10 (k : Fin k0_t1_loop.trips) (f : Buf (Elt F) (arg10.view.loc (c : Thread nD τ))) : Buf (Elt F) (arg10.view.loc (c : Thread nD τ)) :=
  arg10.view.writes (Elt F) f
    [⟨rAcc, k0_pay3 (k0_pay5 v4 (xTile c arg1 x1 k)) (k0_pay9 (F := F) v6 (tTile c arg3 x3 k))
        (View.readAt (Elt F) arg10.view rAcc.toLoadRect f)⟩]

/-- One trip, run once at a symbolic trip: from the operands at `x1`, `x3` and the accumulators at `f6 … f10` the
    loop's region runs to the same with each accumulator at its step. -/
theorem trip (k : Fin k0_t1_loop.trips) (f6 : Buf (Elt F) (arg6.view.loc (c : Thread nD τ))) (f7 : Buf (Elt F) (arg7.view.loc (c : Thread nD τ)))
    (f8 : Buf (Elt F) (arg8.view.loc (c : Thread nD τ))) (f9 : Buf (Elt F) (arg9.view.loc (c : Thread nD τ)))
    (f10 : Buf (Elt F) (arg10.view.loc (c : Thread nD τ))) :
    TRIP c arg1 arg3 arg6 arg7 arg8 arg9 arg10 x1 x3 f6 f7 f8 f9 f10
      ⊢ wp frame (wpE (defs₀ (F := F)) 𝒱₀ c none) Set.univ
          (k0_t1_body i arg1 harg1 arg2 harg2 arg3 harg3 arg4 harg4 arg5 harg5 arg6 harg6 arg7 harg7 arg8 harg8 arg9 harg9 arg10 harg10 v4 v6 v8 v11 c0_i32 k ())
          (fun _ => TRIP c arg1 arg3 arg6 arg7 arg8 arg9 arg10 x1 x3
            (STEP6 c arg1 arg3 arg6 v4 v6 v8 v11 c0_i32 x1 x3 k f6)
            (STEP7 c arg1 arg3 arg7 v4 v6 v8 v11 c0_i32 x1 x3 k f7)
            (STEP8 c arg1 arg3 arg8 v4 v6 v8 v11 c0_i32 x1 x3 k f8)
            (STEP9 c arg1 arg3 arg9 v4 v6 x1 x3 k f9)
            (STEP10 c arg1 arg3 arg10 v4 v6 x1 x3 k f10)) := by
  unfold k0_t1_body STEP6 STEP7 STEP8 STEP9 STEP10
  iintro ⟨H1, H3, H6, H7, H8, H9, H10⟩
  sl_exec
  sl_step
  sl_close

/-- Each accumulator after `n` trips from its contents at the loop's entry (constant once the trips are exhausted, a
    case the invariant never meets). -/
def ACC6 (f₀ : Buf (Elt F) (arg6.view.loc (c : Thread nD τ))) : ℕ → Buf (Elt F) (arg6.view.loc (c : Thread nD τ))
  | 0 => f₀
  | n + 1 => if h : n < k0_t1_loop.trips then STEP6 c arg1 arg3 arg6 v4 v6 v8 v11 c0_i32 x1 x3 ⟨n, h⟩ (ACC6 f₀ n) else ACC6 f₀ n
def ACC7 (f₀ : Buf (Elt F) (arg7.view.loc (c : Thread nD τ))) : ℕ → Buf (Elt F) (arg7.view.loc (c : Thread nD τ))
  | 0 => f₀
  | n + 1 => if h : n < k0_t1_loop.trips then STEP7 c arg1 arg3 arg7 v4 v6 v8 v11 c0_i32 x1 x3 ⟨n, h⟩ (ACC7 f₀ n) else ACC7 f₀ n
def ACC8 (f₀ : Buf (Elt F) (arg8.view.loc (c : Thread nD τ))) : ℕ → Buf (Elt F) (arg8.view.loc (c : Thread nD τ))
  | 0 => f₀
  | n + 1 => if h : n < k0_t1_loop.trips then STEP8 c arg1 arg3 arg8 v4 v6 v8 v11 c0_i32 x1 x3 ⟨n, h⟩ (ACC8 f₀ n) else ACC8 f₀ n
def ACC9 (f₀ : Buf (Elt F) (arg9.view.loc (c : Thread nD τ))) : ℕ → Buf (Elt F) (arg9.view.loc (c : Thread nD τ))
  | 0 => f₀
  | n + 1 => if h : n < k0_t1_loop.trips then STEP9 c arg1 arg3 arg9 v4 v6 x1 x3 ⟨n, h⟩ (ACC9 f₀ n) else ACC9 f₀ n
def ACC10 (f₀ : Buf (Elt F) (arg10.view.loc (c : Thread nD τ))) : ℕ → Buf (Elt F) (arg10.view.loc (c : Thread nD τ))
  | 0 => f₀
  | n + 1 => if h : n < k0_t1_loop.trips then STEP10 c arg1 arg3 arg10 v4 v6 x1 x3 ⟨n, h⟩ (ACC10 f₀ n) else ACC10 f₀ n

theorem ACC6_succ (f₀ : Buf (Elt F) (arg6.view.loc (c : Thread nD τ))) (k : Fin k0_t1_loop.trips) :
    ACC6 c arg1 arg3 arg6 v4 v6 v8 v11 c0_i32 x1 x3 f₀ (k.val + 1)
      = STEP6 c arg1 arg3 arg6 v4 v6 v8 v11 c0_i32 x1 x3 k (ACC6 c arg1 arg3 arg6 v4 v6 v8 v11 c0_i32 x1 x3 f₀ k.val) := by
  rw [ACC6.eq_2]; exact dif_pos k.isLt
theorem ACC7_succ (f₀ : Buf (Elt F) (arg7.view.loc (c : Thread nD τ))) (k : Fin k0_t1_loop.trips) :
    ACC7 c arg1 arg3 arg7 v4 v6 v8 v11 c0_i32 x1 x3 f₀ (k.val + 1)
      = STEP7 c arg1 arg3 arg7 v4 v6 v8 v11 c0_i32 x1 x3 k (ACC7 c arg1 arg3 arg7 v4 v6 v8 v11 c0_i32 x1 x3 f₀ k.val) := by
  rw [ACC7.eq_2]; exact dif_pos k.isLt
theorem ACC8_succ (f₀ : Buf (Elt F) (arg8.view.loc (c : Thread nD τ))) (k : Fin k0_t1_loop.trips) :
    ACC8 c arg1 arg3 arg8 v4 v6 v8 v11 c0_i32 x1 x3 f₀ (k.val + 1)
      = STEP8 c arg1 arg3 arg8 v4 v6 v8 v11 c0_i32 x1 x3 k (ACC8 c arg1 arg3 arg8 v4 v6 v8 v11 c0_i32 x1 x3 f₀ k.val) := by
  rw [ACC8.eq_2]; exact dif_pos k.isLt
theorem ACC9_succ (f₀ : Buf (Elt F) (arg9.view.loc (c : Thread nD τ))) (k : Fin k0_t1_loop.trips) :
    ACC9 c arg1 arg3 arg9 v4 v6 x1 x3 f₀ (k.val + 1)
      = STEP9 c arg1 arg3 arg9 v4 v6 x1 x3 k (ACC9 c arg1 arg3 arg9 v4 v6 x1 x3 f₀ k.val) := by
  rw [ACC9.eq_2]; exact dif_pos k.isLt
theorem ACC10_succ (f₀ : Buf (Elt F) (arg10.view.loc (c : Thread nD τ))) (k : Fin k0_t1_loop.trips) :
    ACC10 c arg1 arg3 arg10 v4 v6 x1 x3 f₀ (k.val + 1)
      = STEP10 c arg1 arg3 arg10 v4 v6 x1 x3 k (ACC10 c arg1 arg3 arg10 v4 v6 x1 x3 f₀ k.val) := by
  rw [ACC10.eq_2]; exact dif_pos k.isLt

set_option warn.classDefReducibility false in
/-- The loop by its invariant: before trip `k` each accumulator holds its `k`-fold iterate from its entry contents, and
    one trip takes each to the next iterate. -/
@[sl_loop] def loopInv (g6 : Buf (Elt F) (arg6.view.loc (c : Thread nD τ))) (g7 : Buf (Elt F) (arg7.view.loc (c : Thread nD τ)))
    (g8 : Buf (Elt F) (arg8.view.loc (c : Thread nD τ))) (g9 : Buf (Elt F) (arg9.view.loc (c : Thread nD τ)))
    (g10 : Buf (Elt F) (arg10.view.loc (c : Thread nD τ))) :
    Gen.LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 v4 v6 v8 v11 c0_i32 where
  inv k _ := TRIP c arg1 arg3 arg6 arg7 arg8 arg9 arg10 x1 x3
    (ACC6 c arg1 arg3 arg6 v4 v6 v8 v11 c0_i32 x1 x3 g6 k) (ACC7 c arg1 arg3 arg7 v4 v6 v8 v11 c0_i32 x1 x3 g7 k)
    (ACC8 c arg1 arg3 arg8 v4 v6 v8 v11 c0_i32 x1 x3 g8 k) (ACC9 c arg1 arg3 arg9 v4 v6 x1 x3 g9 k)
    (ACC10 c arg1 arg3 arg10 v4 v6 x1 x3 g10 k)
  step k acc := by
    rw [ACC6_succ, ACC7_succ, ACC8_succ, ACC9_succ, ACC10_succ]
    exact trip c i arg1 harg1 arg2 harg2 arg3 harg3 arg4 harg4 arg5 harg5 arg6 harg6 arg7 harg7 arg8 harg8 arg9 harg9 arg10 harg10 v4 v6 v8 v11 c0_i32 x1 x3 k _ _ _ _ _

end Trips

end Cert.Proof.KI

end
-- ==== Proof.IdealBody.lean ====
/-
  The pairwise kernel's body, the pipeline's proof data and the frame run.  At grid point `i` the body reads row tile
  `i` of the resident feature matrix, the point's label column and self-similarity column, zeroes five column
  accumulators, sweeps the eight column tiles (the loop, by its invariant), and stores the five accumulators side by
  side, followed by three zero columns, into the point's output block.  What the accumulators hold after `n` trips is
  stated as VALUES (`accV6 … accV10`: zeros, then per trip the accumulator plus the tile's masked row sum), the output
  block as `OUT` of the four input blocks; the body's triple, the proof data over those values, the body obligation at
  every point and the run around the region follow.  Stated for every float instance.
-/
import proofs.«416473_j45569603010930_3_alg».proof.Proof.IdealLoop
import proofs.«416473_j45569603010930_3_alg».proof.Proof.Gen.KernelIdeal.Frame
import Idealize.ShloMosaic.Lib.Pipeline.Value

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UU nD τ) ℕ

/-- The output block's whole rectangle, and row tile `i` of the feature matrix. -/
abbrev rOut : Rect S512x8 := Rect.unit (s := S512x8) ![0, 0] S512x8.size inb_S512x8_S512x8_0_0
abbrev rXi (i : grid0.Coords) : Rect S4096x512 := Rect.unit (s := S4096x512) (k0_off1 i) S512x512.size (k0_off1_inb i)

/-! ## The accumulators' values -/

section Values

variable (X1 : Vec F S4096x512 .bf16) (X3 : Vec F S1x4096 .i32)
  (v4 : FVec F S512x512 .bf16) (v6 : IVec S512x1 32) (v8 : FVec F S512x1 .f32) (v11 : IVec S512x1 32) (c0_i32 : BitVec 32)

/-- The accumulators' values after `n` trips: the zeros stored before the loop, then per trip the accumulator plus the
    masked row sum of the trip's tile (constant once the trips are exhausted). -/
def accV6 : ℕ → FVec F S512x1 .f32
  | 0 => k0_pay19
  | n + 1 => if h : n < k0_t1_loop.trips then
      k0_pay12 (k0_pay8 v4 v6 v8 v11 c0_i32 1#32 ⟨n, h⟩ (View.ld X1 (rXj ⟨n, h⟩)) (View.ld X3 (rTj ⟨n, h⟩))) (View.ld (accV6 n) rAcc)
    else accV6 n
def accV7 : ℕ → FVec F S512x1 .f32
  | 0 => k0_pay20
  | n + 1 => if h : n < k0_t1_loop.trips then
      k0_pay13 (k0_pay8 v4 v6 v8 v11 c0_i32 1#32 ⟨n, h⟩ (View.ld X1 (rXj ⟨n, h⟩)) (View.ld X3 (rTj ⟨n, h⟩)))
        (k0_pay10 v4 v8 v11 c0_i32 1#32 ⟨n, h⟩ (View.ld X1 (rXj ⟨n, h⟩))) (View.ld (accV7 n) rAcc)
    else accV7 n
def accV8 : ℕ → FVec F S512x1 .f32
  | 0 => k0_pay21
  | n + 1 => if h : n < k0_t1_loop.trips then
      k0_pay1 (View.ld (accV8 n) rAcc)
        (k0_pay14 (k0_pay7 v4 v8 v11 c0_i32 1#32 ⟨n, h⟩ (View.ld X1 (rXj ⟨n, h⟩)))
          (k0_pay8 v4 v6 v8 v11 c0_i32 1#32 ⟨n, h⟩ (View.ld X1 (rXj ⟨n, h⟩)) (View.ld X3 (rTj ⟨n, h⟩))))
    else accV8 n
def accV9 : ℕ → FVec F S512x1 .f32
  | 0 => k0_pay22
  | n + 1 => if h : n < k0_t1_loop.trips then
      k0_pay2 (k0_pay9 (F := F) v6 (View.ld X3 (rTj ⟨n, h⟩)))
        (k0_pay11 (k0_pay5 v4 (View.ld X1 (rXj ⟨n, h⟩))) (Scalar.ofBits .f32 0x3F000000#32)) (View.ld (accV9 n) rAcc)
    else accV9 n
def accV10 : ℕ → FVec F S512x1 .f32
  | 0 => k0_pay23
  | n + 1 => if h : n < k0_t1_loop.trips then
      k0_pay3 (k0_pay5 v4 (View.ld X1 (rXj ⟨n, h⟩))) (k0_pay9 (F := F) v6 (View.ld X3 (rTj ⟨n, h⟩))) (View.ld (accV10 n) rAcc)
    else accV10 n

end Values

/-- The whole-buffer rectangles' offsets are zero. -/
theorem off0 : (![0, 0] : Fin 2 → ℕ) = fun _ => 0 := funext fun a => by fin_cases a <;> rfl

/-- One store through an accumulator's whole rectangle covers every index; likewise the output block's. -/
theorem cover_rAcc (w : Vec F S512x1 .f32) (y : S512x1.Idx) :
    ∃ pc ∈ ([⟨rAcc, w⟩] : List (View.Piece (Elt F) S512x1 .f32)), y ∈ pc.1.set :=
  View.cover_of_tiled [⟨rAcc, w⟩] S512x1.size (by rfl) y
theorem cover_rOut (w : Vec F S512x8 .f32) (y : S512x8.Idx) :
    ∃ pc ∈ ([⟨rOut, w⟩] : List (View.Piece (Elt F) S512x8 .f32)), y ∈ pc.1.set :=
  View.cover_of_tiled [⟨rOut, w⟩] S512x8.size (by rfl) y

section Bufs

variable (c : Dev nD)
  (arg1 : Memref sig .tc .vmem S4096x512 .bf16) (arg3 : Memref sig .tc .vmem S1x4096 .i32)
  (arg6 arg7 arg8 arg9 arg10 : Memref sig .tc .vmem S512x1 .f32)
  (v4 : FVec F S512x512 .bf16) (v6 : IVec S512x1 32) (v8 : FVec F S512x1 .f32) (v11 : IVec S512x1 32) (c0_i32 : BitVec 32)
  (f1 : Buf (Elt F) (arg1.view.loc (c : Thread nD τ))) (f3 : Buf (Elt F) (arg3.view.loc (c : Thread nD τ)))

/-- An accumulator as the loop finds it: the zeros stored over whatever the scratch held. -/
def accAt0 (a : Memref sig .tc .vmem S512x1 .f32) (z : FVec F S512x1 .f32) : Buf (Elt F) (a.view.loc (c : Thread nD τ)) :=
  a.view.writes (Elt F) a.view.junk [⟨rAcc, z⟩]

theorem read_accAt0 (a : Memref sig .tc .vmem S512x1 .f32) (z : FVec F S512x1 .f32) : a.view.read (Elt F) (accAt0 c a z) = z := by
  unfold accAt0; rw [View.read_writes_eq_canon _ _ _ (cover_rAcc _), View.canon_unit_zero off0]

/-- The buffer the invariant carries after `n` trips reads as the accumulator's value after `n` trips, from what the
    operand buffers read as (each trip's store covers the buffer; the payload's loads read the contents). -/
theorem read_ACC6 : ∀ n, arg6.view.read (Elt F) (ACC6 c arg1 arg3 arg6 v4 v6 v8 v11 c0_i32 f1 f3 (accAt0 c arg6 k0_pay19) n)
      = accV6 (arg1.view.read (Elt F) f1) (arg3.view.read (Elt F) f3) v4 v6 v8 v11 c0_i32 n
  | 0 => read_accAt0 c arg6 _
  | n + 1 => by
    unfold ACC6 accV6
    split
    · next h =>
      unfold STEP6 xTile tTile
      rw [View.read_writes_eq_canon _ _ _ (cover_rAcc _), View.canon_unit_zero off0, View.readAt_eq_ld, View.readAt_eq_ld,
        View.readAt_eq_ld, read_ACC6 n]
    · exact read_ACC6 n
theorem read_ACC7 : ∀ n, arg7.view.read (Elt F) (ACC7 c arg1 arg3 arg7 v4 v6 v8 v11 c0_i32 f1 f3 (accAt0 c arg7 k0_pay20) n)
      = accV7 (arg1.view.read (Elt F) f1) (arg3.view.read (Elt F) f3) v4 v6 v8 v11 c0_i32 n
  | 0 => read_accAt0 c arg7 _
  | n + 1 => by
    unfold ACC7 accV7
    split
    · next h =>
      unfold STEP7 xTile tTile
      rw [View.read_writes_eq_canon _ _ _ (cover_rAcc _), View.canon_unit_zero off0, View.readAt_eq_ld, View.readAt_eq_ld,
        View.readAt_eq_ld, read_ACC7 n]
    · exact read_ACC7 n
theorem read_ACC8 : ∀ n, arg8.view.read (Elt F) (ACC8 c arg1 arg3 arg8 v4 v6 v8 v11 c0_i32 f1 f3 (accAt0 c arg8 k0_pay21) n)
      = accV8 (arg1.view.read (Elt F) f1) (arg3.view.read (Elt F) f3) v4 v6 v8 v11 c0_i32 n
  | 0 => read_accAt0 c arg8 _
  | n + 1 => by
    unfold ACC8 accV8
    split
    · next h =>
      unfold STEP8 xTile tTile
      rw [View.read_writes_eq_canon _ _ _ (cover_rAcc _), View.canon_unit_zero off0, View.readAt_eq_ld, View.readAt_eq_ld,
        View.readAt_eq_ld, read_ACC8 n]
    · exact read_ACC8 n
theorem read_ACC9 : ∀ n, arg9.view.read (Elt F) (ACC9 c arg1 arg3 arg9 v4 v6 f1 f3 (accAt0 c arg9 k0_pay22) n)
      = accV9 (arg1.view.read (Elt F) f1) (arg3.view.read (Elt F) f3) v4 v6 n
  | 0 => read_accAt0 c arg9 _
  | n + 1 => by
    unfold ACC9 accV9
    split
    · next h =>
      unfold STEP9 xTile tTile
      rw [View.read_writes_eq_canon _ _ _ (cover_rAcc _), View.canon_unit_zero off0, View.readAt_eq_ld, View.readAt_eq_ld,
        View.readAt_eq_ld, read_ACC9 n]
    · exact read_ACC9 n
theorem read_ACC10 : ∀ n, arg10.view.read (Elt F) (ACC10 c arg1 arg3 arg10 v4 v6 f1 f3 (accAt0 c arg10 k0_pay23) n)
      = accV10 (arg1.view.read (Elt F) f1) (arg3.view.read (Elt F) f3) v4 v6 n
  | 0 => read_accAt0 c arg10 _
  | n + 1 => by
    unfold ACC10 accV10
    split
    · next h =>
      unfold STEP10 xTile tTile
      rw [View.read_writes_eq_canon _ _ _ (cover_rAcc _), View.canon_unit_zero off0, View.readAt_eq_ld, View.readAt_eq_ld,
        View.readAt_eq_ld, read_ACC10 n]
    · exact read_ACC10 n

end Bufs

/-- What the body leaves in the output block at grid point `i`, from the feature matrix `X1`, the point's label column
    `X2`, the label row `X3` and the point's self-similarity column `X4`: the five accumulators after every trip, side by
    side, then three zero columns. -/
def OUT (i : grid0.Coords) (X1 : Vec F S4096x512 .bf16) (X2 : Vec F S512x1 .i32) (X3 : Vec F S1x4096 .i32) (X4 : Vec F S512x1 .f32) :
    FVec F S512x8 .f32 :=
  k0_pay4
    (View.ld (accV6 X1 X3 (k0_pay15 (View.ld X1 (rXi i))) (k0_pay16 (F := F) (View.ld X2 rAcc)) (k0_pay17 (View.ld X4 rAcc)) (k0_pay18 i) 0#32 k0_t1_loop.trips) rAcc)
    (View.ld (accV7 X1 X3 (k0_pay15 (View.ld X1 (rXi i))) (k0_pay16 (F := F) (View.ld X2 rAcc)) (k0_pay17 (View.ld X4 rAcc)) (k0_pay18 i) 0#32 k0_t1_loop.trips) rAcc)
    (View.ld (accV8 X1 X3 (k0_pay15 (View.ld X1 (rXi i))) (k0_pay16 (F := F) (View.ld X2 rAcc)) (k0_pay17 (View.ld X4 rAcc)) (k0_pay18 i) 0#32 k0_t1_loop.trips) rAcc)
    (View.ld (accV9 X1 X3 (k0_pay15 (View.ld X1 (rXi i))) (k0_pay16 (F := F) (View.ld X2 rAcc)) k0_t1_loop.trips) rAcc)
    (View.ld (accV10 X1 X3 (k0_pay15 (View.ld X1 (rXi i))) (k0_pay16 (F := F) (View.ld X2 rAcc)) k0_t1_loop.trips) rAcc)

/-! ## The body's triple -/

theorem sound_kernel (c : Dev nD) (i : grid0.Coords)
    (arg1 : Memref sig .tc .vmem S4096x512 .bf16) (harg1 : arg1.IsWhole) (arg2 : Memref sig .tc .vmem S512x1 .i32) (harg2 : arg2.IsWhole)
    (arg3 : Memref sig .tc .vmem S1x4096 .i32) (harg3 : arg3.IsWhole) (arg4 : Memref sig .tc .vmem S512x1 .f32) (harg4 : arg4.IsWhole)
    (arg5 : Memref sig .tc .vmem S512x8 .f32) (harg5 : arg5.IsWhole) (arg6 : Memref sig .tc .vmem S512x1 .f32) (harg6 : arg6.IsWhole)
    (arg7 : Memref sig .tc .vmem S512x1 .f32) (harg7 : arg7.IsWhole) (arg8 : Memref sig .tc .vmem S512x1 .f32) (harg8 : arg8.IsWhole)
    (arg9 : Memref sig .tc .vmem S512x1 .f32) (harg9 : arg9.IsWhole) (arg10 : Memref sig .tc .vmem S512x1 .f32) (harg10 : arg10.IsWhole)
    (x1 : Vec F S4096x512 .bf16) (x2 : Vec F S512x1 .i32) (x3 : Vec F S1x4096 .i32) (x4 : Vec F S512x1 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d)
        ∗ (∃ g, arg6.view.loc (c : Thread nD τ) ↦[arg6.view.set]{fullShare} g)
        ∗ (∃ g, arg7.view.loc (c : Thread nD τ) ↦[arg7.view.set]{fullShare} g)
        ∗ (∃ g, arg8.view.loc (c : Thread nD τ) ↦[arg8.view.set]{fullShare} g)
        ∗ (∃ g, arg9.view.loc (c : Thread nD τ) ↦[arg9.view.set]{fullShare} g)
        ∗ (∃ g, arg10.view.loc (c : Thread nD τ) ↦[arg10.view.set]{fullShare} g)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (OUT i x1 x2 x3 x4)
            ∗ (∃ g, arg6.view.loc (c : Thread nD τ) ↦[arg6.view.set]{fullShare} g)
            ∗ (∃ g, arg7.view.loc (c : Thread nD τ) ↦[arg7.view.set]{fullShare} g)
            ∗ (∃ g, arg8.view.loc (c : Thread nD τ) ↦[arg8.view.set]{fullShare} g)
            ∗ (∃ g, arg9.view.loc (c : Thread nD τ) ↦[arg9.view.set]{fullShare} g)
            ∗ (∃ g, arg10.view.loc (c : Thread nD τ) ↦[arg10.view.set]{fullShare} g)) -∗ K ⟨⟩))
      ⊢ wp frame (wpE (defs₀ (F := F)) 𝒱₀ c none) Set.univ
          (cc0__pairwise_kernel i arg1 harg1 arg2 harg2 arg3 harg3 arg4 harg4 arg5 harg5 arg6 harg6 arg7 harg7 arg8 harg8 arg9 harg9 arg10 harg10) K := by
  simp only [cc0__pairwise_kernel_eq_skeleton]; unfold cc0__pairwise_kernel_skel
  unfold owns
  iintro ⟨⟨%f1, %hf1, H1⟩, ⟨%f2, %hf2, H2⟩, ⟨%f3, %hf3, H3⟩, ⟨%f4, %hf4, H4⟩, ⟨%d5, %f5, -, H5⟩, ⟨%g6, H6⟩, ⟨%g7, H7⟩, ⟨%g8, H8⟩, ⟨%g9, H9⟩, ⟨%g10, H10⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover_rOut _), View.canon_unit_zero off0]
    sl_unfold_run_names
    simp only [View.readAt_eq_ld]
    unfold OUT
    refine congr (congr (congr (congr (congrArg k0_pay4 ?_) ?_) ?_) ?_) ?_
    · exact congrArg (fun z => View.ld z rAcc) (read_ACC6 c arg1 arg3 arg6 _ _ _ _ _ f1 f3 _)
    · exact congrArg (fun z => View.ld z rAcc) (read_ACC7 c arg1 arg3 arg7 _ _ _ _ _ f1 f3 _)
    · exact congrArg (fun z => View.ld z rAcc) (read_ACC8 c arg1 arg3 arg8 _ _ _ _ _ f1 f3 _)
    · exact congrArg (fun z => View.ld z rAcc) (read_ACC9 c arg1 arg3 arg9 _ _ f1 f3 _)
    · exact congrArg (fun z => View.ld z rAcc) (read_ACC10 c arg1 arg3 arg10 _ _ f1 f3 _)
  isplitl [H6]; · iexists _; iexact H6
  isplitl [H7]; · iexists _; iexact H7
  isplitl [H8]; · iexists _; iexact H8
  isplitl [H9]; · iexists _; iexact H9
  iexists _; iexact H10

/-! ## The pipeline's proof data -/

variable (m : (ℓ : Loc nD τ sig) → Buf (Elt F) ℓ) (ρ : Dev nD → PrngReg)

/-- The proof data of the one pipeline on core `c`: the arrays as the region finds them; after the body at point `t` each
    input's buffer at its block and the output's at `OUT` of the input blocks; the invariant the scoped rest (the five
    accumulators, at anything between points) and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => OUT (grid0.coords t) (iblk m c 0 t) (iblk m c 1 t) (iblk m c 2 t) (iblk m c 3 t)
  Φ _ := ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = OUT (grid0.coords t) (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- A scratch accumulator as the class invariant holds it and as the body's run names it: one points-to. -/
theorem scr0_eq (c : Dev nD) (f : Buf (Elt F) ((c : Thread nD τ).loc cc0_scratch0)) :
    ((Memref.whole cc0_scratch0 : Memref sig .tc .vmem S512x1 .f32).view.loc (c : Thread nD τ)
        ↦[(Memref.whole cc0_scratch0 : Memref sig .tc .vmem S512x1 .f32).view.set]{fullShare} f : sProp 𝕄)
      = ((c : Thread nD τ).loc cc0_scratch0) ↦{fullShare} f := by
  simp only [Memref.view_whole, View.set_whole]
theorem scr1_eq (c : Dev nD) (f : Buf (Elt F) ((c : Thread nD τ).loc cc0_scratch1)) :
    ((Memref.whole cc0_scratch1 : Memref sig .tc .vmem S512x1 .f32).view.loc (c : Thread nD τ)
        ↦[(Memref.whole cc0_scratch1 : Memref sig .tc .vmem S512x1 .f32).view.set]{fullShare} f : sProp 𝕄)
      = ((c : Thread nD τ).loc cc0_scratch1) ↦{fullShare} f := by
  simp only [Memref.view_whole, View.set_whole]
theorem scr2_eq (c : Dev nD) (f : Buf (Elt F) ((c : Thread nD τ).loc cc0_scratch2)) :
    ((Memref.whole cc0_scratch2 : Memref sig .tc .vmem S512x1 .f32).view.loc (c : Thread nD τ)
        ↦[(Memref.whole cc0_scratch2 : Memref sig .tc .vmem S512x1 .f32).view.set]{fullShare} f : sProp 𝕄)
      = ((c : Thread nD τ).loc cc0_scratch2) ↦{fullShare} f := by
  simp only [Memref.view_whole, View.set_whole]
theorem scr3_eq (c : Dev nD) (f : Buf (Elt F) ((c : Thread nD τ).loc cc0_scratch3)) :
    ((Memref.whole cc0_scratch3 : Memref sig .tc .vmem S512x1 .f32).view.loc (c : Thread nD τ)
        ↦[(Memref.whole cc0_scratch3 : Memref sig .tc .vmem S512x1 .f32).view.set]{fullShare} f : sProp 𝕄)
      = ((c : Thread nD τ).loc cc0_scratch3) ↦{fullShare} f := by
  simp only [Memref.view_whole, View.set_whole]
theorem scr4_eq (c : Dev nD) (f : Buf (Elt F) ((c : Thread nD τ).loc cc0_scratch4)) :
    ((Memref.whole cc0_scratch4 : Memref sig .tc .vmem S512x1 .f32).view.loc (c : Thread nD τ)
        ↦[(Memref.whole cc0_scratch4 : Memref sig .tc .vmem S512x1 .f32).view.set]{fullShare} f : sProp 𝕄)
      = ((c : Thread nD τ).loc cc0_scratch4) ↦{fullShare} f := by
  simp only [Memref.view_whole, View.set_whole]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, the class invariant yields the five accumulators and
    takes them back, so `sound_kernel` applies; the core's `owes` and the generator register pass through unread. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, show (dats m 0 c).Φ t.castSucc = ΦA spec0 c from rfl]
  unfold ΦA
  rw [scopedRest0_eq]
  iintro ⟨⟨⟨⟨%g0, HS0⟩, ⟨%g1, HS1⟩, ⟨%g2, HS2⟩, ⟨%g3, HS3⟩, ⟨%g4, HS4⟩⟩, HR⟩, Ho, ⟨%d0, H0⟩, ⟨%d1, H1⟩, ⟨%d2, H2⟩, ⟨%d3, H3⟩, ⟨%d4, H4⟩⟩
  iapply (sound_kernel c (grid0.coords t) _ _ _ _ _ _ _ _ _ _ (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [HS0]; · iexists g0; rw [scr0_eq]; iexact HS0
  isplitl [HS1]; · iexists g1; rw [scr1_eq]; iexact HS1
  isplitl [HS2]; · iexists g2; rw [scr2_eq]; iexact HS2
  isplitl [HS3]; · iexists g3; rw [scr3_eq]; iexact HS3
  isplitl [HS4]; · iexists g4; rw [scr4_eq]; iexact HS4
  iintro ⟨H0, H1, H2, H3, H4, ⟨%g0', HS0⟩, ⟨%g1', HS1⟩, ⟨%g2', HS2⟩, ⟨%g3', HS3⟩, ⟨%g4', HS4⟩⟩
  isplitl [HS0 HS1 HS2 HS3 HS4 HR]
  · isplitl [HS0 HS1 HS2 HS3 HS4]
    · isplitl [HS0]; · iexists g0'; rw [← scr0_eq]; iexact HS0
      isplitl [HS1]; · iexists g1'; rw [← scr1_eq]; iexact HS1
      isplitl [HS2]; · iexists g2'; rw [← scr2_eq]; iexact HS2
      isplitl [HS3]; · iexists g3'; rw [← scr3_eq]; iexact HS3
      iexists g4'; rw [← scr4_eq]; iexact HS4
    iexact HR
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) 𝒱₀ () Set.univ := fun t => by
  rw [bigSep_W0, bigSep_W0]
  exact sound_body m c t

/-! ## The run, the frame -/

set_option maxHeartbeats 4000000 in
set_option backward.isDefEq.respectTransparency.types false in
/-- At the compiled mesh, for any values, from any memory with zero counters: every weakly fair execution of @main
    terminates, every array of the pipeline ending at what the library computes from the proof data and every other
    unscoped buffer at what the host lines after the region leave of the region's exit contents. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1, hostOps1_1, hostOps1_2])
    (hsub := sfx_sub) (hfresh := sfx_fresh) (hkeep := sfx_keeps) (hmain := hmain m 𝒱₀) (hA := A_eq m) (hΦ := fun _ _ => rfl)

/-- The frame: the program runs to the end, nothing faulting, its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Proof.KI

end
-- ==== Proof.Spec.lean ====
/-
  The mathematics both programs compute, on the extended reals.  From the feature matrix `x` (4096 rows of 512 entries)
  and the label vector `t`: the similarity of rows `i`, `j` is their inner product; a pair is POSITIVE when the labels
  agree and the similarity is below one, NEGATIVE when the labels differ; row `i`'s six statistics are the number of its
  positive pairs, the sum of their losses `softplus(-2 (s - 1/2))`, the sum of their similarities, the number of its
  negative pairs, the sum of their losses `softplus(40 (s - 1/2))` and the sum of their similarities.  The four results
  are functions of those six vectors through one chain of host operations, written here once (`lossOf`, `precOf`,
  `lastOf`) and never opened: both programs end with that chain, applied to vectors that the proof shows equal.
-/
import Idealize.ShloMosaic.PureOps.Ideal
import Idealize.ShloMosaic.Lib.ValueIdx

noncomputable section

namespace Cert.Spec

open Idealize.ShloMosaic Idealize.ShloMosaic.ValueIdx

abbrev SX : Shape := ⟨2, ![4096, 512]⟩
abbrev SN : Shape := ⟨1, ![4096]⟩
abbrev S1 : Shape := ⟨1, ![1]⟩
abbrev S0 : Shape := ⟨0, ![]⟩

section Rows

variable (x : FVec Ideal SX .f32) (t : IVec SN 32)

/-- The similarity of rows `i` and `j`: their inner product. -/
def sim (i j : Fin 4096) : EReal := ∑ k : Fin 512, x (ix2 i k) * x (ix2 j k)

/-- Rows `i` and `j` carry the same label. -/
def same (i j : Fin 4096) : Prop := t (ix1 i) = t (ix1 j)

instance (i j : Fin 4096) : Decidable (same t i j) := by unfold same; infer_instance

/-- A positive pair: the same label and a similarity below one. -/
def pos (i j : Fin 4096) : Prop := same t i j ∧ sim x i j < Ideal.ofBits .f32 0x3F800000#32

instance (i j : Fin 4096) : Decidable (pos x t i j) := by unfold pos; exact Classical.dec _

/-- The softplus both programs spell: `max z 0 + log (1 + exp (-|z|))`. -/
def softplus (z : EReal) : EReal := max z 0 + Ideal.log1p (Ideal.exp (-(max z (-z))))

/-- The loss of a positive pair and of a negative pair at similarity `s`. -/
def posL (s : EReal) : EReal := softplus (Ideal.ofBits .f32 0xC0000000#32 * (s - Ideal.ofBits .f32 0x3F000000#32))
def negL (s : EReal) : EReal := softplus (Ideal.ofBits .f32 0x42200000#32 * (s - Ideal.ofBits .f32 0x3F000000#32))

/-- Row `i`'s six statistics. -/
def posCnt (i : Fin 4096) : EReal := (((Finset.univ.filter fun j : Fin 4096 => pos x t i j).card : ℝ) : EReal)
def negCnt (i : Fin 4096) : EReal := (((Finset.univ.filter fun j : Fin 4096 => ¬ same t i j).card : ℝ) : EReal)
def posLoss (i : Fin 4096) : EReal := ∑ j : Fin 4096, if pos x t i j then posL (sim x i j) else 0
def posSim (i : Fin 4096) : EReal := ∑ j : Fin 4096, if pos x t i j then sim x i j else 0
def negLoss (i : Fin 4096) : EReal := ∑ j : Fin 4096, if same t i j then 0 else negL (sim x i j)
def negSim (i : Fin 4096) : EReal := ∑ j : Fin 4096, if same t i j then 0 else sim x i j

/-- The statistics as vectors over the rows. -/
def vec (f : Fin 4096 → EReal) : FVec Ideal SN .f32 := fun i => f ⟨(i 0).val, (i 0).isLt⟩

theorem vec_ix1 (f : Fin 4096 → EReal) (i : Fin 4096) : vec f (ix1 i) = f i := rfl

/-- A vector over the rows is determined by its entries. -/
theorem vec_ext {u v : FVec Ideal SN .f32} (h : ∀ i : Fin 4096, u (ix1 i) = v (ix1 i)) : u = v := by
  funext j
  have : j = ix1 ⟨(j 0).val, (j 0).isLt⟩ := by
    funext a; have ha : a = 0 := Subsingleton.elim _ _; subst ha; rfl
  rw [this]; exact h _

end Rows

/-! ## The closing chain of host operations, shared by both programs -/

section Final

variable (hb : S0.BroadcastsInDim SN (![] : Fin 0 → Fin SN.rank)) (hr : SN.ReducesTo [0] S0) (h0 : 0 < S0.numel) (hlt : 1 < 32)
  (hsl : SN.Slices ![4095] S1) (hsc : S1.ShapeCasts S0)

/-- The mean over the rows with a negative pair of (positive loss sum / max(count, 1)) + (negative loss sum / max(count, 1)). -/
def lossOf (pc pl nc nl : FVec Ideal SN .f32) : FVec Ideal S0 .f32 :=
  Host.divf
    (Host.reduceAdd
      (select (cmpf (F := Ideal) .ogt nc (broadcastInDim SN ![] hb (constant S0 .f32 0x00000000#32)))
        (addf (Host.divf pl (maximumf pc (broadcastInDim SN ![] hb (constant S0 .f32 0x3F800000#32))))
          (Host.divf nl (maximumf nc (broadcastInDim SN ![] hb (constant S0 .f32 0x3F800000#32)))))
        (broadcastInDim SN ![] hb (id (constant S0 .f32 0x00000000#32))))
      (constant S0 .f32 0x00000000#32) hr h0)
    (constant S0 .f32 0x45800000#32)

/-- The share of rows with no negative pair. -/
def precOf (nc : FVec Ideal SN .f32) : FVec Ideal S0 .f32 :=
  Host.divf
    (sitofp (F := Ideal) .f32
      (Host.reduce IntOp.addi
        (extui 32 (noti (cmpf (F := Ideal) .ogt nc (broadcastInDim SN ![] hb (constant S0 .f32 0x00000000#32)))) hlt)
        (constantI S0 32 0#32) hr h0))
    (constant S0 .f32 0x45800000#32)

/-- A sum of the last row divided by max(the last row's count, 1). -/
def lastOf (s : FVec Ideal S0 .f32) (cnt : FVec Ideal SN .f32) : FVec Ideal S0 .f32 :=
  Host.divf s (maximumf (shapeCast S0 (extractStridedSlice S1 ![4095] cnt hsl) hsc) (constant S0 .f32 0x3F800000#32))

/-- The last row's entry of a vector, as a scalar array. -/
def lastEntry (v : FVec Ideal SN .f32) : FVec Ideal S0 .f32 :=
  shapeCast S0 (extractStridedSlice S1 ![4095] v hsl) hsc

end Final

end Cert.Spec

end
-- ==== Proof.PayPoint.lean ====
/-
  The pointwise payloads of one 512 x 512 tile of the pairwise kernel, read at an index on the extended reals: the
  similarity tile is the inner product of a row of the left block with a row of the right block; the label masks compare
  the row's label with the column's; the diagonal entry is replaced by the row's own value; the two losses are the
  shared softplus of an affine image of the similarity; the remaining payloads are identity casts, the global row number
  and zero columns.
-/
import proofs.«416473_j45569603010930_3_alg».proof.Proof.Gen.KernelIdeal.Skeleton
import proofs.«416473_j45569603010930_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Proof.Pay

open Cert.KernelIdeal Cert.KernelIdeal.Gen Idealize.ShloMosaic Idealize.ShloMosaic.ValueIdx

/-! ## Reading the two broadcasts, the comparison words and the masks -/

/-- A column vector broadcast across the tile reads the row's entry. -/
theorem bcast_col {α : Type} (x : S512x1.Idx → α) (r j : Fin 512) :
    broadcastTo S512x512 x broadcasts_S512x1_S512x512 (ix2 r j) = x (ix2 r 0) :=
  broadcastTo_apply x broadcasts_S512x1_S512x512 (ix2 r j) (ix2 r 0) (fun a => match a with
    | ⟨0, _⟩ => by show r.val = if (512 : Nat) = 1 then 0 else r.val; rw [if_neg (by decide)]
    | ⟨1, _⟩ => by show 0 = if (1 : Nat) = 1 then 0 else j.val; rw [if_pos rfl])

/-- A row vector broadcast across the tile reads the column's entry. -/
theorem bcast_row {α : Type} (x : S1x512.Idx → α) (r j : Fin 512) :
    broadcastTo S512x512 x broadcasts_S1x512_S512x512 (ix2 r j) = x (ix2 0 j) :=
  broadcastTo_apply x broadcasts_S1x512_S512x512 (ix2 r j) (ix2 0 j) (fun a => match a with
    | ⟨0, _⟩ => by show 0 = if (1 : Nat) = 1 then 0 else r.val; rw [if_pos rfl]
    | ⟨1, _⟩ => by show j.val = if (512 : Nat) = 1 then 0 else j.val; rw [if_neg (by decide)])

theorem ofBool_eq_one (b : Bool) : BitVec.ofBool b = 1#1 ↔ b = true := by cases b <;> decide

/-- The equality comparison of two words is the word 1 exactly when they are equal. -/
theorem cmpi_eq_one {w : Nat} (a b : BitVec w) : IntOp.cmpi .eq a b = 1#1 ↔ a = b := by
  simp only [IntOp.cmpi, ofBool_eq_one, beq_iff_eq]

/-- A one-bit word is 0 or 1. -/
theorem bit_cases (b : BitVec 1) : b = 0#1 ∨ b = 1#1 := by
  revert b; decide

/-! ## The label masks -/

theorem pay6_apply (v6 : IVec S512x1 32) (v49 : Vec Ideal S1x512 .i32) (r j : Fin 512) :
    k0_pay6 (F := Ideal) v6 v49 (ix2 r j) = 1#1 ↔ v6 (ix2 r 0) = v49 (ix2 0 j) := by
  unfold k0_pay6
  show IntOp.cmpi .eq (broadcastTo S512x512 v6 broadcasts_S512x1_S512x512 (ix2 r j))
      (broadcastTo S512x512 (shapeCast S1x512 v49 shapeCasts_S1x512_S1x512) broadcasts_S1x512_S512x512 (ix2 r j)) = 1#1 ↔ _
  rw [shapeCast_self, bcast_col, bcast_row]
  exact cmpi_eq_one _ _

theorem pay9_apply (v6 : IVec S512x1 32) (v49 : Vec Ideal S1x512 .i32) (r j : Fin 512) :
    k0_pay9 (F := Ideal) v6 v49 (ix2 r j) = 1#1 ↔ ¬ v6 (ix2 r 0) = v49 (ix2 0 j) := by
  rw [← pay6_apply v6 v49 r j]
  unfold k0_pay9
  show IntOp.xori (k0_pay6 (F := Ideal) v6 v49 (ix2 r j)) 1#1 = 1#1 ↔ _
  generalize k0_pay6 (F := Ideal) v6 v49 (ix2 r j) = b
  revert b; decide

/-! ## The identity casts, the global row number and the zero columns -/

theorem pay15_apply (v3 : Vec Ideal S512x512 .bf16) (r k : Fin 512) : k0_pay15 (F := Ideal) v3 (ix2 r k) = v3 (ix2 r k) := by
  unfold k0_pay15; rw [shapeCast_self]

theorem pay16_apply (v5 : Vec Ideal S512x1 .i32) (r : Fin 512) : k0_pay16 (F := Ideal) v5 (ix2 r 0) = v5 (ix2 r 0) := by
  unfold k0_pay16; rw [shapeCast_self]

theorem pay17_apply (v7 : Vec Ideal S512x1 .f32) (r : Fin 512) : k0_pay17 (F := Ideal) v7 (ix2 r 0) = v7 (ix2 r 0) := by
  unfold k0_pay17; rw [shapeCast_self]

theorem pay18_apply (i : grid0.Coords) (r : Fin 512) : k0_pay18 i (ix2 r 0) = BitVec.ofNat 32 (512 * (i 0).val + r.val) := by
  unfold k0_pay18
  show IntOp.addi (Scalar.muli (BitVec.ofNat 32 (i 0).val) 512#32) (iota .tc S512x1 32 [0] iota_S512x1_d0_w32 (ix2 r 0)) = _
  rw [iota_single_apply]
  show BitVec.ofNat 32 (i 0).val * 512#32 + BitVec.ofNat 32 r.val = _
  rw [show (512#32 : BitVec 32) = BitVec.ofNat 32 512 from rfl, ← BitVec.ofNat_mul, ← BitVec.ofNat_add, Nat.mul_comm]

theorem pay19_apply (r : Fin 512) : k0_pay19 (F := Ideal) (ix2 r 0) = 0 := by
  unfold k0_pay19; rw [shapeCast_self]; exact Ideal.ofBits_zero_f32
theorem pay20_apply (r : Fin 512) : k0_pay20 (F := Ideal) (ix2 r 0) = 0 := by
  unfold k0_pay20; rw [shapeCast_self]; exact Ideal.ofBits_zero_f32
theorem pay21_apply (r : Fin 512) : k0_pay21 (F := Ideal) (ix2 r 0) = 0 := by
  unfold k0_pay21; rw [shapeCast_self]; exact Ideal.ofBits_zero_f32
theorem pay22_apply (r : Fin 512) : k0_pay22 (F := Ideal) (ix2 r 0) = 0 := by
  unfold k0_pay22; rw [shapeCast_self]; exact Ideal.ofBits_zero_f32
theorem pay23_apply (r : Fin 512) : k0_pay23 (F := Ideal) (ix2 r 0) = 0 := by
  unfold k0_pay23; rw [shapeCast_self]; exact Ideal.ofBits_zero_f32

/-! ## The similarity tile -/

theorem lhs_dot_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl
theorem lhs_dot_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_dot_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_dot_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

/-- The transposed right block reads the block at the swapped index. -/
theorem transpose_tile {α : Type} (x : S512x512.Idx → α) (k j : Fin 512) :
    transpose S512x512 [1, 0] x transposes_S512x512_p1_0_S512x512 (ix2 k j) = x (ix2 j k) :=
  transpose_apply [1, 0] x transposes_S512x512_p1_0_S512x512 (ix2 k j) (ix2 j k) (fun b => match b with
    | ⟨0, _⟩ => rfl
    | ⟨1, _⟩ => rfl)

/-- The tile's entry (r, j) is the inner product of row r of the left block with row j of the right block. -/
theorem pay5_apply (v4 : FVec Ideal S512x512 .bf16) (v46 : Vec Ideal S512x512 .bf16) (r j : Fin 512) :
    k0_pay5 (F := Ideal) v4 v46 (ix2 r j) = ∑ k : Fin 512, v4 (ix2 r k) * v46 (ix2 j k) := by
  unfold k0_pay5
  rw [shapeCast_self]
  simp only [matmul]
  rw [Ideal.matmul_constant_zero_apply,
    ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 r j)
      ((contrEquiv1 dot_S512x512_S512x512_S512x512_1_0_0_1_n_n 512 rfl rfl).symm k) = ix2 r k :=
    funext fun a => Fin.ext (by
      match a with
      | ⟨0, _⟩ => exact lhs_dot_0 _ _
      | ⟨1, _⟩ => exact (lhs_dot_1 _ _).trans hk)
  have er : dot_S512x512_S512x512_S512x512_1_0_0_1_n_n.rhsIdx (ix2 r j)
      ((contrEquiv1 dot_S512x512_S512x512_S512x512_1_0_0_1_n_n 512 rfl rfl).symm k) = ix2 k j :=
    funext fun a => Fin.ext (by
      match a with
      | ⟨0, _⟩ => exact (rhs_dot_0 _ _).trans hk
      | ⟨1, _⟩ => exact rhs_dot_1 _ _)
  rw [el, er, transpose_tile]

/-! ## The tile with its diagonal replaced, and the positive mask -/

theorem cmpi_apply' {s : Shape} {w : Nat} (p : CmpIPredicate) (x y : IVec s w) (i : s.Idx) :
    cmpi p x y i = IntOp.cmpi p (x i) (y i) := rfl
theorem addi_apply' {s : Shape} {w : Nat} (x y : IVec s w) (i : s.Idx) : addi x y i = IntOp.addi (x i) (y i) := rfl
theorem andi_apply' {s : Shape} {w : Nat} (x y : IVec s w) (i : s.Idx) : andi x y i = IntOp.andi (x i) (y i) := rfl

/-- The column's global number as a word: 512 times the trip plus the column, the induction variable of trip k being
    the word of k. -/
theorem col_word (k : Fin k0_t1_loop.trips) (j : Fin 512) :
    IntOp.addi (Scalar.muli (Scalar.addi 0#32 (Scalar.muli (Scf.iv 0#32 1#32 k) 1#32)) 512#32) (BitVec.ofNat 32 j.val)
      = BitVec.ofNat 32 (512 * k.val + j.val) := by
  show (0#32 + (0#32 + BitVec.ofNat 32 k.val * 1#32) * 1#32) * 512#32 + BitVec.ofNat 32 j.val = _
  rw [BitVec.zero_add, BitVec.mul_one, BitVec.zero_add, BitVec.mul_one,
    show (512#32 : BitVec 32) = BitVec.ofNat 32 512 from rfl, ← BitVec.ofNat_mul, ← BitVec.ofNat_add, Nat.mul_comm]

theorem pay7_apply (v4 : FVec Ideal S512x512 .bf16) (v8 : FVec Ideal S512x1 .f32) (v11 : IVec S512x1 32)
    (k : Fin k0_t1_loop.trips) (v46 : Vec Ideal S512x512 .bf16) (r j : Fin 512) :
    k0_pay7 (F := Ideal) v4 v8 v11 0#32 1#32 k v46 (ix2 r j)
      = if v11 (ix2 r 0) = BitVec.ofNat 32 (512 * k.val + j.val) then v8 (ix2 r 0)
        else k0_pay5 (F := Ideal) v4 v46 (ix2 r j) := by
  unfold k0_pay7
  generalize k0_pay5 (F := Ideal) v4 v46 = s
  dsimp only
  rw [select_apply, cmpi_apply', bcast_col, bcast_row, bcast_col, addi_apply', broadcast_apply, iota_single_apply,
    shapeCast_self]
  show Scalar.select (IntOp.cmpi .eq (v11 (ix2 r 0))
      (IntOp.addi (Scalar.muli (Scalar.addi 0#32 (Scalar.muli (Scf.iv 0#32 1#32 k) 1#32)) 512#32) (BitVec.ofNat 32 j.val)))
    (v8 (ix2 r 0)) (s (ix2 r j)) = _
  rw [col_word]
  by_cases h : v11 (ix2 r 0) = BitVec.ofNat 32 (512 * k.val + j.val)
  · rw [if_pos h, (cmpi_eq_one _ _).mpr h, select_one]
  · rw [if_neg h, eq_zero_of_ne_one (fun h' => h ((cmpi_eq_one _ _).mp h')), select_zero]

theorem pay8_apply (v4 : FVec Ideal S512x512 .bf16) (v6 : IVec S512x1 32) (v8 : FVec Ideal S512x1 .f32) (v11 : IVec S512x1 32)
    (k : Fin k0_t1_loop.trips) (v46 : Vec Ideal S512x512 .bf16) (v49 : Vec Ideal S1x512 .i32) (r j : Fin 512) :
    k0_pay8 (F := Ideal) v4 v6 v8 v11 0#32 1#32 k v46 v49 (ix2 r j) = 1#1 ↔
      (v6 (ix2 r 0) = v49 (ix2 0 j) ∧
        k0_pay7 (F := Ideal) v4 v8 v11 0#32 1#32 k v46 (ix2 r j) < Ideal.ofBits .f32 0x3F800000#32) := by
  rw [← pay6_apply v6 v49 r j]
  unfold k0_pay8
  generalize k0_pay7 (F := Ideal) v4 v8 v11 0#32 1#32 k v46 = z
  generalize k0_pay6 (F := Ideal) v6 v49 = m
  rw [andi_apply', cmpf_apply, broadcast_apply, Ideal.cmpf_def]
  show IntOp.andi (m (ix2 r j)) (BitVec.ofBool (decide (z (ix2 r j) < Ideal.ofBits .f32 0x3F800000#32))) = 1#1 ↔ _
  generalize m (ix2 r j) = b
  by_cases h : z (ix2 r j) < Ideal.ofBits .f32 0x3F800000#32
  · rw [decide_eq_true h]; simp only [h, and_true]; revert b; decide
  · rw [decide_eq_false h]; simp only [h, and_false]; revert b; decide

/-! ## The two losses -/

/-- The kernel's softplus at one element: the guard compares a value with itself and is never taken, and what remains
    is the shared softplus, the absolute value being the larger of the value and its negation. -/
theorem softplus_kernel (z : EReal) :
    Scalar.select
        (Ideal.cmp .one (z - Ideal.ofBits .f32 0x00000000#32) (z - Ideal.ofBits .f32 0x00000000#32))
        (z + Ideal.ofBits .f32 0x00000000#32)
        (max z (Ideal.ofBits .f32 0x00000000#32) + Ideal.log1p (Ideal.exp (Ideal.ofBits .f32 0x00000000#32
          - max (z - Ideal.ofBits .f32 0x00000000#32) (-(z - Ideal.ofBits .f32 0x00000000#32)))))
      = Cert.Spec.softplus z := by
  unfold Cert.Spec.softplus
  rw [Ideal.ofBits_zero_f32, sub_zero, zero_sub]
  have hc : Ideal.cmp .one z z = 0#1 := by simp [Ideal.cmp]
  rw [hc, select_zero]

theorem pay10_apply (v4 : FVec Ideal S512x512 .bf16) (v8 : FVec Ideal S512x1 .f32) (v11 : IVec S512x1 32)
    (k : Fin k0_t1_loop.trips) (v46 : Vec Ideal S512x512 .bf16) (r j : Fin 512) :
    k0_pay10 (F := Ideal) v4 v8 v11 0#32 1#32 k v46 (ix2 r j)
      = Cert.Spec.posL (k0_pay7 (F := Ideal) v4 v8 v11 0#32 1#32 k v46 (ix2 r j)) := by
  unfold k0_pay10 Cert.Spec.posL
  generalize k0_pay7 (F := Ideal) v4 v8 v11 0#32 1#32 k v46 = z
  exact softplus_kernel (Ideal.ofBits .f32 0xC0000000#32 * (z (ix2 r j) - Ideal.ofBits .f32 0x3F000000#32))

theorem pay11_apply (v52 : FVec Ideal S512x512 .f32) (r j : Fin 512) :
    k0_pay11 (F := Ideal) v52 (Scalar.ofBits .f32 0x3F000000#32) (ix2 r j) = Cert.Spec.negL (v52 (ix2 r j)) := by
  unfold k0_pay11 Cert.Spec.negL
  exact softplus_kernel (Ideal.ofBits .f32 0x42200000#32 * (v52 (ix2 r j) - Ideal.ofBits .f32 0x3F000000#32))

end Cert.Proof.Pay

end
-- ==== Proof.PayRows.lean ====
/-
  The row-reducing payloads of one 512 x 512 tile, read at an index on the extended reals: each is the column
  accumulator plus the sum over the tile's 512 columns of a masked value; the closing concatenation's first five
  columns are its five column operands; and two re-indexings of sums over 4096 = 8 * 512 entries.
-/
import proofs.«416473_j45569603010930_3_alg».proof.Proof.Gen.KernelIdeal.Skeleton
import proofs.«416473_j45569603010930_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Proof.Pay

open Cert.KernelIdeal Cert.KernelIdeal.Gen Idealize.ShloMosaic Idealize.ShloMosaic.ValueIdx

/-! ## Two re-indexings of sums over 4096 entries -/

/-- A sum over 4096 entries, taken tile by tile: eight tiles of 512 consecutive entries. -/
theorem sum_tiles (f : Fin 4096 → EReal) :
    ∑ n : Fin 8, ∑ j : Fin 512, f ⟨512 * n.val + j.val, by omega⟩ = ∑ q : Fin 4096, f q := by
  rw [← Finset.sum_product']
  refine Finset.sum_bij' (fun p _ => (⟨512 * p.1.val + p.2.val, by omega⟩ : Fin 4096))
    (fun q _ => ((⟨q.val / 512, by omega⟩ : Fin 8), (⟨q.val % 512, by omega⟩ : Fin 512))) ?_ ?_ ?_ ?_ ?_
  · intro p _; exact Finset.mem_univ _
  · intro q _; exact Finset.mem_product.2 ⟨Finset.mem_univ _, Finset.mem_univ _⟩
  · intro p _
    obtain ⟨n, j⟩ := p
    refine Prod.ext (Fin.ext ?_) (Fin.ext ?_)
    · show (512 * n.val + j.val) / 512 = n.val
      omega
    · show (512 * n.val + j.val) % 512 = j.val
      omega
  · intro q _
    refine Fin.ext ?_
    show 512 * (q.val / 512) + q.val % 512 = q.val
    omega
  · intro p _; rfl

/-- A sum of ones over the entries with a property is the number of those entries. -/
theorem count_sum (p : Fin 4096 → Prop) [DecidablePred p] :
    (∑ q : Fin 4096, if p q then (1 : EReal) else 0) = (((Finset.univ.filter p).card : ℝ) : EReal) := by
  have key : ∀ s : Finset (Fin 4096), (∑ q ∈ s, if p q then (1 : EReal) else 0) = (((s.filter p).card : ℝ) : EReal) := by
    intro s
    induction s using Finset.induction_on with
    | empty => simp
    | insert a s ha ih =>
      rw [Finset.sum_insert ha, ih, Finset.filter_insert]
      by_cases hp : p a
      · rw [if_pos hp, if_pos hp, Finset.card_insert_of_notMem (fun h => ha (Finset.mem_filter.1 h).1)]
        rw [Nat.cast_add, Nat.cast_one, EReal.coe_add, EReal.coe_one, add_comm]
      · rw [if_neg hp, if_neg hp, zero_add]
  exact key Finset.univ

/-! ## Reading the pieces of a row sum at an index -/

/-- A vector of `a` entries cast to an `[a, 1]` column reads, at `(i, u)`, its entry `i`. -/
private theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index a sum over the tile's columns inserts at row `r`, column `k`, is `(r, k)`. -/
private theorem lift_row (h : S512x512.Reduces [1] S512) (r : Fin 512) (k : Fin 512) :
    h.lift (ix1 r) k = ix2 r k := by
  funext a
  match a with
  | ⟨0, _⟩ => exact Fin.ext rfl
  | ⟨1, _⟩ => exact Fin.ext rfl

/-- The sum over the tile's columns, read at row `r`. -/
private theorem rowSum_apply (src : FVec Ideal S512x512 .f32) (h : S512x512.Reduces [1] S512)
    (hφ : FKind.Formats .f32) (hacc : (0x00000000#32 : BitVec 32) = FKind.add.neutral .f32 hφ) (r : Fin 512) :
    multiReduction (F := Ideal) .add [1] S512 src 0x00000000#32 h hφ hacc (ix1 r) = ∑ k : Fin 512, src (ix2 r k) := by
  refine (Ideal.multiReduction_add_single src _ h hφ hacc (ix1 r)).trans ?_
  exact Finset.sum_congr rfl fun k _ => congrArg src (lift_row h r k)

/-- A column accumulator plus the column of the tile's row sums, read at row `r`. -/
private theorem colSum_apply (acc : FVec Ideal S512x1 .f32) (src : FVec Ideal S512x512 .f32)
    (h : S512x512.Reduces [1] S512) (hφ : FKind.Formats .f32)
    (hacc : (0x00000000#32 : BitVec 32) = FKind.add.neutral .f32 hφ) (hc : S512.ShapeCasts S512x1)
    (hc' : S512x1.ShapeCasts S512x1) (r : Fin 512) :
    shapeCast S512x1 (addf acc (shapeCast S512x1
        (multiReduction (F := Ideal) .add [1] S512 src 0x00000000#32 h hφ hacc) hc)) hc' (ix2 r 0)
      = acc (ix2 r 0) + ∑ k : Fin 512, src (ix2 r k) := by
  rw [shapeCast_self, addf_apply, shapeCast_col_apply]
  exact congrArg (acc (ix2 r 0) + ·) (rowSum_apply src h hφ hacc r)

/-- A masked value with a zero fill, at an index. -/
private theorem select_zero_apply (c : IVec S512x512 1) (x : FVec Ideal S512x512 .f32) (i : S512x512.Idx) :
    select c x (broadcast S512x512 (Scalar.ofBits (F := Ideal) .f32 0x00000000#32)) i = if c i = 1#1 then x i else 0 := by
  rw [select_apply, broadcast_apply]
  by_cases hc : c i = 1#1
  · rw [hc, select_one, if_pos rfl]
  · rw [eq_zero_of_ne_one hc, select_zero, if_neg (by decide)]
    exact Ideal.ofBits_zero_f32

/-- A widened bit converted to a float is one or zero. -/
private theorem sitofp_bit (b : BitVec 1) :
    FloatOps.sitofp (F := Ideal) .f32 (b.setWidth 32) = if b = 1#1 then (1 : EReal) else 0 := by
  show (((b.setWidth 32).toInt : ℝ) : EReal) = _
  rcases BitVec.eq_zero_or_eq_one b with rfl | rfl
  · rw [if_neg (by decide)]
    have : ((0#1).setWidth 32).toInt = 0 := by decide
    rw [this]; norm_cast
  · rw [if_pos rfl]
    have : ((1#1).setWidth 32).toInt = 1 := by decide
    rw [this]; norm_cast

/-! ## The five row-reducing payloads -/

/-- The count column: the accumulator plus the number of the row's masked columns. -/
theorem pay12_apply (v67 : IVec S512x512 1) (v105 : Vec Ideal S512x1 .f32) (r : Fin 512) :
    k0_pay12 (F := Ideal) v67 v105 (ix2 r 0)
      = v105 (ix2 r 0) + ∑ j : Fin 512, (if v67 (ix2 r j) = 1#1 then (1 : EReal) else 0) := by
  unfold k0_pay12
  refine (colSum_apply _ _ _ _ _ _ _ r).trans ?_
  refine congrArg (v105 (ix2 r 0) + ·) (Finset.sum_congr rfl fun j _ => ?_)
  rw [sitofp_apply, extui_apply]
  exact sitofp_bit _

/-- A masked-sum column: the accumulator plus the sum of the row's masked values. -/
theorem pay13_apply (v67 : IVec S512x512 1) (v86 : FVec Ideal S512x512 .f32) (v114 : Vec Ideal S512x1 .f32)
    (r : Fin 512) :
    k0_pay13 (F := Ideal) v67 v86 v114 (ix2 r 0)
      = v114 (ix2 r 0) + ∑ j : Fin 512, (if v67 (ix2 r j) = 1#1 then v86 (ix2 r j) else 0) := by
  unfold k0_pay13
  refine (colSum_apply _ _ _ _ _ _ _ r).trans ?_
  exact congrArg (v114 (ix2 r 0) + ·) (Finset.sum_congr rfl fun j _ => select_zero_apply _ _ _)

/-- The same column where the row sums are taken first and added to the accumulator after. -/
theorem pay1_14_apply (v123 : Vec Ideal S512x1 .f32) (v64 : FVec Ideal S512x512 .f32) (v67 : IVec S512x512 1)
    (r : Fin 512) :
    k0_pay1 (F := Ideal) v123 (k0_pay14 (F := Ideal) v64 v67) (ix2 r 0)
      = v123 (ix2 r 0) + ∑ j : Fin 512, (if v67 (ix2 r j) = 1#1 then v64 (ix2 r j) else 0) := by
  unfold k0_pay1 k0_pay14
  refine (colSum_apply _ _ _ _ _ _ _ r).trans ?_
  exact congrArg (v123 (ix2 r 0) + ·) (Finset.sum_congr rfl fun j _ => select_zero_apply _ _ _)

theorem pay2_apply (v68 : IVec S512x512 1) (v104 : FVec Ideal S512x512 .f32) (v132 : Vec Ideal S512x1 .f32)
    (r : Fin 512) :
    k0_pay2 (F := Ideal) v68 v104 v132 (ix2 r 0)
      = v132 (ix2 r 0) + ∑ j : Fin 512, (if v68 (ix2 r j) = 1#1 then v104 (ix2 r j) else 0) := by
  unfold k0_pay2
  refine (colSum_apply _ _ _ _ _ _ _ r).trans ?_
  exact congrArg (v132 (ix2 r 0) + ·) (Finset.sum_congr rfl fun j _ => select_zero_apply _ _ _)

theorem pay3_apply (v52 : FVec Ideal S512x512 .f32) (v68 : IVec S512x512 1) (v141 : Vec Ideal S512x1 .f32)
    (r : Fin 512) :
    k0_pay3 (F := Ideal) v52 v68 v141 (ix2 r 0)
      = v141 (ix2 r 0) + ∑ j : Fin 512, (if v68 (ix2 r j) = 1#1 then v52 (ix2 r j) else 0) := by
  unfold k0_pay3
  refine (colSum_apply _ _ _ _ _ _ _ r).trans ?_
  exact congrArg (v141 (ix2 r 0) + ·) (Finset.sum_congr rfl fun j _ => select_zero_apply _ _ _)

/-! ## The closing concatenation: its first five columns are its five column operands, the other three zero -/

theorem pay4_col0 (a b c d e : Vec Ideal S512x1 .f32) (r : Fin 512) :
    k0_pay4 (F := Ideal) a b c d e (ix2 r 0) = a (ix2 r 0) := by
  unfold k0_pay4
  refine concatenate_apply_piece (1 : Fin S512x8.rank) _ _ (ix2 r 0) 0 (by simp) S512x1 a rfl rfl 0 rfl
    (ix2 r 0) ?_ rfl
  intro q hq
  match q with
  | ⟨0, _⟩ => rfl
  | ⟨1, _⟩ => exact absurd (Fin.ext rfl) hq

theorem pay4_col1 (a b c d e : Vec Ideal S512x1 .f32) (r : Fin 512) :
    k0_pay4 (F := Ideal) a b c d e (ix2 r 1) = b (ix2 r 0) := by
  unfold k0_pay4
  refine concatenate_apply_piece (1 : Fin S512x8.rank) _ _ (ix2 r 1) 1 (by simp) S512x1 b rfl rfl 1 rfl
    (ix2 r 0) ?_ rfl
  intro q hq
  match q with
  | ⟨0, _⟩ => rfl
  | ⟨1, _⟩ => exact absurd (Fin.ext rfl) hq

theorem pay4_col2 (a b c d e : Vec Ideal S512x1 .f32) (r : Fin 512) :
    k0_pay4 (F := Ideal) a b c d e (ix2 r 2) = c (ix2 r 0) := by
  unfold k0_pay4
  refine concatenate_apply_piece (1 : Fin S512x8.rank) _ _ (ix2 r 2) 2 (by simp) S512x1 c rfl rfl 2 rfl
    (ix2 r 0) ?_ rfl
  intro q hq
  match q with
  | ⟨0, _⟩ => rfl
  | ⟨1, _⟩ => exact absurd (Fin.ext rfl) hq

theorem pay4_col3 (a b c d e : Vec Ideal S512x1 .f32) (r : Fin 512) :
    k0_pay4 (F := Ideal) a b c d e (ix2 r 3) = d (ix2 r 0) := by
  unfold k0_pay4
  refine concatenate_apply_piece (1 : Fin S512x8.rank) _ _ (ix2 r 3) 3 (by simp) S512x1 d rfl rfl 3 rfl
    (ix2 r 0) ?_ rfl
  intro q hq
  match q with
  | ⟨0, _⟩ => rfl
  | ⟨1, _⟩ => exact absurd (Fin.ext rfl) hq

theorem pay4_col4 (a b c d e : Vec Ideal S512x1 .f32) (r : Fin 512) :
    k0_pay4 (F := Ideal) a b c d e (ix2 r 4) = e (ix2 r 0) := by
  unfold k0_pay4
  refine concatenate_apply_piece (1 : Fin S512x8.rank) _ _ (ix2 r 4) 4 (by simp) S512x1 e rfl rfl 4 rfl
    (ix2 r 0) ?_ rfl
  intro q hq
  match q with
  | ⟨0, _⟩ => rfl
  | ⟨1, _⟩ => exact absurd (Fin.ext rfl) hq

theorem pay4_col_ge5 (a b c d e : Vec Ideal S512x1 .f32) (r : Fin 512) (q : Fin 8) (hq : 5 ≤ q.val) :
    k0_pay4 (F := Ideal) a b c d e (ix2 r q) = 0 := by
  unfold k0_pay4
  refine (concatenate_apply_piece (1 : Fin S512x8.rank) _ _ (ix2 r q) 5 (by simp) S512x3 _ rfl rfl 5 rfl
    (ix2 r (⟨q.val - 5, by omega⟩ : Fin 3)) ?_ ?_).trans ?_
  · intro p hp
    match p with
    | ⟨0, _⟩ => rfl
    | ⟨1, _⟩ => exact absurd (Fin.ext rfl) hp
  · show 5 + (q.val - 5) = q.val
    omega
  · exact Ideal.ofBits_zero_f32

end Cert.Proof.Pay

end
-- ==== Proof.TileStats.lean ====
/-
  What the output block holds at a grid point, on the extended reals.  Row r of grid point ti is the global row
  g = 512 ti + r.  At trip k and tile column j the global column is q = 512 k + j: the tile's similarity entry is the
  inner product of rows g and q, also on the diagonal, where the row's own self-similarity is substituted for it; the
  positive mask is "the labels agree and the similarity is below one", the negative mask "the labels differ".  Each
  column accumulator after n trips is therefore the sum over the first n tiles of the masked row sums, and after all
  eight trips the sum over all 4096 columns: the row's six statistics, three zero columns after them.
-/
import proofs.«416473_j45569603010930_3_alg».proof.Proof.IdealBody
import proofs.«416473_j45569603010930_3_alg».proof.Proof.PayPoint
import proofs.«416473_j45569603010930_3_alg».proof.Proof.PayRows
import proofs.«416473_j45569603010930_3_alg».proof.Proof.Spec

noncomputable section

namespace Cert.Proof.KI

open Cert.KernelIdeal Cert.KernelIdeal.Gen Idealize.ShloMosaic Idealize.ShloMosaic.ValueIdx Cert.Proof.Pay

/-- The loop makes eight trips. -/
theorem trips_eq : k0_t1_loop.trips = 8 := by decide

/-! ## The loads through the three windows -/

/-- Row tile i of the feature matrix: its entry (r, k) is the matrix's entry (512 i + r, k). -/
theorem ld_rXi (X1 : Vec Ideal S4096x512 .bf16) (i : grid0.Coords) (r k : Fin 512) (g : Fin 4096)
    (hg : g.val = 512 * (i 0).val + r.val) : View.ld X1 (rXi i) (ix2 r k) = X1 (ix2 g k) := by
  show X1 ((rXi i).idx (ix2 r k)) = X1 (ix2 g k)
  refine congrArg X1 (funext fun a => Fin.ext ?_)
  match a with
  | ⟨0, _⟩ =>
    show k0_off1 i 0 + 1 * r.val = g.val
    rw [k0_off1_eq, hg]; show 512 * (i 0).val + 1 * r.val = _; omega
  | ⟨1, _⟩ =>
    show k0_off1 i 1 + 1 * k.val = k.val
    rw [k0_off1_eq]; show 0 + 1 * k.val = k.val; omega

/-- Column tile k of the feature matrix, read as rows: its entry (j, c) is the matrix's entry (512 k + j, c). -/
theorem ld_rXj (X1 : Vec Ideal S4096x512 .bf16) (k : Fin k0_t1_loop.trips) (j c : Fin 512) (q : Fin 4096)
    (hq : q.val = 512 * k.val + j.val) : View.ld X1 (rXj k) (ix2 j c) = X1 (ix2 q c) := by
  show X1 ((rXj k).idx (ix2 j c)) = X1 (ix2 q c)
  refine congrArg X1 (funext fun a => Fin.ext ?_)
  match a with
  | ⟨0, _⟩ =>
    show k0_off2 k 0 + 1 * j.val = q.val
    rw [k0_off2_eq, hq]; show 512 * k.val + 1 * j.val = _; omega
  | ⟨1, _⟩ =>
    show k0_off2 k 1 + 1 * c.val = c.val
    rw [k0_off2_eq]; show 0 + 1 * c.val = c.val; omega

/-- Tile k of the label row: its entry j is the row's entry 512 k + j. -/
theorem ld_rTj (X3 : Vec Ideal S1x4096 .i32) (k : Fin k0_t1_loop.trips) (j : Fin 512) (q : Fin 4096)
    (hq : q.val = 512 * k.val + j.val) : View.ld X3 (rTj k) (ix2 0 j) = X3 (ix2 0 q) := by
  show X3 ((rTj k).idx (ix2 0 j)) = X3 (ix2 0 q)
  refine congrArg X3 (funext fun a => Fin.ext ?_)
  match a with
  | ⟨0, _⟩ =>
    show k0_off3 k 0 + 1 * 0 = 0
    rw [k0_off3_eq]; rfl
  | ⟨1, _⟩ =>
    show k0_off3 k 1 + 1 * j.val = q.val
    rw [k0_off3_eq, hq]; show 512 * k.val + 1 * j.val = _; omega

/-! ## One row of one tile -/

/-- What the proof knows of row r of a grid point whose global row is g: the resident arrays are the feature matrix and
    the label vector, the row block's row r is the matrix's row g, its label the label of g, its self-similarity that of
    g, and its global number the word of g. -/
structure RowCtx (x : FVec Ideal S4096x512 .f32) (t : IVec S4096 32) (X1 : Vec Ideal S4096x512 .bf16)
    (X3 : Vec Ideal S1x4096 .i32) (v4 : FVec Ideal S512x512 .bf16) (v6 : IVec S512x1 32) (v8 : FVec Ideal S512x1 .f32)
    (v11 : IVec S512x1 32) (g : Fin 4096) (r : Fin 512) : Prop where
  h1 : ∀ (a : Fin 4096) (k : Fin 512), X1 (ix2 a k) = x (ix2 a k)
  h3 : ∀ j : Fin 4096, X3 (ix2 0 j) = t (ix1 j)
  hv4 : ∀ k : Fin 512, v4 (ix2 r k) = x (ix2 g k)
  hv6 : v6 (ix2 r 0) = t (ix1 g)
  hv8 : v8 (ix2 r 0) = Cert.Spec.sim x g g
  hv11 : v11 (ix2 r 0) = BitVec.ofNat 32 g.val

section Row

variable {x : FVec Ideal S4096x512 .f32} {t : IVec S4096 32} {X1 : Vec Ideal S4096x512 .bf16}
  {X3 : Vec Ideal S1x4096 .i32} {v4 : FVec Ideal S512x512 .bf16} {v6 : IVec S512x1 32} {v8 : FVec Ideal S512x1 .f32}
  {v11 : IVec S512x1 32} {g : Fin 4096} {r : Fin 512} (C : RowCtx x t X1 X3 v4 v6 v8 v11 g r)
include C

/-- The tile's similarity entry is the inner product of the two global rows. -/
theorem tile_sim (k : Fin k0_t1_loop.trips) (j : Fin 512) (q : Fin 4096) (hq : q.val = 512 * k.val + j.val) :
    k0_pay5 (F := Ideal) v4 (View.ld X1 (rXj k)) (ix2 r j) = Cert.Spec.sim x g q := by
  rw [pay5_apply]
  unfold Cert.Spec.sim
  refine Finset.sum_congr rfl fun c _ => ?_
  rw [C.hv4 c, ld_rXj X1 k j c q hq, C.h1 q c]

/-- So is the entry after the diagonal's substitution: on the diagonal the two global rows are one. -/
theorem tile_sim_diag (k : Fin k0_t1_loop.trips) (j : Fin 512) (q : Fin 4096) (hq : q.val = 512 * k.val + j.val) :
    k0_pay7 (F := Ideal) v4 v8 v11 0#32 1#32 k (View.ld X1 (rXj k)) (ix2 r j) = Cert.Spec.sim x g q := by
  rw [pay7_apply, tile_sim C k j q hq, C.hv11, C.hv8]
  split
  · next h =>
    have e : g = q := by
      apply Fin.ext
      have h' := congrArg BitVec.toNat h
      rw [BitVec.toNat_ofNat, BitVec.toNat_ofNat] at h'
      have hg := g.isLt
      have hq' := q.isLt
      omega
    rw [e]
  · rfl

/-- The positive mask. -/
theorem tile_pos (k : Fin k0_t1_loop.trips) (j : Fin 512) (q : Fin 4096) (hq : q.val = 512 * k.val + j.val) :
    k0_pay8 (F := Ideal) v4 v6 v8 v11 0#32 1#32 k (View.ld X1 (rXj k)) (View.ld X3 (rTj k)) (ix2 r j) = 1#1
      ↔ Cert.Spec.pos x t g q := by
  rw [pay8_apply, tile_sim_diag C k j q hq, C.hv6, ld_rTj X3 k j q hq, C.h3 q]
  unfold Cert.Spec.pos Cert.Spec.same
  exact Iff.rfl

/-- The negative mask. -/
theorem tile_neg (k : Fin k0_t1_loop.trips) (j : Fin 512) (q : Fin 4096) (hq : q.val = 512 * k.val + j.val) :
    k0_pay9 (F := Ideal) v6 (View.ld X3 (rTj k)) (ix2 r j) = 1#1 ↔ ¬ Cert.Spec.same t g q := by
  rw [pay9_apply, C.hv6, ld_rTj X3 k j q hq, C.h3 q]
  unfold Cert.Spec.same
  exact Iff.rfl

end Row

/-! ## A sequence that adds one tile's row sum per trip sums every column after eight trips -/

theorem sum_lt_succ (G : Fin 8 → EReal) (n : ℕ) (hn : n < 8) :
    (∑ k : Fin 8, if k.val < n + 1 then G k else 0) = (∑ k : Fin 8, if k.val < n then G k else 0) + G ⟨n, hn⟩ := by
  have e : ∀ k : Fin 8, (if k.val < n + 1 then G k else 0)
      = (if k.val < n then G k else 0) + (if k = ⟨n, hn⟩ then G k else 0) := by
    intro k
    by_cases h1 : k.val < n
    · have h2 : k ≠ ⟨n, hn⟩ := fun h => by rw [h] at h1; exact lt_irrefl _ h1
      rw [if_pos h1, if_pos (by omega), if_neg h2, add_zero]
    · by_cases h2 : k = ⟨n, hn⟩
      · have h3 : k.val < n + 1 := by rw [h2]; exact Nat.lt_succ_self n
        rw [if_neg h1, if_pos h3, if_pos h2, zero_add]
      · have h3 : ¬ k.val < n + 1 := fun h => h2 (Fin.ext (by show k.val = n; omega))
        rw [if_neg h1, if_neg h3, if_neg h2, add_zero]
  rw [Finset.sum_congr rfl (fun k _ => e k), Finset.sum_add_distrib, Finset.sum_ite_eq' Finset.univ ⟨n, hn⟩ G,
    if_pos (Finset.mem_univ _)]

theorem acc_sum (A : ℕ → EReal) (f : Fin 4096 → EReal) (h0 : A 0 = 0)
    (hs : ∀ (n : ℕ) (hn : n < 8), A (n + 1) = A n + ∑ j : Fin 512, f ⟨512 * n + j.val, by omega⟩) :
    A 8 = ∑ q : Fin 4096, f q := by
  have key : ∀ n, n ≤ 8 → A n = ∑ k : Fin 8, if k.val < n then (∑ j : Fin 512, f ⟨512 * k.val + j.val, by omega⟩) else 0 := by
    intro n
    induction n with
    | zero => intro _; rw [h0]; simp
    | succ n ih =>
      intro hn
      rw [hs n (by omega), ih (by omega), sum_lt_succ _ n (by omega)]
  rw [key 8 le_rfl, Finset.sum_congr rfl (fun k _ => if_pos k.isLt), sum_tiles f]

/-! ## The five accumulators after every trip -/

section Acc

variable {x : FVec Ideal S4096x512 .f32} {t : IVec S4096 32} {X1 : Vec Ideal S4096x512 .bf16}
  {X3 : Vec Ideal S1x4096 .i32} {v4 : FVec Ideal S512x512 .bf16} {v6 : IVec S512x1 32} {v8 : FVec Ideal S512x1 .f32}
  {v11 : IVec S512x1 32} {g : Fin 4096} {r : Fin 512} (C : RowCtx x t X1 X3 v4 v6 v8 v11 g r)
include C

/-- The count of the row's positive pairs. -/
theorem acc6_final : accV6 X1 X3 v4 v6 v8 v11 0#32 k0_t1_loop.trips (ix2 r 0) = Cert.Spec.posCnt x t g := by
  rw [trips_eq]
  refine (acc_sum (fun n => accV6 X1 X3 v4 v6 v8 v11 0#32 n (ix2 r 0))
    (fun q => if Cert.Spec.pos x t g q then (1 : EReal) else 0) ?_ ?_).trans ?_
  · show accV6 X1 X3 v4 v6 v8 v11 0#32 0 (ix2 r 0) = 0
    rw [accV6]; exact pay19_apply r
  · intro n hn
    have h : n < k0_t1_loop.trips := by rw [trips_eq]; exact hn
    show accV6 X1 X3 v4 v6 v8 v11 0#32 (n + 1) (ix2 r 0) = accV6 X1 X3 v4 v6 v8 v11 0#32 n (ix2 r 0) + _
    rw [accV6, dif_pos h, pay12_apply, View.ld_unit_zero off0]
    congr 1
    refine Finset.sum_congr rfl fun j _ => ?_
    exact if_congr (tile_pos C ⟨n, h⟩ j (⟨512 * n + j.val, by omega⟩ : Fin 4096) rfl) rfl rfl
  · unfold Cert.Spec.posCnt; exact count_sum _

/-- The sum of the positive pairs' losses. -/
theorem acc7_final : accV7 X1 X3 v4 v6 v8 v11 0#32 k0_t1_loop.trips (ix2 r 0) = Cert.Spec.posLoss x t g := by
  rw [trips_eq]
  refine (acc_sum (fun n => accV7 X1 X3 v4 v6 v8 v11 0#32 n (ix2 r 0))
    (fun q => if Cert.Spec.pos x t g q then Cert.Spec.posL (Cert.Spec.sim x g q) else 0) ?_ ?_).trans ?_
  · show accV7 X1 X3 v4 v6 v8 v11 0#32 0 (ix2 r 0) = 0
    rw [accV7]; exact pay20_apply r
  · intro n hn
    have h : n < k0_t1_loop.trips := by rw [trips_eq]; exact hn
    show accV7 X1 X3 v4 v6 v8 v11 0#32 (n + 1) (ix2 r 0) = accV7 X1 X3 v4 v6 v8 v11 0#32 n (ix2 r 0) + _
    rw [accV7, dif_pos h, pay13_apply, View.ld_unit_zero off0]
    congr 1
    refine Finset.sum_congr rfl fun j _ => ?_
    refine if_congr (tile_pos C ⟨n, h⟩ j (⟨512 * n + j.val, by omega⟩ : Fin 4096) rfl) ?_ rfl
    rw [pay10_apply, tile_sim_diag C ⟨n, h⟩ j (⟨512 * n + j.val, by omega⟩ : Fin 4096) rfl]
  · rfl

/-- The sum of the positive pairs' similarities. -/
theorem acc8_final : accV8 X1 X3 v4 v6 v8 v11 0#32 k0_t1_loop.trips (ix2 r 0) = Cert.Spec.posSim x t g := by
  rw [trips_eq]
  refine (acc_sum (fun n => accV8 X1 X3 v4 v6 v8 v11 0#32 n (ix2 r 0))
    (fun q => if Cert.Spec.pos x t g q then Cert.Spec.sim x g q else 0) ?_ ?_).trans ?_
  · show accV8 X1 X3 v4 v6 v8 v11 0#32 0 (ix2 r 0) = 0
    rw [accV8]; exact pay21_apply r
  · intro n hn
    have h : n < k0_t1_loop.trips := by rw [trips_eq]; exact hn
    show accV8 X1 X3 v4 v6 v8 v11 0#32 (n + 1) (ix2 r 0) = accV8 X1 X3 v4 v6 v8 v11 0#32 n (ix2 r 0) + _
    rw [accV8, dif_pos h, pay1_14_apply, View.ld_unit_zero off0]
    congr 1
    refine Finset.sum_congr rfl fun j _ => ?_
    exact if_congr (tile_pos C ⟨n, h⟩ j (⟨512 * n + j.val, by omega⟩ : Fin 4096) rfl)
      (tile_sim_diag C ⟨n, h⟩ j (⟨512 * n + j.val, by omega⟩ : Fin 4096) rfl) rfl
  · rfl

/-- The sum of the negative pairs' losses. -/
theorem acc9_final : accV9 X1 X3 v4 v6 k0_t1_loop.trips (ix2 r 0) = Cert.Spec.negLoss x t g := by
  rw [trips_eq]
  refine (acc_sum (fun n => accV9 X1 X3 v4 v6 n (ix2 r 0))
    (fun q => if Cert.Spec.same t g q then 0 else Cert.Spec.negL (Cert.Spec.sim x g q)) ?_ ?_).trans ?_
  · show accV9 X1 X3 v4 v6 0 (ix2 r 0) = 0
    rw [accV9]; exact pay22_apply r
  · intro n hn
    have h : n < k0_t1_loop.trips := by rw [trips_eq]; exact hn
    show accV9 X1 X3 v4 v6 (n + 1) (ix2 r 0) = accV9 X1 X3 v4 v6 n (ix2 r 0) + _
    rw [accV9, dif_pos h, pay2_apply, View.ld_unit_zero off0]
    congr 1
    refine Finset.sum_congr rfl fun j _ => ?_
    have hm := tile_neg C ⟨n, h⟩ j (⟨512 * n + j.val, by omega⟩ : Fin 4096) rfl
    show _ = if Cert.Spec.same t g (⟨512 * n + j.val, by omega⟩ : Fin 4096) then 0 else _
    by_cases hs : Cert.Spec.same t g (⟨512 * n + j.val, by omega⟩ : Fin 4096)
    · rw [if_pos hs, if_neg (fun h' => hm.mp h' hs)]
    · rw [if_neg hs, if_pos (hm.mpr hs), pay11_apply, tile_sim C ⟨n, h⟩ j (⟨512 * n + j.val, by omega⟩ : Fin 4096) rfl]
  · rfl

/-- The sum of the negative pairs' similarities. -/
theorem acc10_final : accV10 X1 X3 v4 v6 k0_t1_loop.trips (ix2 r 0) = Cert.Spec.negSim x t g := by
  rw [trips_eq]
  refine (acc_sum (fun n => accV10 X1 X3 v4 v6 n (ix2 r 0))
    (fun q => if Cert.Spec.same t g q then 0 else Cert.Spec.sim x g q) ?_ ?_).trans ?_
  · show accV10 X1 X3 v4 v6 0 (ix2 r 0) = 0
    rw [accV10]; exact pay23_apply r
  · intro n hn
    have h : n < k0_t1_loop.trips := by rw [trips_eq]; exact hn
    show accV10 X1 X3 v4 v6 (n + 1) (ix2 r 0) = accV10 X1 X3 v4 v6 n (ix2 r 0) + _
    rw [accV10, dif_pos h, pay3_apply, View.ld_unit_zero off0]
    congr 1
    refine Finset.sum_congr rfl fun j _ => ?_
    have hm := tile_neg C ⟨n, h⟩ j (⟨512 * n + j.val, by omega⟩ : Fin 4096) rfl
    show _ = if Cert.Spec.same t g (⟨512 * n + j.val, by omega⟩ : Fin 4096) then 0 else _
    by_cases hs : Cert.Spec.same t g (⟨512 * n + j.val, by omega⟩ : Fin 4096)
    · rw [if_pos hs, if_neg (fun h' => hm.mp h' hs)]
    · rw [if_neg hs, if_pos (hm.mpr hs), tile_sim C ⟨n, h⟩ j (⟨512 * n + j.val, by omega⟩ : Fin 4096) rfl]
  · rfl

end Acc

/-! ## The output block -/

section Out

variable (x : FVec Ideal S4096x512 .f32) (t : IVec S4096 32) (i : grid0.Coords) (ti : Fin 8) (hi : (i 0).val = ti.val)
  (X1 : Vec Ideal S4096x512 .bf16) (X2 : Vec Ideal S512x1 .i32) (X3 : Vec Ideal S1x4096 .i32) (X4 : Vec Ideal S512x1 .f32)
  (h1 : ∀ (a : Fin 4096) (k : Fin 512), X1 (ix2 a k) = x (ix2 a k))
  (h2 : ∀ r : Fin 512, X2 (ix2 r 0) = t (ix1 ⟨512 * ti.val + r.val, by omega⟩))
  (h3 : ∀ j : Fin 4096, X3 (ix2 0 j) = t (ix1 j))
  (h4 : ∀ r : Fin 512, X4 (ix2 r 0)
    = Cert.Spec.sim x ⟨512 * ti.val + r.val, by omega⟩ ⟨512 * ti.val + r.val, by omega⟩)
include hi h1 h2 h3 h4

/-- Row r of the grid point's blocks is the global row 512 ti + r. -/
theorem rowCtx (r : Fin 512) :
    RowCtx x t X1 X3 (k0_pay15 (F := Ideal) (View.ld X1 (rXi i))) (k0_pay16 (F := Ideal) (View.ld X2 rAcc))
      (k0_pay17 (F := Ideal) (View.ld X4 rAcc)) (k0_pay18 i) ⟨512 * ti.val + r.val, by omega⟩ r where
  h1 := h1
  h3 := h3
  hv4 := fun k => by
    rw [pay15_apply, ld_rXi X1 i r k (⟨512 * ti.val + r.val, by omega⟩ : Fin 4096) (by rw [hi]), h1]
  hv6 := by rw [pay16_apply, View.ld_unit_zero off0, h2]
  hv8 := by rw [pay17_apply, View.ld_unit_zero off0, h4]
  hv11 := by rw [pay18_apply, hi]

theorem OUT_posCnt (r : Fin 512) :
    OUT (F := Ideal) i X1 X2 X3 X4 (ix2 r 0) = Cert.Spec.posCnt x t ⟨512 * ti.val + r.val, by omega⟩ := by
  unfold OUT
  rw [pay4_col0, View.ld_unit_zero off0]
  exact acc6_final (rowCtx x t i ti hi X1 X2 X3 X4 h1 h2 h3 h4 r)

theorem OUT_posLoss (r : Fin 512) :
    OUT (F := Ideal) i X1 X2 X3 X4 (ix2 r 1) = Cert.Spec.posLoss x t ⟨512 * ti.val + r.val, by omega⟩ := by
  unfold OUT
  rw [pay4_col1, View.ld_unit_zero off0]
  exact acc7_final (rowCtx x t i ti hi X1 X2 X3 X4 h1 h2 h3 h4 r)

theorem OUT_posSim (r : Fin 512) :
    OUT (F := Ideal) i X1 X2 X3 X4 (ix2 r 2) = Cert.Spec.posSim x t ⟨512 * ti.val + r.val, by omega⟩ := by
  unfold OUT
  rw [pay4_col2, View.ld_unit_zero off0]
  exact acc8_final (rowCtx x t i ti hi X1 X2 X3 X4 h1 h2 h3 h4 r)

theorem OUT_negLoss (r : Fin 512) :
    OUT (F := Ideal) i X1 X2 X3 X4 (ix2 r 3) = Cert.Spec.negLoss x t ⟨512 * ti.val + r.val, by omega⟩ := by
  unfold OUT
  rw [pay4_col3, View.ld_unit_zero off0]
  exact acc9_final (rowCtx x t i ti hi X1 X2 X3 X4 h1 h2 h3 h4 r)

theorem OUT_negSim (r : Fin 512) :
    OUT (F := Ideal) i X1 X2 X3 X4 (ix2 r 4) = Cert.Spec.negSim x t ⟨512 * ti.val + r.val, by omega⟩ := by
  unfold OUT
  rw [pay4_col4, View.ld_unit_zero off0]
  exact acc10_final (rowCtx x t i ti hi X1 X2 X3 X4 h1 h2 h3 h4 r)

end Out

/-- The last three columns are zero. -/
theorem OUT_zero (i : grid0.Coords) (X1 : Vec Ideal S4096x512 .bf16) (X2 : Vec Ideal S512x1 .i32)
    (X3 : Vec Ideal S1x4096 .i32) (X4 : Vec Ideal S512x1 .f32) (r : Fin 512) (q : Fin 8) (hq : 5 ≤ q.val) :
    OUT (F := Ideal) i X1 X2 X3 X4 (ix2 r q) = 0 := by
  unfold OUT
  exact pay4_col_ge5 _ _ _ _ _ r q hq

end Cert.Proof.KI

end
-- ==== Proof.HostPre.lean ====
/-
  What the arrays the kernel reads hold when its one region is entered, index by index, as functions of the two
  arguments: the feature matrix unchanged, the labels as a column and as a row, each row's squared norm, and for each
  row the number of rows carrying a different label.
-/
import proofs.«416473_j45569603010930_3_alg».proof.Proof.Gen.KernelIdeal.Frame
import proofs.«416473_j45569603010930_3_alg».proof.Proof.Spec
import Idealize.ShloMosaic.Lib.StableHlo.Run
import Idealize.ShloMosaic.Lib.StableHlo.Predicate
import Idealize.ShloMosaic.Lib.ValueIdx
import Idealize.ShloMosaic.Lib.Pipeline.Value
import Idealize.ShloMosaic.PureOps.Ideal.Laws

set_option maxRecDepth 16384

noncomputable section

namespace Cert.Proof.HostPre

open Idealize.ShloMosaic.StableHlo Cert.KernelIdeal Cert.KernelIdeal.Gen Idealize.ShloMosaic Idealize.ShloMosaic.TcCoe Idealize.ShloMosaic.ValueIdx

variable (m : (ℓ : Loc nD τ sig) → Buf (Elt Ideal) ℓ)

/-! ## The pure readings: each host term at an index -/

/-- A vector reshaped to a column reads, at (i, 0), the vector at i. -/
theorem col_apply {α : Type} (v : S4096.Idx → α) (i : Fin 4096) :
    shapeCast S4096x1 v shapeCasts_S4096_S4096x1 (ix2 i 0) = v (ix1 i) :=
  shapeCast_apply _ shapeCasts_S4096_S4096x1 (ix2 i (0 : Fin 1)) (ix1 i) (by
    rw [Shape.rowMajor_val_two, Shape.rowMajor_val_one]; show i.val = i.val * 1 + 0; omega)

/-- A vector reshaped to a row reads, at (0, j), the vector at j. -/
theorem row_apply {α : Type} (v : S4096.Idx → α) (j : Fin 4096) :
    shapeCast S1x4096 v shapeCasts_S4096_S1x4096 (ix2 0 j) = v (ix1 j) :=
  shapeCast_apply _ shapeCasts_S4096_S1x4096 (ix2 (0 : Fin 1) j) (ix1 j) (by
    rw [Shape.rowMajor_val_two, Shape.rowMajor_val_one]; show j.val = 0 * 4096 + j.val; omega)

/-- The sum over a row of the squared entries, from zero, is the row's inner product with itself. -/
theorem sqnorm_apply (x : FVec Ideal S4096x512 .f32) (i : Fin 4096) :
    Host.reduceAdd (F := Ideal) (mulf x x) (constant (F := Ideal) S_ .f32 0x00000000#32) reducesTo_S4096x512_S4096_d1 h_S_ (ix1 i)
      = Cert.Spec.sim x i i := by
  simp only [Host.reduceAdd, Ideal.hostReduceAdd_def]
  rw [Ideal.hostReduceAdd_single reducesTo_S4096x512_S4096_d1 (by decide)]
  show Ideal.ofBits .f32 0x00000000#32 + _ = _
  rw [Ideal.ofBits_zero_f32, zero_add]
  unfold Cert.Spec.sim
  refine Finset.sum_congr rfl fun k _ => ?_
  have hk : ∀ (h : Shape.Reduces S4096x512 [1] S4096), h.lift (ix1 i) k = ix2 i k := fun h =>
    funext fun a => Fin.ext (by match a with | ⟨0, _⟩ => rfl | ⟨1, _⟩ => rfl)
  rw [hk]
  rfl

/-! ## The arrays the kernel reads -/

/-- The bf16 copy of the feature matrix is the feature matrix: the conversion is the identity on the reals. -/
theorem V_xb (c : Dev nD) (i : Fin 4096) (k : Fin 512) :
    (V m c main_v0 : S4096x512.Idx → EReal) (ix2 i k) = (m ((c : Thread nD τ).loc main_arg0) : S4096x512.Idx → EReal) (ix2 i k) := by
  have e : (V m c main_v0 : S4096x512.Idx → EReal)
      = truncf (F := Ideal) .bf16 (m ((c : Thread nD τ).loc main_arg0) : FVec Ideal S4096x512 .f32) bitsLt_bf16_f32 := by
    dsimp only [Gen.V, Gen.V0]
    simp only [Gen.hostOps0, Gen.hostOps0_1, Gen.hostOps0_2, List.flatten_cons, List.flatten_nil, List.append_nil, List.cons_append, List.nil_append]
    after_results
  rw [e]; rfl

/-- The labels as a column: entry (i, 0) is label i. -/
theorem V_tcol (c : Dev nD) (i : Fin 4096) :
    (V m c main_v1 : S4096x1.Idx → BitVec 32) (ix2 i 0) = (m ((c : Thread nD τ).loc main_arg1) : S4096.Idx → BitVec 32) (ix1 i) := by
  have e : (V m c main_v1 : S4096x1.Idx → BitVec 32)
      = shapeCast S4096x1 (m ((c : Thread nD τ).loc main_arg1) : S4096.Idx → BitVec 32) shapeCasts_S4096_S4096x1 := by
    dsimp only [Gen.V, Gen.V0]
    simp only [Gen.hostOps0, Gen.hostOps0_1, Gen.hostOps0_2, List.flatten_cons, List.flatten_nil, List.append_nil, List.cons_append, List.nil_append]
    after_results
    rfl
  rw [e]
  exact col_apply _ i

/-- The labels as a row: entry (0, j) is label j. -/
theorem V_trow (c : Dev nD) (j : Fin 4096) :
    (V m c main_v2 : S1x4096.Idx → BitVec 32) (ix2 0 j) = (m ((c : Thread nD τ).loc main_arg1) : S4096.Idx → BitVec 32) (ix1 j) := by
  have e : (V m c main_v2 : S1x4096.Idx → BitVec 32)
      = shapeCast S1x4096 (m ((c : Thread nD τ).loc main_arg1) : S4096.Idx → BitVec 32) shapeCasts_S4096_S1x4096 := by
    dsimp only [Gen.V, Gen.V0]
    simp only [Gen.hostOps0, Gen.hostOps0_1, Gen.hostOps0_2, List.flatten_cons, List.flatten_nil, List.append_nil, List.cons_append, List.nil_append]
    after_results
    rfl
  rw [e]
  exact row_apply _ j

/-- Each row's squared norm, as a column: entry (i, 0) is the inner product of row i with itself. -/
theorem V_diag (c : Dev nD) (i : Fin 4096) :
    (V m c main_v5 : S4096x1.Idx → EReal) (ix2 i 0)
      = Cert.Spec.sim (m ((c : Thread nD τ).loc main_arg0) : FVec Ideal S4096x512 .f32) i i := by
  have e : (V m c main_v5 : S4096x1.Idx → EReal)
      = shapeCast S4096x1
          (Host.reduceAdd (F := Ideal)
            (mulf (m ((c : Thread nD τ).loc main_arg0) : FVec Ideal S4096x512 .f32) (m ((c : Thread nD τ).loc main_arg0) : FVec Ideal S4096x512 .f32))
            (constant (F := Ideal) S_ .f32 0x00000000#32) reducesTo_S4096x512_S4096_d1 h_S_)
          shapeCasts_S4096_S4096x1 := by
    dsimp only [Gen.V, Gen.V0]
    simp only [Gen.hostOps0, Gen.hostOps0_1, Gen.hostOps0_2, List.flatten_cons, List.flatten_nil, List.append_nil, List.cons_append, List.nil_append]
    after_results
    rfl
  rw [e]
  exact (col_apply _ i).trans (sqnorm_apply _ i)

/-! ## Counting by scatter-add: one unit added at each row's bin leaves in every bin the number of rows naming it -/

section Bincount

/-- A left fold that adds one at the key of each list entry leaves, at a bin, what it held plus the number of entries
    with that key (in the words' arithmetic: no overflow is in question). -/
theorem foldl_addi_count {ι κ : Type} [DecidableEq κ] (key : ι → κ) (L : List ι) (r : κ → BitVec 32) (b : κ) :
    (L.foldl (fun (r : κ → BitVec 32) n => fun i' => if i' = key n then IntOp.addi (r (key n)) 1#32 else r i') r) b
      = r b + BitVec.ofNat 32 (L.countP fun n => decide (key n = b)) := by
  induction L generalizing r with
  | nil => simp
  | cons a L ih =>
    rw [List.foldl_cons, ih, List.countP_cons]
    by_cases h : key a = b
    · subst h
      rw [if_pos rfl]
      simp only [decide_true, if_true]
      show r (key a) + 1#32 + _ = _
      rw [BitVec.ofNat_add, BitVec.add_assoc, BitVec.add_comm (1#32)]
    · rw [if_neg (fun h' => h h'.symm)]
      simp [h]

/-- Counting along the list of all positions is the cardinality of the filter. -/
theorem countP_finRange (k : Nat) (p : Fin k → Prop) [DecidablePred p] :
    (List.finRange k).countP (fun i => decide (p i)) = (Finset.univ.filter p).card := by
  rw [List.countP_eq_length_filter, Fin.univ_def]
  rfl

variable {N n : Nat} (d : ScatterDims ⟨1, ![N]⟩ ⟨2, ![n, 1]⟩ ⟨1, ![n]⟩)

/-- The start of row j's window on the operand's one axis is row j's index word, read signed. -/
theorem start_eq (hsd : d.scatterDimsToOperandDims = [0]) (hivd : d.indexVectorDim = 1)
    (idx : IVec ⟨2, ![n, 1]⟩ 32) (j : (⟨1, ![n]⟩ : Shape).Idx) (a : Fin 1) :
    d.start j idx a = (idx (ix2 (j 0) 0)).toInt := by
  have ha0 : a = 0 := Subsingleton.elim _ _
  subst ha0
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    show List.idxOf (0 : Fin 1) d.scatterDimsToOperandDims = 0
    rw [hsd]; simp

/-- The operand's one axis is inserted: the window coordinate on it is zero. -/
theorem window_eq (hins : d.insertedWindowDims = [0]) (j : (⟨1, ![n]⟩ : Shape).Idx) (a : Fin 1) : d.window j a = 0 := by
  have ha0 : a = 0 := Subsingleton.elim _ _
  subst ha0
  unfold ScatterDims.window
  rw [dif_neg]
  simp [ScatterDims.sKept, Shape.kept, hins]

/-- Row j lands on the bin its index word names, when that is a bin. -/
theorem resultIdx_eq (hins : d.insertedWindowDims = [0]) (hsd : d.scatterDimsToOperandDims = [0]) (hivd : d.indexVectorDim = 1)
    (hN : N < 2 ^ 31) (idx : IVec ⟨2, ![n, 1]⟩ 32) (j : (⟨1, ![n]⟩ : Shape).Idx) (hj : (idx (ix2 (j 0) 0)).toNat < N) :
    d.resultIdx? j idx = some (ix1 ⟨(idx (ix2 (j 0) 0)).toNat, hj⟩) := by
  have hti : (idx (ix2 (j 0) 0)).toInt = ((idx (ix2 (j 0) 0)).toNat : Int) := StableHlo.Predicate.toInt_eq_toNat_of_lt (by omega)
  unfold ScatterDims.resultIdx?
  have h : ∀ a, 0 ≤ d.start j idx a + d.window j a ∧ d.start j idx a + d.window j a < (⟨1, ![N]⟩ : Shape).size a := by
    intro a
    rw [start_eq d hsd hivd, window_eq d hins, hti]
    have hs : (⟨1, ![N]⟩ : Shape).size a = N := by
      have ha0 : a = 0 := Subsingleton.elim _ _
      subst ha0; rfl
    rw [hs]
    constructor <;> omega
  rw [dif_pos h]
  congr 1
  funext a
  have ha0 : a = 0 := Subsingleton.elim _ _
  subst ha0
  apply Fin.ext
  show (d.start j idx 0 + ((d.window j 0 : Nat) : Int)).toNat = (idx (ix2 (j 0) 0)).toNat
  rw [start_eq d hsd hivd, window_eq d hins, hti]
  omega

/-- THE COUNT. Adding one at each row's bin, from zero bins: bin b ends holding the number of rows whose index word is b. -/
theorem scatter_count (hins : d.insertedWindowDims = [0]) (hsd : d.scatterDimsToOperandDims = [0]) (hivd : d.indexVectorDim = 1)
    (hN : N < 2 ^ 31) (hn : n < 2 ^ 32) (idx : IVec ⟨2, ![n, 1]⟩ 32) (hidx : ∀ p : Fin n, (idx (ix2 p 0)).toNat < N) (b : Fin N) :
    (Host.scatter d IntOp.addi (fun _ => 0#32) idx (fun _ => 1#32) (ix1 b)).toNat
      = (Finset.univ.filter fun p : Fin n => (idx (ix2 p 0)).toNat = b.val).card := by
  classical
  let key : (⟨1, ![n]⟩ : Shape).Idx → (⟨1, ![N]⟩ : Shape).Idx := fun j => ix1 ⟨(idx (ix2 (j 0) 0)).toNat, hidx _⟩
  have hres : ∀ j, d.resultIdx? j idx = some (key j) := fun j => resultIdx_eq d hins hsd hivd hN idx j (hidx _)
  unfold Host.scatter
  simp only [hres]
  rw [foldl_addi_count (fun n' => key ((⟨1, ![n]⟩ : Shape).rowMajor.symm n')) _ _ (ix1 b), BitVec.zero_add, BitVec.toNat_ofNat]
  have hle : ∀ (L : List (Fin (⟨1, ![n]⟩ : Shape).numel)) (q : Fin (⟨1, ![n]⟩ : Shape).numel → Bool), L.countP q ≤ L.length := fun L q => List.countP_le_length
  have hnum : (⟨1, ![n]⟩ : Shape).numel = n := by simp [Shape.numel]
  rw [Nat.mod_eq_of_lt (lt_of_le_of_lt (hle _ _) (by rw [List.length_finRange, hnum]; exact hn))]
  rw [countP_finRange]
  refine Finset.card_bij (fun n' _ => (((⟨1, ![n]⟩ : Shape).rowMajor.symm n') 0 : Fin n)) ?_ ?_ ?_
  · intro n' hn'
    rw [Finset.mem_filter] at hn'
    refine Finset.mem_filter.mpr ⟨Finset.mem_univ _, ?_⟩
    have := congrFun hn'.2 0
    exact congrArg Fin.val this
  · intro a _ a' _ h
    apply (⟨1, ![n]⟩ : Shape).rowMajor.symm.injective
    rw [eq_ix1 ((⟨1, ![n]⟩ : Shape).rowMajor.symm a), eq_ix1 ((⟨1, ![n]⟩ : Shape).rowMajor.symm a'), h]
  · intro p hp
    rw [Finset.mem_filter] at hp
    refine ⟨(⟨1, ![n]⟩ : Shape).rowMajor (ix1 p), ?_, ?_⟩
    · rw [Finset.mem_filter]
      refine ⟨Finset.mem_univ _, ?_⟩
      rw [Equiv.symm_apply_apply]
      show ix1 _ = ix1 b
      congr 1
      exact Fin.ext hp.2
    · rw [Equiv.symm_apply_apply]
      rfl

end Bincount

/-! ## The count of rows with a different label -/

section NegCnt

/-- The f32 literal 4096.0. -/
theorem ofBits_4096 : Ideal.ofBits .f32 0x45800000#32 = ((4096 : ℝ) : EReal) := by
  simp [Ideal.ofBits, Ideal.ieee]
  rw [← EReal.coe_mul]
  norm_num

/-- A word below 2^31 is not negative. -/
theorem slt_zero_false (w : BitVec 32) (hw : w.toNat < 2 ^ 31) : w.slt 0#32 = false := by
  have h0 : (0#32 : BitVec 32).toInt = 0 := by decide
  rw [BitVec.slt, StableHlo.Predicate.toInt_eq_toNat_of_lt hw, h0]
  exact decide_eq_false (by omega)

/-- The host term of the count array, as a function of the labels: 4096.0 less the converted bin count read back at
    each row's own label, the bins filled by adding one at each row's clipped and wrapped label. -/
def negTerm (t : IVec S4096 32) : FVec Ideal S4096 .f32 :=
  subf (F := Ideal) (broadcastInDim S4096 ![] bcast_S_S4096 (constant (F := Ideal) S_ .f32 0x45800000#32))
    (Host.gather gather_S256_S4096x1_S4096_n_0_n_n_0_1_1
      (sitofp (F := Ideal) .f32
        (Host.scatter scatter_S256_S4096x1_S4096_n_0_0_1 IntOp.addi
          (broadcastInDim S256 ![] bcast_S_S256 (constantI S_ 32 0#32))
          (broadcastInDim S4096x1 ![0] bcast_S4096_S4096x1_0
            (select
              (cmpi .slt (maxsi (broadcastInDim S4096 ![] bcast_S_S4096 (id (constantI S_ 32 0#32))) t)
                (broadcastInDim S4096 ![] bcast_S_S4096 (constantI S_ 32 0#32)))
              (addi (maxsi (broadcastInDim S4096 ![] bcast_S_S4096 (id (constantI S_ 32 0#32))) t)
                (broadcastInDim S4096 ![] bcast_S_S4096 (constantI S_ 32 256#32)))
              (maxsi (broadcastInDim S4096 ![] bcast_S_S4096 (id (constantI S_ 32 0#32))) t)))
          (broadcastInDim S4096 ![] bcast_S_S4096 (constantI S_ 32 1#32))))
      (broadcastInDim S4096x1 ![0] bcast_S4096_S4096x1_0
        (select
          (cmpi .slt t (broadcastInDim S4096 ![] bcast_S_S4096 (constantI S_ 32 0#32)))
          (addi t (broadcastInDim S4096 ![] bcast_S_S4096 (constantI S_ 32 256#32)))
          t)))

/-- Clipping labels below 256 at zero from below leaves them. -/
theorem clip_id (t : IVec S4096 32) (hT : ∀ i : Fin 4096, (t (ix1 i)).toNat < 256) :
    maxsi (broadcastInDim S4096 ![] bcast_S_S4096 (id (constantI S_ 32 0#32))) t = t := by
  funext j
  obtain ⟨i, rfl⟩ : ∃ i : Fin 4096, j = ix1 i := ⟨j 0, eq_ix1 j⟩
  show IntOp.maxsi 0#32 (t (ix1 i)) = t (ix1 i)
  unfold IntOp.maxsi
  rw [slt_zero_false _ (by have := hT i; omega)]
  rfl

/-- Wrapping a negative index around leaves labels below 256. -/
theorem wrap_id (t : IVec S4096 32) (hT : ∀ i : Fin 4096, (t (ix1 i)).toNat < 256) :
    select (cmpi .slt t (broadcastInDim S4096 ![] bcast_S_S4096 (constantI S_ 32 0#32)))
      (addi t (broadcastInDim S4096 ![] bcast_S_S4096 (constantI S_ 32 256#32))) t = t := by
  funext j
  obtain ⟨i, rfl⟩ : ∃ i : Fin 4096, j = ix1 i := ⟨j 0, eq_ix1 j⟩
  show Scalar.select (BitVec.ofBool ((t (ix1 i)).slt 0#32)) (IntOp.addi (t (ix1 i)) 256#32) (t (ix1 i)) = t (ix1 i)
  rw [slt_zero_false _ (by have := hT i; omega)]
  exact select_zero _ _

/-- A vector as a column reads, at (p, 0), the vector at p. -/
theorem bcol_apply {α : Type} (v : S4096.Idx → α) (p : Fin 4096) :
    broadcastInDim S4096x1 ![0] bcast_S4096_S4096x1_0 v (ix2 p 0) = v (ix1 p) :=
  broadcastInDim_apply ![0] bcast_S4096_S4096x1_0 v (ix2 p (0 : Fin 1)) (ix1 p) (fun a => by
    match a with
    | ⟨0, _⟩ => show p.val = if (4096 : Nat) = 1 then 0 else p.val; rw [if_neg (by decide)])

/-- Row i's entry of the count array is the number of rows whose label differs from row i's. -/
theorem negTerm_apply (t : IVec S4096 32) (hT : ∀ i : Fin 4096, (t (ix1 i)).toNat < 256) (i : Fin 4096) :
    negTerm t (ix1 i) = Cert.Spec.negCnt t i := by
  unfold negTerm
  rw [clip_id t hT, wrap_id t hT]
  generalize hidx : broadcastInDim S4096x1 ![0] bcast_S4096_S4096x1_0 t = idx
  have hcol : ∀ p : Fin 4096, idx (ix2 p 0) = t (ix1 p) := fun p => by rw [← hidx]; exact bcol_apply t p
  have h6 : broadcastInDim S256 ![] bcast_S_S256 (constantI S_ 32 0#32) = fun _ => 0#32 := rfl
  have h14 : broadcastInDim S4096 ![] bcast_S_S4096 (constantI S_ 32 1#32) = fun _ => 1#32 := rfl
  rw [h6, h14]
  generalize hcnt : Host.scatter scatter_S256_S4096x1_S4096_n_0_0_1 IntOp.addi (fun _ => 0#32) idx (fun _ => 1#32) = cnt
  have hcount : ∀ b : Fin 256, (cnt (ix1 b)).toNat = (Finset.univ.filter fun p : Fin 4096 => (idx (ix2 p 0)).toNat = b.val).card := fun b => by
    rw [← hcnt]
    exact scatter_count scatter_S256_S4096x1_S4096_n_0_0_1 rfl rfl rfl (by decide) (by decide) idx
      (fun p => by rw [hcol]; exact hT p) b
  show Ideal.ofBits .f32 0x45800000#32 - Host.gather gather_S256_S4096x1_S4096_n_0_n_n_0_1_1 (sitofp (F := Ideal) .f32 cnt) idx (ix1 i) = _
  have hof : (ix1 i : S4096.Idx) = Shape.Idx.ofFin i := funext fun a => by match a with | ⟨0, _⟩ => rfl
  have hP : (StableHlo.Predicate.ixP i : S4096x1.Idx) = ix2 i 0 := funext fun a => by match a with | ⟨0, _⟩ => rfl | ⟨1, _⟩ => rfl
  rw [hof, StableHlo.Predicate.gather_take gather_S256_S4096x1_S4096_n_0_n_n_0_1_1 rfl rfl rfl rfl _ idx i (by decide)]
  have h31 : (t (ix1 i)).toNat < 2 ^ 31 := by have := hT i; omega
  have hti : (idx (StableHlo.Predicate.ixP i)).toInt.toNat = (t (ix1 i)).toNat := by
    rw [hP, hcol, StableHlo.Predicate.toInt_eq_toNat_of_lt h31]
    exact Int.toNat_natCast _
  have hb : ∀ h, (⟨min (idx (StableHlo.Predicate.ixP i)).toInt.toNat (256 - 1), h⟩ : Fin 256) = ⟨(t (ix1 i)).toNat, hT i⟩ := fun h => by
    apply Fin.ext
    show min (idx (StableHlo.Predicate.ixP i)).toInt.toNat (256 - 1) = (t (ix1 i)).toNat
    rw [hti]
    have := hT i
    omega
  rw [hb]
  have hof' : (Shape.Idx.ofFin (⟨(t (ix1 i)).toNat, hT i⟩ : Fin 256) : S256.Idx) = ix1 ⟨(t (ix1 i)).toNat, hT i⟩ :=
    funext fun a => by match a with | ⟨0, _⟩ => rfl
  rw [hof']
  show _ - (((cnt (ix1 ⟨(t (ix1 i)).toNat, hT i⟩)).toInt : ℝ) : EReal) = _
  have hsame : (Finset.univ.filter fun p : Fin 4096 => (idx (ix2 p 0)).toNat = (t (ix1 i)).toNat)
      = Finset.univ.filter fun j : Fin 4096 => Cert.Spec.same t i j := by
    ext p
    rw [Finset.mem_filter, Finset.mem_filter, hcol]
    simp only [Finset.mem_univ, true_and]
    show _ ↔ t (ix1 i) = t (ix1 p)
    constructor
    · intro h; exact (BitVec.eq_of_toNat_eq h).symm
    · intro h; rw [h]
  have hsum : (Finset.univ.filter fun j : Fin 4096 => Cert.Spec.same t i j).card
      + (Finset.univ.filter fun j : Fin 4096 => ¬ Cert.Spec.same t i j).card = 4096 := by
    rw [Finset.card_filter_add_card_filter_not]; simp
  have hc := hcount ⟨(t (ix1 i)).toNat, hT i⟩
  rw [show ((⟨(t (ix1 i)).toNat, hT i⟩ : Fin 256) : Nat) = (t (ix1 i)).toNat from rfl, hsame] at hc
  rw [StableHlo.Predicate.toInt_eq_toNat_of_lt (by rw [hc]; omega), hc, ofBits_4096]
  unfold Cert.Spec.negCnt
  rw [← EReal.coe_sub]
  congr 1
  have : ((Finset.univ.filter fun j : Fin 4096 => Cert.Spec.same t i j).card : ℝ)
      + ((Finset.univ.filter fun j : Fin 4096 => ¬ Cert.Spec.same t i j).card : ℝ) = 4096 := by exact_mod_cast hsum
  push_cast
  linarith

end NegCnt

set_option maxHeartbeats 4000000 in
/-- The count array the kernel reads: entry i is the number of rows whose label differs from row i's, when every label
    is below 256. -/
theorem V_negcnt (c : Dev nD) (hT : ∀ i : Fin 4096, ((m ((c : Thread nD τ).loc main_arg1) : S4096.Idx → BitVec 32) (ix1 i)).toNat < 256)
    (i : Fin 4096) :
    (V m c main_v25 : S4096.Idx → EReal) (ix1 i)
      = Cert.Spec.negCnt (m ((c : Thread nD τ).loc main_arg1) : IVec S4096 32) i := by
  have e : (V m c main_v25 : S4096.Idx → EReal) = negTerm (m ((c : Thread nD τ).loc main_arg1) : IVec S4096 32) := by
    dsimp only [Gen.V, Gen.V0]
    simp only [Gen.hostOps0, Gen.hostOps0_1, Gen.hostOps0_2, List.flatten_cons, List.flatten_nil, List.append_nil, List.cons_append, List.nil_append]
    after_results_simp
    rfl
  rw [e]
  exact negTerm_apply _ hT i

end Cert.Proof.HostPre

end
-- ==== Proof.KernelFinal.lean ====
/-
  The output array of the pairwise kernel after the run, at the extended reals: row `i` holds, in columns 0 to 4, the
  number of row `i`'s positive pairs, the sum of their losses, the sum of their similarities, the sum of the negative
  pairs' losses and the sum of their similarities, and zeros in columns 5 to 7.  Grid point `t` reads the whole feature
  matrix and label row and rows `512 t … 512 t + 511` of the label column and of the self-similarity column, and writes
  rows `512 t … 512 t + 511` of the output; the eight blocks tile the array.
-/
import proofs.«416473_j45569603010930_3_alg».proof.Proof.IdealBody
import proofs.«416473_j45569603010930_3_alg».proof.Proof.TileStats
import proofs.«416473_j45569603010930_3_alg».proof.Proof.HostPre
import proofs.«416473_j45569603010930_3_alg».proof.Proof.Spec
import Idealize.ShloMosaic.Lib.Pipeline.Value
import Idealize.ShloMosaic.Lib.ValueIdx

noncomputable section

namespace Cert.Proof.KI

open Cert.KernelIdeal Cert.KernelIdeal.Gen
open Idealize.ShloMosaic Idealize.ShloMosaic.TcCoe Idealize.ShloMosaic.ValueIdx
open Idealize.SL.Sem
open Idealize.ShloMosaic.Pipeline (Dat)
open Cert.Proof.HostPre

variable (m : (ℓ : Loc nD τ sig) → Buf (Elt Ideal) ℓ) (c : Dev nD)

abbrev xin : FVec Ideal S4096x512 .f32 := m ((c : Thread nD τ).loc main_arg0)
abbrev tin : IVec S4096 32 := m ((c : Thread nD τ).loc main_arg1)

/-- The printed index maps, decided over the grid: the feature matrix and the label row are one block; the label column,
    the self-similarity column and the output move with the point. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ ((grid0.coords t) 0).val = t.val ∧ t.val < 8 :=
  (by decide +kernel : ∀ t : Fin grid0.N, _)

/-- Row `r` of grid point `t`'s tile is row `512 t + r` of the arrays. -/
def grow (t : Fin cfg0.N) (r : Fin 512) : Fin 4096 := ⟨512 * t.val + r.val, by have := (idx_facts t).2.2.2.2.2.2.2.2.2.2.2; omega⟩

theorem blk0 (t : Fin cfg0.N) (a : Fin 4096) (k : Fin 512) :
    (iblk m c 0 t : S4096x512.Idx → EReal) (ix2 a k) = xin m c (ix2 a k) := by
  obtain ⟨e0, e1, -⟩ := idx_facts t
  refine Eq.trans ?_ (V_xb m c a k)
  show V m c main_v0 (((cfg0.win 0).blk t).view.emb (ix2 a k)) = V m c main_v0 (ix2 a k)
  refine congrArg _ (funext fun b => Fin.ext ?_)
  match b with
  | ⟨0, _⟩ => show win0_0.index t (0 : Fin 2) * 4096 + 1 * a.val = a.val; omega
  | ⟨1, _⟩ => show win0_0.index t (1 : Fin 2) * 512 + 1 * k.val = k.val; omega

theorem blk1 (t : Fin cfg0.N) (r : Fin 512) :
    (iblk m c 1 t : S512x1.Idx → BitVec 32) (ix2 r 0) = tin m c (ix1 (grow t r)) := by
  obtain ⟨-, -, e0, e1, -⟩ := idx_facts t
  refine Eq.trans ?_ (V_tcol m c (grow t r))
  show V m c main_v1 (((cfg0.win 1).blk t).view.emb (ix2 r 0)) = V m c main_v1 (ix2 (grow t r) 0)
  refine congrArg _ (funext fun b => Fin.ext ?_)
  match b with
  | ⟨0, _⟩ => show win0_1.index t (0 : Fin 2) * 512 + 1 * r.val = 512 * t.val + r.val; omega
  | ⟨1, _⟩ => show win0_1.index t (1 : Fin 2) * 1 + 1 * 0 = 0; omega

theorem blk2 (t : Fin cfg0.N) (j : Fin 4096) :
    (iblk m c 2 t : S1x4096.Idx → BitVec 32) (ix2 0 j) = tin m c (ix1 j) := by
  obtain ⟨-, -, -, -, e0, e1, -⟩ := idx_facts t
  refine Eq.trans ?_ (V_trow m c j)
  show V m c main_v2 (((cfg0.win 2).blk t).view.emb (ix2 0 j)) = V m c main_v2 (ix2 0 j)
  refine congrArg _ (funext fun b => Fin.ext ?_)
  match b with
  | ⟨0, _⟩ => show win0_2.index t (0 : Fin 2) * 1 + 1 * 0 = 0; omega
  | ⟨1, _⟩ => show win0_2.index t (1 : Fin 2) * 4096 + 1 * j.val = j.val; omega

theorem blk3 (t : Fin cfg0.N) (r : Fin 512) :
    (iblk m c 3 t : S512x1.Idx → EReal) (ix2 r 0) = Cert.Spec.sim (xin m c) (grow t r) (grow t r) := by
  obtain ⟨-, -, -, -, -, -, e0, e1, -⟩ := idx_facts t
  refine Eq.trans ?_ (V_diag m c (grow t r))
  show V m c main_v5 (((cfg0.win 3).blk t).view.emb (ix2 r 0)) = V m c main_v5 (ix2 (grow t r) 0)
  refine congrArg _ (funext fun b => Fin.ext ?_)
  match b with
  | ⟨0, _⟩ => show win0_3.index t (0 : Fin 2) * 512 + 1 * r.val = 512 * t.val + r.val; omega
  | ⟨1, _⟩ => show win0_3.index t (1 : Fin 2) * 1 + 1 * 0 = 0; omega

/-! ## From the blocks to the array -/

/-- What the output array ends holding: row `i`'s five statistics in columns 0 to 4, zeros in columns 5 to 7. -/
def Gout (x : FVec Ideal S4096x512 .f32) (t : IVec S4096 32) : S4096x8.Idx → EReal := fun y =>
  match (y 1).val with
  | 0 => Cert.Spec.posCnt x t ⟨(y 0).val, (y 0).isLt⟩
  | 1 => Cert.Spec.posLoss x t ⟨(y 0).val, (y 0).isLt⟩
  | 2 => Cert.Spec.posSim x t ⟨(y 0).val, (y 0).isLt⟩
  | 3 => Cert.Spec.negLoss x t ⟨(y 0).val, (y 0).isLt⟩
  | 4 => Cert.Spec.negSim x t ⟨(y 0).val, (y 0).isLt⟩
  | _ => 0

/-- What grid point `t` writes back is block `t` of that array: rows `512 t … 512 t + 511`, all eight columns. -/
theorem flushed4_eq (t : Fin cfg0.N) :
    (dats m 0 c).flushed 4 t = ((cfg0.win 4).blk t).view.read (Elt Ideal) (Gout (xin m c) (tin m c)) := by
  show (cfg0.win 4).cut (grid0.coords t) ((dats m 0 c).after 4 t) = _
  rw [after0_4]
  obtain ⟨-, -, -, -, -, -, -, -, e0, e1, ec, et⟩ := idx_facts t
  funext y
  obtain ⟨r, q, rfl⟩ : ∃ (r : Fin 512) (q : Fin 8), y = ix2 r q := ⟨y 0, y 1, eq_ix2 y⟩
  show OUT (grid0.coords t) (iblk m c 0 t) (iblk m c 1 t) (iblk m c 2 t) (iblk m c 3 t) (ix2 r q)
    = Gout (xin m c) (tin m c) (((cfg0.win 4).blk t).view.emb (ix2 r q))
  have hemb : ((cfg0.win 4).blk t).view.emb (ix2 r q) = ix2 (grow t r) q := funext fun b => Fin.ext (by
    match b with
    | ⟨0, _⟩ => show win0_4.index t (0 : Fin 2) * 512 + 1 * r.val = 512 * t.val + r.val; omega
    | ⟨1, _⟩ => show win0_4.index t (1 : Fin 2) * 8 + 1 * q.val = q.val; omega)
  rw [hemb]
  fin_cases q
  · exact OUT_posCnt (xin m c) (tin m c) (grid0.coords t) ⟨t.val, et⟩ ec _ _ _ _ (blk0 m c t) (blk1 m c t) (blk2 m c t) (blk3 m c t) r
  · exact OUT_posLoss (xin m c) (tin m c) (grid0.coords t) ⟨t.val, et⟩ ec _ _ _ _ (blk0 m c t) (blk1 m c t) (blk2 m c t) (blk3 m c t) r
  · exact OUT_posSim (xin m c) (tin m c) (grid0.coords t) ⟨t.val, et⟩ ec _ _ _ _ (blk0 m c t) (blk1 m c t) (blk2 m c t) (blk3 m c t) r
  · exact OUT_negLoss (xin m c) (tin m c) (grid0.coords t) ⟨t.val, et⟩ ec _ _ _ _ (blk0 m c t) (blk1 m c t) (blk2 m c t) (blk3 m c t) r
  · exact OUT_negSim (xin m c) (tin m c) (grid0.coords t) ⟨t.val, et⟩ ec _ _ _ _ (blk0 m c t) (blk1 m c t) (blk2 m c t) (blk3 m c t) r
  · exact OUT_zero (grid0.coords t) _ _ _ _ r _ (by decide)
  · exact OUT_zero (grid0.coords t) _ _ _ _ r _ (by decide)
  · exact OUT_zero (grid0.coords t) _ _ _ _ r _ (by decide)

/-- An index of the output array is in point `t`'s block iff each coordinate is in the block's range. -/
theorem mem_blk4 (t : Fin cfg0.N) (i : S4096x8.Idx) :
    i ∈ ((cfg0.win 4).blk t).view.set ↔ ∀ a : Fin 2, win0_4.index t a * S512x8.size a ≤ (i a).val ∧ (i a).val < win0_4.index t a * S512x8.size a + S512x8.size a := by
  show i ∈ ((View.whole main_v26).slice (win0_4.rect t)).set ↔ _
  rw [View.set_slice_whole, Rect.mem_set_unit]
  exact Iff.rfl

/-- Every row lies in the block of the point `row / 512`. -/
theorem cover4 (i : S4096x8.Idx) : ∃ t : Fin cfg0.N, (cfg0.win 4).flush t = true ∧ i ∈ ((cfg0.win 4).blk t).view.set := by
  have hi0 : (i 0).val < 4096 := (i 0).isLt
  have hi1 : (i 1).val < 8 := (i 1).isLt
  refine ⟨⟨(i 0).val / 512, by rw [show cfg0.N = 8 from N_0]; omega⟩, flush0_4 _, ?_⟩
  rw [mem_blk4]
  obtain ⟨-, -, -, -, -, -, -, -, e0, e1, -⟩ := idx_facts ⟨(i 0).val / 512, by rw [show cfg0.N = 8 from N_0]; omega⟩
  intro a
  match a with
  | ⟨0, _⟩ =>
    show win0_4.index _ (0 : Fin 2) * 512 ≤ (i 0).val ∧ (i 0).val < win0_4.index _ (0 : Fin 2) * 512 + 512
    rw [e0]; show (i 0).val / 512 * 512 ≤ (i 0).val ∧ (i 0).val < (i 0).val / 512 * 512 + 512; omega
  | ⟨1, _⟩ =>
    show win0_4.index _ (1 : Fin 2) * 8 ≤ (i 1).val ∧ (i 1).val < win0_4.index _ (1 : Fin 2) * 8 + 8
    rw [e1]; omega

/-- The output array after the run. -/
theorem final4 : (dats m 0 c).arrAt 4 cfg0.N = Gout (xin m c) (tin m c) :=
  (dats m 0 c).arrAt_eq_of_cover 4 (Gout (xin m c) (tin m c)) (fun t _ => flushed4_eq m c t) (cover4)

end Cert.Proof.KI

end
-- ==== Proof.HostTail.lean ====
/-
  The kernel program after its one region, and the label range.

  PART A.  After the region the program runs 51 host operations: five one-column slices of the region's 4096 x 8 output
  array, each reshaped to a vector over the rows, and then the closing chain of Spec.lean on those vectors and on the
  vector of negative-pair counts computed before the region.  Here the four result buffers are shown to be that chain
  (`Cert.Spec.lossOf`, `precOf`, `lastOf`) applied to columns of the output array.

  PART B.  The precondition's second and third conjuncts say every label is at least 0 and below 256 as a signed word;
  so every label is below 256 as a natural number.
-/
import proofs.«416473_j45569603010930_3_alg».proof.Proof.Gen.KernelIdeal.Frame
import proofs.«416473_j45569603010930_3_alg».proof.Proof.Gen.Pre_finite_inputs
import proofs.«416473_j45569603010930_3_alg».proof.Defs
import proofs.«416473_j45569603010930_3_alg».proof.Proof.Spec
import Idealize.ShloMosaic.Lib.StableHlo.Run
import Idealize.ShloMosaic.Lib.Pipeline.Value
import Idealize.ShloMosaic.Lib.ValueIdx
import Idealize.ShloMosaic.Lib.ReduceAll
import Idealize.ShloMosaic.Lib.StableHlo.Predicate

noncomputable section

namespace Cert.Proof.Tail

open Cert.KernelIdeal Cert.KernelIdeal.Gen Idealize.ShloMosaic Idealize.ShloMosaic.ValueIdx
open Idealize.ShloMosaic.Pipeline (Dat)

/-! ## The columns of the region's output array -/

/-- Column `k` of a 4096 x 8 array, as a vector over the rows. -/
def col (O : FVec Ideal S4096x8 .f32) (k : Fin 8) : FVec Ideal S4096 .f32 :=
  fun i => O (ix2 ⟨(i 0).val, (i 0).isLt⟩ k)

theorem col_apply (O : FVec Ideal S4096x8 .f32) (k : Fin 8) (i : Fin 4096) : col O k (ix1 i) = O (ix2 i k) := rfl

/-- The one-column slice at column `k`, reshaped to a vector over the rows, is column `k`: row `i` of the vector is
    at row-major position `i` of the 4096 x 1 slice, that is its entry `(i, 0)`, which the slice reads at `(i, k)`. -/
theorem slice_col (O : FVec Ideal S4096x8 .f32) (k : Fin 8) (h : S4096x8.Slices ![0, k.val] S4096x1)
    (hc : S4096x1.ShapeCasts S4096) :
    shapeCast S4096 (extractStridedSlice S4096x1 ![0, k.val] O h) hc = col O k := by
  funext j
  obtain ⟨i, rfl⟩ : ∃ i : Fin 4096, j = ix1 i := ⟨j 0, eq_ix1 j⟩
  refine (shapeCast_apply _ hc (ix1 i) (ix2 i (0 : Fin 1)) ?_).trans ?_
  · rw [Shape.rowMajor_val_two, Shape.rowMajor_val_one]
    show i.val * 1 + 0 = i.val
    omega
  · refine (extractStridedSlice_apply _ O h (ix2 i (0 : Fin 1)) (ix2 i k) ?_).trans rfl
    intro a
    match a with
    | ⟨0, _⟩ => show i.val = 0 + i.val; omega
    | ⟨1, _⟩ => show k.val = k.val + 0; omega

/-! ## The host operations after the region, from any contents

From contents `W` holding the array `O` at the region's output and the vector `N` at the negative-pair counts, each of
the four result buffers after the 51 operations is the closing chain applied to columns of `O` and to `N`: every
operation's result is read off at its own buffer, the slices become columns, and what is left is the chain's text. -/

section After

variable (W : Valuation τ sig (Elt Ideal)) (O : FVec Ideal S4096x8 .f32) (N : FVec Ideal S4096 .f32)
  (hO : W (Proc.devRef .tc main_v26) = O) (hN : W (Proc.devRef .tc main_v25) = N)

include hO hN

/-- The loss: the mean over the rows with a negative pair of the two normalized loss sums. -/
theorem after_loss :
    (StableHlo.after (List.flatten [hostOps1, hostOps1_1, hostOps1_2]) W (Proc.devRef .tc main_v48) : S_.Idx → EReal)
      = Cert.Spec.lossOf bcast_S_S4096 reducesTo_S4096_S_d0 h_S_ (col O 0) (col O 1) N (col O 3) := by
  simp only [List.flatten_cons, List.flatten_nil, List.append_nil, List.cons_append, List.nil_append, hostOps1, hostOps1_1, hostOps1_2]
  after_results_simp
  rw [hO, hN]
  simp only [StableHlo.TRef.ofBuf, StableHlo.TRef.toBuf, cast_eq]
  unfold Cert.Spec.lossOf
  rw [← slice_col O 0 slices_S4096x8_S4096x1_0_0 shapeCasts_S4096x1_S4096,
    ← slice_col O 1 slices_S4096x8_S4096x1_0_1 shapeCasts_S4096x1_S4096,
    ← slice_col O 3 slices_S4096x8_S4096x1_0_3 shapeCasts_S4096x1_S4096]
  rfl

/-- The share of rows with no negative pair. -/
theorem after_prec :
    (StableHlo.after (List.flatten [hostOps1, hostOps1_1, hostOps1_2]) W (Proc.devRef .tc main_v53) : S_.Idx → EReal)
      = Cert.Spec.precOf bcast_S_S4096 reducesTo_S4096_S_d0 h_S_ natLt_1_32 N := by
  simp only [List.flatten_cons, List.flatten_nil, List.append_nil, List.cons_append, List.nil_append, hostOps1, hostOps1_1, hostOps1_2]
  after_results_simp
  rw [hN]
  unfold Cert.Spec.precOf
  rfl

/-- The last row's positive similarity sum over its positive count. -/
theorem after_lastpos :
    (StableHlo.after (List.flatten [hostOps1, hostOps1_1, hostOps1_2]) W (Proc.devRef .tc main_v59) : S_.Idx → EReal)
      = Cert.Spec.lastOf slices_S4096_S1_4095 shapeCasts_S1_S_
          (Cert.Spec.lastEntry slices_S4096_S1_4095 shapeCasts_S1_S_ (col O 2)) (col O 0) := by
  simp only [List.flatten_cons, List.flatten_nil, List.append_nil, List.cons_append, List.nil_append, hostOps1, hostOps1_1, hostOps1_2]
  after_results_simp
  rw [hO]
  unfold Cert.Spec.lastOf Cert.Spec.lastEntry
  rw [← slice_col O 0 slices_S4096x8_S4096x1_0_0 shapeCasts_S4096x1_S4096,
    ← slice_col O 2 slices_S4096x8_S4096x1_0_2 shapeCasts_S4096x1_S4096]
  rfl

/-- The last row's negative similarity sum over its negative count. -/
theorem after_lastneg :
    (StableHlo.after (List.flatten [hostOps1, hostOps1_1, hostOps1_2]) W (Proc.devRef .tc main_v65) : S_.Idx → EReal)
      = Cert.Spec.lastOf slices_S4096_S1_4095 shapeCasts_S1_S_
          (Cert.Spec.lastEntry slices_S4096_S1_4095 shapeCasts_S1_S_ (col O 4)) N := by
  simp only [List.flatten_cons, List.flatten_nil, List.append_nil, List.cons_append, List.nil_append, hostOps1, hostOps1_1, hostOps1_2]
  after_results_simp
  rw [hO, hN]
  unfold Cert.Spec.lastOf Cert.Spec.lastEntry
  rw [← slice_col O 4 slices_S4096x8_S4096x1_0_4 shapeCasts_S4096x1_S4096]
  rfl

end After

/-! ## The kernel program's four results

The contents the tail starts from are the region's arrays over the contents at the region's entry: the output array is
window 4's, and the negative-pair counts, no array of the pipeline, are as the operations before the region left them. -/

section Tail

variable (m : (ℓ : Loc nD τ sig) → Buf (Elt Ideal) ℓ)
  (dats : (p : Fin 1) → (c : Dev nD) → Dat τ (Elt Ideal) Unit ℕ (UR sig nD τ) ℕ (cfgs p) c) (c : Dev nD)

/-- The output array after the region. -/
abbrev outArr : FVec Ideal S4096x8 .f32 := (dats 0 c).arrAt 4 cfg0.N
/-- The negative-pair counts, computed before the region. -/
abbrev cntArr : FVec Ideal S4096 .f32 := V m c main_v25

theorem start_out :
    Pipeline.withArrays (cfgs 0).spec c (V0 m c) (fun w => (dats 0 c).arrAt w (cfgs 0).N) (Proc.devRef .tc main_v26)
      = outArr dats c :=
  Pipeline.withArrays_arr spec0 launch0.win.arr_inj c _ _ 4

theorem start_neg :
    Pipeline.withArrays (cfgs 0).spec c (V0 m c) (fun w => (dats 0 c).arrAt w (cfgs 0).N) (Proc.devRef .tc main_v25)
      = cntArr m c :=
  Pipeline.withArrays_of_ne _ c (V0 m c) _ main_v25 (by exact (by decide : ∀ w, Pipeline.arrRef spec0 w ≠ main_v25))

theorem tail_loss :
    (Pipeline.afterTail₀ cfgs dats 0 (V0 m) [hostOps1, hostOps1_1, hostOps1_2] c main_v48 : S_.Idx → EReal)
      = Cert.Spec.lossOf bcast_S_S4096 reducesTo_S4096_S_d0 h_S_ (col (outArr dats c) 0) (col (outArr dats c) 1)
          (cntArr m c) (col (outArr dats c) 3) :=
  after_loss _ _ _ (start_out m dats c) (start_neg m dats c)

theorem tail_prec :
    Pipeline.afterTail₀ cfgs dats 0 (V0 m) [hostOps1, hostOps1_1, hostOps1_2] c main_v53
      = Cert.Spec.precOf bcast_S_S4096 reducesTo_S4096_S_d0 h_S_ natLt_1_32 (cntArr m c) :=
  after_prec _ _ _ (start_out m dats c) (start_neg m dats c)

theorem tail_lastpos :
    Pipeline.afterTail₀ cfgs dats 0 (V0 m) [hostOps1, hostOps1_1, hostOps1_2] c main_v59
      = Cert.Spec.lastOf slices_S4096_S1_4095 shapeCasts_S1_S_
          (Cert.Spec.lastEntry slices_S4096_S1_4095 shapeCasts_S1_S_ (col (outArr dats c) 2)) (col (outArr dats c) 0) :=
  after_lastpos _ _ _ (start_out m dats c) (start_neg m dats c)

theorem tail_lastneg :
    Pipeline.afterTail₀ cfgs dats 0 (V0 m) [hostOps1, hostOps1_1, hostOps1_2] c main_v65
      = Cert.Spec.lastOf slices_S4096_S1_4095 shapeCasts_S1_S_
          (Cert.Spec.lastEntry slices_S4096_S1_4095 shapeCasts_S1_S_ (col (outArr dats c) 4)) (cntArr m c) :=
  after_lastneg _ _ _ (start_out m dats c) (start_neg m dats c)

end Tail

/-! ## The label range out of the precondition -/

/-- A 32-bit word that is at least 0 and below 256 as a signed number is below 256 as a natural number. -/
theorem toNat_lt_of_signed (w : BitVec 32) (h0 : IntOp.cmpi .sge w 0#32 = 1#1) (h1 : IntOp.cmpi .slt w 256#32 = 1#1) :
    w.toNat < 256 := by
  have hsge : (0#32).sle w = true := (StableHlo.Predicate.ofBool_eq_one_iff _).1 h0
  have hslt : w.slt 256#32 = true := (StableHlo.Predicate.ofBool_eq_one_iff _).1 h1
  simp only [BitVec.sle, BitVec.slt, decide_eq_true_eq] at hsge hslt
  have e0 : (0#32 : BitVec 32).toInt = 0 := by decide
  have e256 : (256#32 : BitVec 32).toInt = 256 := by decide
  rw [e0] at hsge
  rw [e256] at hslt
  have hc := BitVec.toInt_eq_toNat_cond w
  have hw := w.isLt
  split at hc <;> omega

/-- Under the precondition every label is below 256. -/
theorem labels_in_range {F : FTy → Type} [FloatOps F] (x : FVec F Cert.Pre_finite_inputs.S4096x512 .f32)
    (t : IVec Cert.Pre_finite_inputs.S4096 32) (h : Cert.Pre_finite_inputs.fn (F := F) x t = fun _ => 1#1) (i : Fin 4096) :
    (t (ix1 i)).toNat < 256 := by
  haveI : Subsingleton Cert.Pre_finite_inputs.S_.Idx := ⟨fun a b => funext fun d => d.elim0⟩
  have h0 := congrFun h ValueIdx.ix0
  dsimp only [Cert.Pre_finite_inputs.fn] at h0
  change IntOp.andi _ _ = 1#1 at h0
  obtain ⟨h12, h3⟩ := IntOp.andi_eq_one.1 h0
  change IntOp.andi _ _ = 1#1 at h12
  obtain ⟨_, h2⟩ := IntOp.andi_eq_one.1 h12
  have hge := Host.reduce_andi_all _ _ _ _ _ h2 (ix1 i)
  have hlt := Host.reduce_andi_all _ _ _ _ _ h3 (ix1 i)
  exact toNat_lt_of_signed (t (ix1 i)) hge hlt

end Cert.Proof.Tail

end
-- ==== Proof.SpecLemmas.lean ====
/-
  The last row's entry of a vector over the rows that is given entry by entry.
-/
import proofs.«416473_j45569603010930_3_alg».proof.Proof.Spec
import Idealize.ShloMosaic.Lib.ValueIdx
import Idealize.ShloMosaic.Lib.Pipeline.Value

noncomputable section

namespace Cert.Spec

open Idealize.ShloMosaic Idealize.ShloMosaic.ValueIdx

/-- The last row's entry of the vector with entries `f` is `f 4095`: the one-element slice at offset 4095, cast to a
    scalar array, reads the operand at index 4095 + 0. -/
theorem lastEntry_vec (hsl : SN.Slices ![4095] S1) (hsc : S1.ShapeCasts S0) (f : Fin 4096 → EReal) :
    lastEntry hsl hsc (vec f) = fun _ => f ⟨4095, by omega⟩ := by
  funext j
  unfold lastEntry
  refine (shapeCast_apply _ hsc j (ix1 (0 : Fin 1)) ?_).trans ?_
  · rw [Shape.rowMajor_val_one]
    exact (Shape.rowMajorPi_zero _ j).symm
  · refine (extractStridedSlice_apply ![4095] (vec f) hsl (ix1 (0 : Fin 1)) (ix1 (⟨4095, by omega⟩ : Fin 4096))
      fun a => ?_).trans ?_
    · match a with
      | ⟨0, _⟩ => rfl
    · rfl

end Cert.Spec

end
-- ==== Proof.KernelRun.lean ====
/-
  The idealized kernel program's run, read at its four results: the run around the region ends with the region's output
  array at the row statistics (columns 0 to 4) and the negative-pair counts computed before the region at theirs, and
  the host operations after the region are the closing chain on those vectors.
-/
import proofs.«416473_j45569603010930_3_alg».proof.Proof.KernelFinal
import proofs.«416473_j45569603010930_3_alg».proof.Proof.HostTail
import proofs.«416473_j45569603010930_3_alg».proof.Proof.SpecLemmas

noncomputable section

namespace Cert.Proof.KI

open Cert.KernelIdeal Cert.KernelIdeal.Gen
open Idealize.ShloMosaic Idealize.ShloMosaic.TcCoe Idealize.ShloMosaic.ValueIdx
open Idealize.SL.Sem
open Idealize.ShloMosaic.Pipeline (Dat)

/-- The columns of the output array are the statistics' vectors. -/
theorem col_Gout0 (x : FVec Ideal S4096x512 .f32) (t : IVec S4096 32) : Cert.Proof.Tail.col (Gout x t) 0 = Cert.Spec.vec (Cert.Spec.posCnt x t) :=
  Cert.Spec.vec_ext fun i => rfl
theorem col_Gout1 (x : FVec Ideal S4096x512 .f32) (t : IVec S4096 32) : Cert.Proof.Tail.col (Gout x t) 1 = Cert.Spec.vec (Cert.Spec.posLoss x t) :=
  Cert.Spec.vec_ext fun i => rfl
theorem col_Gout2 (x : FVec Ideal S4096x512 .f32) (t : IVec S4096 32) : Cert.Proof.Tail.col (Gout x t) 2 = Cert.Spec.vec (Cert.Spec.posSim x t) :=
  Cert.Spec.vec_ext fun i => rfl
theorem col_Gout3 (x : FVec Ideal S4096x512 .f32) (t : IVec S4096 32) : Cert.Proof.Tail.col (Gout x t) 3 = Cert.Spec.vec (Cert.Spec.negLoss x t) :=
  Cert.Spec.vec_ext fun i => rfl
theorem col_Gout4 (x : FVec Ideal S4096x512 .f32) (t : IVec S4096 32) : Cert.Proof.Tail.col (Gout x t) 4 = Cert.Spec.vec (Cert.Spec.negSim x t) :=
  Cert.Spec.vec_ext fun i => rfl

variable (m : (ℓ : Loc nD τ sig) → Buf (Elt Ideal) ℓ) (ρ : Dev nD → PrngReg)

/-- Every weakly fair execution of the idealized kernel program terminates with its four results at the closing chain of
    the row statistics of its arguments, the arguments unchanged, when every label is below 256. -/
theorem kernel_run (hT : ∀ (c : Dev nD) (i : Fin 4096), (tin m c (ix1 i)).toNat < 256) :
    θ_run (defs (F := Ideal)) (onTc (τ := τ) (main (F := Ideal))) ⟨m, fun _ => 0, ρ⟩ (fun r => ∀ c : Dev nD,
      r.2.mem ((c.tc : Thread nD τ).loc main_v48)
        = Cert.Spec.lossOf bcast_S_S4096 reducesTo_S4096_S_d0 h_S_ (Cert.Spec.vec (Cert.Spec.posCnt (xin m c) (tin m c)))
            (Cert.Spec.vec (Cert.Spec.posLoss (xin m c) (tin m c))) (Cert.Spec.vec (Cert.Spec.negCnt (tin m c)))
            (Cert.Spec.vec (Cert.Spec.negLoss (xin m c) (tin m c)))
      ∧ r.2.mem ((c.tc : Thread nD τ).loc main_v53)
        = Cert.Spec.precOf bcast_S_S4096 reducesTo_S4096_S_d0 h_S_ natLt_1_32 (Cert.Spec.vec (Cert.Spec.negCnt (tin m c)))
      ∧ r.2.mem ((c.tc : Thread nD τ).loc main_v59)
        = Cert.Spec.lastOf slices_S4096_S1_4095 shapeCasts_S1_S_ (fun _ => Cert.Spec.posSim (xin m c) (tin m c) ⟨4095, by omega⟩)
            (Cert.Spec.vec (Cert.Spec.posCnt (xin m c) (tin m c)))
      ∧ r.2.mem ((c.tc : Thread nD τ).loc main_v65)
        = Cert.Spec.lastOf slices_S4096_S1_4095 shapeCasts_S1_S_ (fun _ => Cert.Spec.negSim (xin m c) (tin m c) ⟨4095, by omega⟩)
            (Cert.Spec.vec (Cert.Spec.negCnt (tin m c)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main (F := Ideal) m ρ)
  have hr := (h c).2
  have hO : Cert.Proof.Tail.outArr (dats m) c = Gout (xin m c) (tin m c) := final4 m c
  have hN : Cert.Proof.Tail.cntArr m c = Cert.Spec.vec (Cert.Spec.negCnt (tin m c)) :=
    Cert.Spec.vec_ext fun i => Cert.Proof.HostPre.V_negcnt m c (hT c) i
  refine ⟨((hr main_v48 (Pipeline.mem_restRefs_of main_v48 (by decide) (by decide))).trans (Cert.Proof.Tail.tail_loss m (dats m) c)).trans ?_,
    ((hr main_v53 (Pipeline.mem_restRefs_of main_v53 (by decide) (by decide))).trans (Cert.Proof.Tail.tail_prec m (dats m) c)).trans ?_,
    ((hr main_v59 (Pipeline.mem_restRefs_of main_v59 (by decide) (by decide))).trans (Cert.Proof.Tail.tail_lastpos m (dats m) c)).trans ?_,
    ((hr main_v65 (Pipeline.mem_restRefs_of main_v65 (by decide) (by decide))).trans (Cert.Proof.Tail.tail_lastneg m (dats m) c)).trans ?_,
    (hr main_arg0 (Pipeline.mem_restRefs_of main_arg0 (by decide) (by decide))).trans (W_main_arg0 m (dats m) c),
    (hr main_arg1 (Pipeline.mem_restRefs_of main_arg1 (by decide) (by decide))).trans (W_main_arg1 m (dats m) c)⟩
  · rw [hO, hN, col_Gout0, col_Gout1, col_Gout3]
  · rw [hN]
  · rw [hO, col_Gout0, col_Gout2, Cert.Spec.lastEntry_vec]
  · rw [hO, hN, col_Gout4, Cert.Spec.lastEntry_vec]

end Cert.Proof.KI

end
-- ==== Proof.RefSums.lean ====
/-
  The reference program's four row sums, read at an index and identified with the specification's statistics:
  the positive and the negative loss sums of every row, and the positive and the negative similarity sums of the last row.
-/
import proofs.«416473_j45569603010930_3_alg».proof.Proof.RefRead
import proofs.«416473_j45569603010930_3_alg».proof.Proof.Spec
import Idealize.ShloMosaic.Lib.ValueIdx
import Idealize.ShloMosaic.Lib.Pipeline.Value
import Idealize.ShloMosaic.PureOps.Ideal.Laws
import Idealize.ShloMosaic.Lib.StableHlo.Predicate

noncomputable section

namespace Cert.Proof.Ref

open Cert.ReferenceIdeal Cert.ReferenceIdeal.Gen Cert.ReferenceIdeal.ReadP Idealize.ShloMosaic Idealize.ShloMosaic.ValueIdx
open Idealize.ShloMosaic.StableHlo.Predicate (cmpi_eq_iff ofBool_eq_one_iff)

variable (x : FVec Ideal S4096x512 .f32) (t : IVec S4096 32)

/-! ## One-bit values -/

/-- The conjunction of two bits is set exactly when both are. -/
theorem and_bit (a b : BitVec 1) : a &&& b = 1#1 ↔ a = 1#1 ∧ b = 1#1 := by
  revert a b; decide

/-- The complement of a bit is set exactly when the bit is not. -/
theorem not_bit (a : BitVec 1) : ~~~a = 1#1 ↔ ¬ a = 1#1 := by
  revert a; decide

/-! ## The similarity matrix and the two masks at an index -/

/-- The product of the feature matrix with its transpose, at `(i, j)`, is the inner product of rows `i` and `j`. -/
theorem sim_apply (i j : Fin 4096) : val_main_v1 (F := Ideal) x (ix2 i j) = Cert.Spec.sim x i j := by
  rw [val_main_v1_apply]
  unfold Cert.Spec.sim
  refine Finset.sum_congr rfl fun k _ => ?_
  rw [val_main_v0_apply]
  have e1 : lidx_main_v1 (ix2 i j) k = ix2 i k := funext fun a => by
    match a with
    | ⟨0, _⟩ => rfl
    | ⟨1, _⟩ => rfl
  have e2 : idx_main_v0 (ridx_main_v1 (ix2 i j) k) = ix2 j k := funext fun a => by
    match a with
    | ⟨0, _⟩ => rfl
    | ⟨1, _⟩ => rfl
  rw [e1, e2]

/-- The label-equality bit at `(i, j)`. -/
theorem same_bit (i j : Fin 4096) : val_main_v6 (F := Ideal) t (ix2 i j) = 1#1 ↔ Cert.Spec.same t i j := by
  rw [val_main_v6_apply, val_main_v4_apply, val_main_v5_apply, val_main_v2_apply, val_main_v3_apply, cmpi_eq_iff]
  have e1 : idx_main_v2 (idx_main_v4 (ix2 i j)) = ix1 i := funext fun a => by
    match a with
    | ⟨0, _⟩ => rfl
  have e2 : idx_main_v3 (idx_main_v5 (ix2 i j)) = ix1 j := funext fun a => by
    match a with
    | ⟨0, _⟩ => rfl
  rw [e1, e2]
  rfl

/-- The similarity-below-one bit at `(i, j)`. -/
theorem lt_bit (i j : Fin 4096) :
    val_main_v8 (F := Ideal) x (ix2 i j) = 1#1 ↔ Cert.Spec.sim x i j < Ideal.ofBits .f32 0x3F800000#32 := by
  rw [val_main_v8_apply, val_main_v7_apply, val_main_cst_apply, sim_apply, Ideal.cmpf_def]
  show BitVec.ofBool (decide (Cert.Spec.sim x i j < Ideal.ofBits .f32 0x3F800000#32)) = 1#1 ↔ _
  rw [ofBool_eq_one_iff, decide_eq_true_iff]

/-- The positive-pair bit at `(i, j)`. -/
theorem pos_bit (i j : Fin 4096) : val_main_v9 (F := Ideal) x t (ix2 i j) = 1#1 ↔ Cert.Spec.pos x t i j := by
  rw [val_main_v9_apply]
  unfold IntOp.andi Cert.Spec.pos
  rw [and_bit, same_bit, lt_bit]

/-- The negative-pair bit at `(i, j)`. -/
theorem neg_bit (i j : Fin 4096) : val_main_v10 (F := Ideal) t (ix2 i j) = 1#1 ↔ ¬ Cert.Spec.same t i j := by
  rw [val_main_v10_apply, not_bit, same_bit]

/-! ## The two loss matrices at an index -/

/-- An extended real is never unequal to itself: the comparison's bit is clear. -/
theorem une_self (a : Ideal .f32) : FloatOps.cmpf (F := Ideal) .une a a = 0#1 := by
  rw [Ideal.cmpf_def]
  show BitVec.ofBool (decide (a ≠ a)) = 0#1
  rw [decide_eq_false (not_not.mpr rfl)]
  rfl

/-- The loss of a positive pair at `(i, j)`. -/
theorem posL_apply (i j : Fin 4096) : val_main_v21 (F := Ideal) x (ix2 i j) = Cert.Spec.posL (Cert.Spec.sim x i j) := by
  rw [val_main_v21_apply, val_main_call0_v4_apply, une_self, select_zero]
  simp only [val_main_call0_v11_apply, val_main_call0_v1_apply, val_main_call0_v10_apply, val_main_call0_v9_apply,
    val_main_call0_v8_apply, val_main_call0_v7_apply, val_main_call0_v3_apply, val_main_call0_v0_apply,
    val_main_call0_v2_apply, val_main_call0_cst_apply, val_main_v20_apply, val_main_v19_apply, val_main_v18_apply,
    val_main_v17_apply, val_main_cst_1_apply, val_main_cst_2_apply, sim_apply,
    Ideal.ofBits_def, Ideal.addf_def, Ideal.subf_def, Ideal.mulf_def, Ideal.maximumf_def, Ideal.hostUnary_exp_def,
    Ideal.hostUnary_log1p_def, Ideal.hostNegf_def, Ideal.hostAbsf_def, Ideal.negf_def, Ideal.absf_def,
    Ideal.ofBits_zero_f32, sub_zero]
  rfl

/-- The loss of a negative pair at `(i, j)`. -/
theorem negL_apply (i j : Fin 4096) : val_main_v26 (F := Ideal) x (ix2 i j) = Cert.Spec.negL (Cert.Spec.sim x i j) := by
  rw [val_main_v26_apply, val_main_call1_v4_apply, une_self, select_zero]
  simp only [val_main_call1_v11_apply, val_main_call1_v1_apply, val_main_call1_v10_apply, val_main_call1_v9_apply,
    val_main_call1_v8_apply, val_main_call1_v7_apply, val_main_call1_v3_apply, val_main_call1_v0_apply,
    val_main_call1_v2_apply, val_main_call1_cst_apply, val_main_v25_apply, val_main_v24_apply, val_main_v23_apply,
    val_main_v22_apply, val_main_cst_3_apply, val_main_cst_4_apply, sim_apply,
    Ideal.ofBits_def, Ideal.addf_def, Ideal.subf_def, Ideal.mulf_def, Ideal.maximumf_def, Ideal.hostUnary_exp_def,
    Ideal.hostUnary_log1p_def, Ideal.hostNegf_def, Ideal.hostAbsf_def, Ideal.negf_def, Ideal.absf_def,
    Ideal.ofBits_zero_f32, sub_zero]
  rfl

/-! ## The row sums of the two loss matrices -/

/-- Row `i`'s sum of the losses of its positive pairs. -/
theorem ref_posLoss : val_main_v28 (F := Ideal) x t = Cert.Spec.vec (Cert.Spec.posLoss x t) := by
  refine Cert.Spec.vec_ext fun i => ?_
  rw [val_main_v28_apply, Cert.Spec.vec_ix1, val_main_cst_6_apply, Ideal.ofBits_def, Ideal.ofBits_zero_f32, zero_add]
  unfold Cert.Spec.posLoss
  refine Finset.sum_congr rfl fun k _ => ?_
  have e : idx_main_v28 (ix1 i) k = ix2 i k := funext fun a => by
    match a with
    | ⟨0, _⟩ => rfl
    | ⟨1, _⟩ => rfl
  rw [e, val_main_v27_apply]
  by_cases h : Cert.Spec.pos x t i k
  · rw [if_pos h, (pos_bit x t i k).mpr h, select_one, posL_apply]
  · rw [if_neg h, eq_zero_of_ne_one (fun hb => h ((pos_bit x t i k).mp hb)), select_zero, val_main_call2_v1_apply,
      val_main_call2_v0_apply, val_main_cst_5_apply, Ideal.ofBits_def, Ideal.ofBits_zero_f32]

/-- Row `i`'s sum of the losses of its negative pairs. -/
theorem ref_negLoss : val_main_v33 (F := Ideal) x t = Cert.Spec.vec (Cert.Spec.negLoss x t) := by
  refine Cert.Spec.vec_ext fun i => ?_
  rw [val_main_v33_apply, Cert.Spec.vec_ix1, val_main_cst_9_apply, Ideal.ofBits_def, Ideal.ofBits_zero_f32, zero_add]
  unfold Cert.Spec.negLoss
  refine Finset.sum_congr rfl fun k _ => ?_
  have e : idx_main_v33 (ix1 i) k = ix2 i k := funext fun a => by
    match a with
    | ⟨0, _⟩ => rfl
    | ⟨1, _⟩ => rfl
  rw [e, val_main_v32_apply]
  by_cases h : Cert.Spec.same t i k
  · rw [if_pos h, eq_zero_of_ne_one (fun hb => (neg_bit t i k).mp hb h), select_zero, val_main_call3_v1_apply,
      val_main_call3_v0_apply, val_main_cst_8_apply, Ideal.ofBits_def, Ideal.ofBits_zero_f32]
  · rw [if_neg h, (neg_bit t i k).mpr h, select_one, negL_apply]

/-! ## The last row's two similarity sums -/

/-- A sum over the indices of a vector of 4096 entries is the sum over its coordinate. -/
theorem sum_idx1 (f : S4096.Idx → EReal) : ∑ j : S4096.Idx, f j = ∑ p : Fin 4096, f (ix1 p) := by
  let e : S4096.Idx ≃ Fin 4096 :=
    { toFun := fun j => j 0, invFun := fun p => ix1 p, left_inv := fun j => (eq_ix1 j).symm, right_inv := fun _ => rfl }
  rw [← Equiv.sum_comp e.symm f]
  rfl

/-- The last row of the similarity matrix, at `k`. -/
theorem lastSim_apply (k : Fin 4096) :
    val_main_v51 (F := Ideal) x (ix1 k) = Cert.Spec.sim x ⟨4095, by omega⟩ k := by
  rw [val_main_v51_apply, val_main_v50_apply]
  have e : idx_main_v50 (idx_main_v51 (ix1 k)) = ix2 ⟨4095, by omega⟩ k := funext fun a => Fin.ext (by
    match a with
    | ⟨0, _⟩ => rfl
    | ⟨1, _⟩ => exact Nat.mod_eq_of_lt k.isLt)
  rw [e, sim_apply]

/-- The same row read by the second slice. -/
theorem lastSim_apply' (k : Fin 4096) :
    val_main_v61 (F := Ideal) x (ix1 k) = Cert.Spec.sim x ⟨4095, by omega⟩ k := by
  rw [val_main_v61_apply, val_main_v60_apply]
  have e : idx_main_v60 (idx_main_v61 (ix1 k)) = ix2 ⟨4095, by omega⟩ k := funext fun a => Fin.ext (by
    match a with
    | ⟨0, _⟩ => rfl
    | ⟨1, _⟩ => exact Nat.mod_eq_of_lt k.isLt)
  rw [e, sim_apply]

/-- The last row of the positive-pair mask, at `k`. -/
theorem lastPos_bit (k : Fin 4096) :
    val_main_v49 (F := Ideal) x t (ix1 k) = 1#1 ↔ Cert.Spec.pos x t ⟨4095, by omega⟩ k := by
  rw [val_main_v49_apply, val_main_v48_apply]
  have e : idx_main_v48 (idx_main_v49 (ix1 k)) = ix2 ⟨4095, by omega⟩ k := funext fun a => Fin.ext (by
    match a with
    | ⟨0, _⟩ => rfl
    | ⟨1, _⟩ => exact Nat.mod_eq_of_lt k.isLt)
  rw [e, pos_bit]

/-- The last row of the negative-pair mask, at `k`. -/
theorem lastNeg_bit (k : Fin 4096) :
    val_main_v59 (F := Ideal) t (ix1 k) = 1#1 ↔ ¬ Cert.Spec.same t ⟨4095, by omega⟩ k := by
  rw [val_main_v59_apply, val_main_v58_apply]
  have e : idx_main_v58 (idx_main_v59 (ix1 k)) = ix2 ⟨4095, by omega⟩ k := funext fun a => Fin.ext (by
    match a with
    | ⟨0, _⟩ => rfl
    | ⟨1, _⟩ => exact Nat.mod_eq_of_lt k.isLt)
  rw [e, neg_bit]

/-- The last row's sum of the similarities of its positive pairs. -/
theorem ref_posSimLast : val_main_v53 (F := Ideal) x t = fun _ => Cert.Spec.posSim x t ⟨4095, by omega⟩ := by
  funext i0
  rw [val_main_v53_apply, val_main_cst_18_apply, Ideal.ofBits_def, Ideal.ofBits_zero_f32, zero_add, sum_idx1]
  unfold Cert.Spec.posSim
  refine Finset.sum_congr rfl fun k _ => ?_
  rw [val_main_v52_apply]
  by_cases h : Cert.Spec.pos x t ⟨4095, by omega⟩ k
  · rw [if_pos h, (lastPos_bit x t k).mpr h, select_one, lastSim_apply]
  · rw [if_neg h, eq_zero_of_ne_one (fun hb => h ((lastPos_bit x t k).mp hb)), select_zero, val_main_call5_v1_apply,
      val_main_call5_v0_apply, val_main_cst_17_apply, Ideal.ofBits_def, Ideal.ofBits_zero_f32]

/-- The last row's sum of the similarities of its negative pairs. -/
theorem ref_negSimLast : val_main_v63 (F := Ideal) x t = fun _ => Cert.Spec.negSim x t ⟨4095, by omega⟩ := by
  funext i0
  rw [val_main_v63_apply, val_main_cst_21_apply, Ideal.ofBits_def, Ideal.ofBits_zero_f32, zero_add, sum_idx1]
  unfold Cert.Spec.negSim
  refine Finset.sum_congr rfl fun k _ => ?_
  rw [val_main_v62_apply]
  by_cases h : Cert.Spec.same t ⟨4095, by omega⟩ k
  · rw [if_pos h, eq_zero_of_ne_one (fun hb => (lastNeg_bit t k).mp hb h), select_zero, val_main_call6_v1_apply,
      val_main_call6_v0_apply, val_main_cst_20_apply, Ideal.ofBits_def, Ideal.ofBits_zero_f32]
  · rw [if_neg h, (lastNeg_bit t k).mpr h, select_one, lastSim_apply']

end Cert.Proof.Ref

end
-- ==== Proof.RefCount.lean ====
/-
  The reference program's two pair counts are the specification's counts, and its four results are the
  specification's closing chain applied to the reference's own six row statistics.
-/
import proofs.«416473_j45569603010930_3_alg».proof.Proof.RefRead
import proofs.«416473_j45569603010930_3_alg».proof.Proof.Spec
import Idealize.ShloMosaic.Lib.ValueIdx
import Idealize.ShloMosaic.Lib.Pipeline.Value
import Idealize.ShloMosaic.PureOps.Ideal.Laws
import Idealize.ShloMosaic.Lib.StableHlo.Predicate

noncomputable section

namespace Cert.Proof.Ref

open Cert.ReferenceIdeal Cert.ReferenceIdeal.Gen Cert.ReferenceIdeal.ReadP Idealize.ShloMosaic Idealize.ShloMosaic.ValueIdx

variable (x : FVec Ideal S4096x512 .f32) (t : IVec S4096 32)

/-! ## The two pair counts -/

section Counts

open Idealize.ShloMosaic.StableHlo

/-- The left operand of the similarity product at (p, q), term k, is row p. -/
theorem lidx_pair (p q : Fin 4096) (k : Fin 512) : lidx_main_v1 (ix2 p q) k = ix2 p k :=
  funext fun a => Fin.ext (by match a with | ⟨0, _⟩ => rfl | ⟨1, _⟩ => rfl)

/-- The right operand, read through the transpose, is row q. -/
theorem ridx_pair (p q : Fin 4096) (k : Fin 512) : idx_main_v0 (ridx_main_v1 (ix2 p q) k) = ix2 q k :=
  funext fun a => Fin.ext (by match a with | ⟨0, _⟩ => rfl | ⟨1, _⟩ => rfl)

/-- The row label of the pair (p, q) is label p. -/
theorem row_pair (p q : Fin 4096) : idx_main_v2 (idx_main_v4 (ix2 p q)) = ix1 p :=
  funext fun a => Fin.ext (by match a with | ⟨0, _⟩ => rfl)

/-- The column label of the pair (p, q) is label q. -/
theorem col_pair (p q : Fin 4096) : idx_main_v3 (idx_main_v5 (ix2 p q)) = ix1 q :=
  funext fun a => Fin.ext (by match a with | ⟨0, _⟩ => rfl)

/-- Entry (p, q) of the product of the features with their transpose is the similarity of rows p and q. -/
theorem sim_pair (p q : Fin 4096) : val_main_v1 (F := Ideal) x (ix2 p q) = Cert.Spec.sim x p q := by
  rw [val_main_v1_apply]
  unfold Cert.Spec.sim
  refine Finset.sum_congr rfl fun k _ => ?_
  rw [val_main_v0_apply, lidx_pair, ridx_pair]

/-- The label-equality bit at (p, q). -/
theorem same_pair (p q : Fin 4096) : val_main_v6 (F := Ideal) t (ix2 p q) = 1#1 ↔ Cert.Spec.same t p q := by
  rw [val_main_v6_apply, Predicate.cmpi_eq_iff, val_main_v4_apply, val_main_v5_apply, val_main_v2_apply, val_main_v3_apply,
    row_pair, col_pair]
  rfl

/-- The similarity-below-one bit at (p, q). -/
theorem below_pair (p q : Fin 4096) :
    val_main_v8 (F := Ideal) x (ix2 p q) = 1#1 ↔ Cert.Spec.sim x p q < Ideal.ofBits .f32 0x3F800000#32 := by
  rw [val_main_v8_apply, val_main_v7_apply, val_main_cst_apply, sim_pair]
  show BitVec.ofBool (decide (_ < _)) = 1#1 ↔ _
  rw [Predicate.ofBool_eq_one_iff, decide_eq_true_eq]
  rfl

/-- A conjunction of two bits is set exactly when both are. -/
theorem bit_and (a b : BitVec 1) : IntOp.andi a b = 1#1 ↔ a = 1#1 ∧ b = 1#1 := by
  rcases BitVec.eq_zero_or_eq_one a with rfl | rfl <;> rcases BitVec.eq_zero_or_eq_one b with rfl | rfl <;> decide

/-- A negated bit is set exactly when the bit is not. -/
theorem bit_not (a : BitVec 1) : ~~~a = 1#1 ↔ ¬ a = 1#1 := by
  rcases BitVec.eq_zero_or_eq_one a with rfl | rfl <;> decide

/-- The positive-pair bit at (p, q). -/
theorem pos_pair (p q : Fin 4096) : val_main_v9 (F := Ideal) x t (ix2 p q) = 1#1 ↔ Cert.Spec.pos x t p q := by
  rw [val_main_v9_apply, bit_and, same_pair, below_pair]
  rfl

/-- The negative-pair bit at (p, q). -/
theorem neg_pair (p q : Fin 4096) : val_main_v10 (F := Ideal) t (ix2 p q) = 1#1 ↔ ¬ Cert.Spec.same t p q := by
  rw [val_main_v10_apply, bit_not, same_pair]

/-- A word whose value is a count of at most 4096, read as a signed integer, is that count. -/
theorem count_cast (c : BitVec 32) (n : ℕ) (h : c.toNat = n) (hn : n ≤ 4096) :
    FloatOps.sitofp (F := Ideal) .f32 c = ((n : ℝ) : EReal) := by
  show (((c.toInt : ℤ) : ℝ) : EReal) = _
  rw [Predicate.toInt_eq_toNat_of_lt (by omega), h, Int.cast_natCast]

/-- The reference's positive counts are the specification's. -/
theorem ref_posCnt : val_main_v13 (F := Ideal) x t = Cert.Spec.vec (Cert.Spec.posCnt x t) := by
  refine Cert.Spec.vec_ext fun i => ?_
  rw [Cert.Spec.vec_ix1, val_main_v13_apply]
  have hc := Predicate.toNat_reduce_count_cols (n := 4096) (m := 4096) (by norm_num) (val_main_v9 (F := Ideal) x t) natLt_1_32
    reducesTo_S4096x4096_S4096_d1 h_S_ (ix1 i)
  unfold Cert.Spec.posCnt
  refine count_cast _ _ (hc.trans (congrArg Finset.card (Finset.filter_congr fun q _ => ?_)))
    ((Finset.card_le_univ _).trans (by simp))
  exact pos_pair x t i q

/-- The reference's negative counts are the specification's. -/
theorem ref_negCnt : val_main_v16 (F := Ideal) t = Cert.Spec.vec (Cert.Spec.negCnt t) := by
  refine Cert.Spec.vec_ext fun i => ?_
  rw [Cert.Spec.vec_ix1, val_main_v16_apply]
  have hc := Predicate.toNat_reduce_count_cols (n := 4096) (m := 4096) (by norm_num) (val_main_v10 (F := Ideal) t) natLt_1_32
    reducesTo_S4096x4096_S4096_d1 h_S_ (ix1 i)
  unfold Cert.Spec.negCnt
  refine count_cast _ _ (hc.trans (congrArg Finset.card (Finset.filter_congr fun q _ => ?_)))
    ((Finset.card_le_univ _).trans (by simp))
  exact neg_pair t i q

end Counts

/-! ## The closing chain -/

/-- The loss is the specification's chain applied to the reference's four row statistics. -/
theorem ref_loss : val_main_v42 (F := Ideal) x t
    = Cert.Spec.lossOf bcast_S_S4096 reducesTo_S4096_S_d0 h_S_ (val_main_v13 (F := Ideal) x t) (val_main_v28 (F := Ideal) x t)
        (val_main_v16 (F := Ideal) t) (val_main_v33 (F := Ideal) x t) := by
  unfold val_main_v42 val_main_v41 val_main_v40 val_main_v39 val_main_v38 val_main_v37 val_main_v36 val_main_v35 val_main_v34
    val_main_v31 val_main_v30 val_main_v29 val_main_call4_v1 val_main_call4_v0 val_main_cst_14 val_main_cst_13 val_main_cst_12
    val_main_cst_11 val_main_cst_10 val_main_cst_7 Cert.Spec.lossOf
  rfl

/-- The share of rows without a negative pair is the specification's chain applied to the negative counts. -/
theorem ref_prec : val_main_v47 (F := Ideal) t
    = Cert.Spec.precOf bcast_S_S4096 reducesTo_S4096_S_d0 h_S_ natLt_1_32 (val_main_v16 (F := Ideal) t) := by
  unfold val_main_v47 val_main_v46 val_main_v45 val_main_v44 val_main_v43 val_main_v38 val_main_v37 val_main_cst_16 val_main_c_15
    val_main_cst_11 Cert.Spec.precOf
  rfl

/-- The last row's positive mean. -/
theorem ref_lastpos : val_main_v57 (F := Ideal) x t
    = Cert.Spec.lastOf slices_S4096_S1_4095 shapeCasts_S1_S_ (val_main_v53 (F := Ideal) x t) (val_main_v13 (F := Ideal) x t) := by
  unfold val_main_v57 val_main_v56 val_main_v55 val_main_v54 val_main_cst_19 Cert.Spec.lastOf
  rfl

/-- The last row's negative mean. -/
theorem ref_lastneg : val_main_v67 (F := Ideal) x t
    = Cert.Spec.lastOf slices_S4096_S1_4095 shapeCasts_S1_S_ (val_main_v63 (F := Ideal) x t) (val_main_v16 (F := Ideal) t) := by
  unfold val_main_v67 val_main_v66 val_main_v65 val_main_v64 val_main_cst_22 Cert.Spec.lastOf
  rfl

end Cert.Proof.Ref

end
-- ==== Proof.RefResults.lean ====
/-
  The reference program's run, with its four results stated through the specification: the closing chain of host
  operations applied to the six row statistics of the arguments' launch contents; the arguments are unchanged.
-/
import proofs.«416473_j45569603010930_3_alg».proof.Proof.RefSums
import proofs.«416473_j45569603010930_3_alg».proof.Proof.RefCount
import proofs.«416473_j45569603010930_3_alg».proof.Proof.RefRead
import proofs.«416473_j45569603010930_3_alg».proof.Proof.Spec
import Idealize.ShloMosaic.Lib.StableHlo.Run

noncomputable section

namespace Cert.Proof.Ref

open Cert.ReferenceIdeal Cert.ReferenceIdeal.Gen Cert.ReferenceIdeal.ReadP Idealize.ShloMosaic Idealize.ShloMosaic.ValueIdx
open Idealize.ShloMosaic.TcCoe Idealize.SL.Sem

/-- On every device, from any memory with zero counters, every weakly fair execution of the reference program ends with
    the loss, the share of rows without a negative pair and the last row's two means at the specification's closing
    chain of the six row statistics of the launch contents of the two arguments, which it leaves unchanged. -/
theorem ref_run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v42)
          = Cert.Spec.lossOf bcast_S_S4096 reducesTo_S4096_S_d0 h_S_
              (Cert.Spec.vec (Cert.Spec.posCnt (m ((c.tc : Thread nD τ).loc main_arg0) : FVec Ideal S4096x512 .f32) (m ((c.tc : Thread nD τ).loc main_arg1) : IVec S4096 32)))
              (Cert.Spec.vec (Cert.Spec.posLoss (m ((c.tc : Thread nD τ).loc main_arg0) : FVec Ideal S4096x512 .f32) (m ((c.tc : Thread nD τ).loc main_arg1) : IVec S4096 32)))
              (Cert.Spec.vec (Cert.Spec.negCnt (m ((c.tc : Thread nD τ).loc main_arg1) : IVec S4096 32)))
              (Cert.Spec.vec (Cert.Spec.negLoss (m ((c.tc : Thread nD τ).loc main_arg0) : FVec Ideal S4096x512 .f32) (m ((c.tc : Thread nD τ).loc main_arg1) : IVec S4096 32)))
        ∧ r.2.mem ((c.tc : Thread nD τ).loc main_v47)
          = Cert.Spec.precOf bcast_S_S4096 reducesTo_S4096_S_d0 h_S_ natLt_1_32
              (Cert.Spec.vec (Cert.Spec.negCnt (m ((c.tc : Thread nD τ).loc main_arg1) : IVec S4096 32)))
        ∧ r.2.mem ((c.tc : Thread nD τ).loc main_v57)
          = Cert.Spec.lastOf slices_S4096_S1_4095 shapeCasts_S1_S_
              (fun _ => Cert.Spec.posSim (m ((c.tc : Thread nD τ).loc main_arg0) : FVec Ideal S4096x512 .f32) (m ((c.tc : Thread nD τ).loc main_arg1) : IVec S4096 32) (⟨4095, by omega⟩ : Fin 4096))
              (Cert.Spec.vec (Cert.Spec.posCnt (m ((c.tc : Thread nD τ).loc main_arg0) : FVec Ideal S4096x512 .f32) (m ((c.tc : Thread nD τ).loc main_arg1) : IVec S4096 32)))
        ∧ r.2.mem ((c.tc : Thread nD τ).loc main_v67)
          = Cert.Spec.lastOf slices_S4096_S1_4095 shapeCasts_S1_S_
              (fun _ => Cert.Spec.negSim (m ((c.tc : Thread nD τ).loc main_arg0) : FVec Ideal S4096x512 .f32) (m ((c.tc : Thread nD τ).loc main_arg1) : IVec S4096 32) (⟨4095, by omega⟩ : Fin 4096))
              (Cert.Spec.vec (Cert.Spec.negCnt (m ((c.tc : Thread nD τ).loc main_arg1) : IVec S4096 32)))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c => by
    obtain ⟨h42, h47, h57, h67, h0, h1⟩ := h c
    refine ⟨h42.trans ((val_main_v42_eq m c).trans ?_), h47.trans ((val_main_v47_eq _).trans ?_),
      h57.trans ((val_main_v57_eq _ _).trans ?_), h67.trans ((val_main_v67_eq _ _).trans ?_), h0, h1⟩
    · rw [ref_loss, ref_posCnt, ref_posLoss, ref_negCnt, ref_negLoss]
    · rw [ref_prec, ref_negCnt]
    · rw [ref_lastpos, ref_posSimLast, ref_posCnt]
    · rw [ref_lastneg, ref_negSimLast, ref_negCnt])
    (Cert.ReferenceIdeal.ValueP.run (F := Ideal) m ρ)

end Cert.Proof.Ref

end
-- ==== Proof.lean ====
/-
  The certificate: the pairwise deviance-loss kernel against its reference, over the extended reals, for finite features
  and labels in the label range [0, 256).

  Both programs compute, from the feature matrix and the labels, six statistics per row — the number of the row's
  positive pairs (same label, similarity below one), the sum of their losses and of their similarities, the number of
  its negative pairs (different label), the sum of their losses and of their similarities — and then one closing chain
  of host operations on those vectors.  The reference forms the full 4096 x 4096 similarity matrix and masks and sums
  its rows; the kernel sweeps each row tile over eight column tiles, accumulating the five sums, and takes the number
  of negative pairs from a histogram of the labels (4096 minus the size of the row's class), which is where the label
  range is used.  On the extended reals a tiled sum is the whole sum, the matrix unit's product and the host's are the
  same inner product, and the self-similarity substituted on the diagonal is the diagonal's own inner product; so the
  six vectors agree and the closing chain is applied to equal vectors.  Both word-level and idealized kernel programs
  run to the end leaving their arguments unchanged (the body by the loop's invariant), and so does the reference.
-/
import proofs.«416473_j45569603010930_3_alg».proof.Defs
import proofs.«416473_j45569603010930_3_alg».proof.Proof.Gen.Kernel
import proofs.«416473_j45569603010930_3_alg».proof.Proof.Gen.KernelIdeal
import proofs.«416473_j45569603010930_3_alg».proof.Proof.Gen.ReferenceIdeal
import proofs.«416473_j45569603010930_3_alg».proof.Proof.Gen.Pre_finite_inputs
import proofs.«416473_j45569603010930_3_alg».proof.Proof.BitsBody
import proofs.«416473_j45569603010930_3_alg».proof.Proof.KernelRun
import proofs.«416473_j45569603010930_3_alg».proof.Proof.RefResults

noncomputable section

namespace Cert.Proof

open Idealize.ShloMosaic Idealize.ShloMosaic.TcCoe Idealize.ShloMosaic.ValueIdx Idealize.SL.Sem

/-- The word-level kernel program runs to the end, nothing faulting, its arguments unchanged. -/
theorem frame_kernel : Cert.frame_Kernel := fun m ρ _ => Cert.Proof.KB.frame (F := Bits) m ρ

/-- So does the idealized kernel program, -/
theorem frame_kernelIdeal : Cert.frame_KernelIdeal := fun m ρ _ => Cert.Proof.KI.frame (F := Ideal) m ρ

/-- and the reference. -/
theorem frame_reference : Cert.frame_ReferenceIdeal := fun m ρ _ =>
  (θ_run Cert.ReferenceIdeal.defs _ _).mono (fun _ h c => ⟨(h c).2.2.2.2.1, (h c).2.2.2.2.2⟩) (Cert.Proof.Ref.ref_run m ρ)

/-- From memories agreeing on the arguments, features finite and labels in range, both idealized programs end with
    the closing chain applied to the same six vectors of row statistics. -/
theorem algebraic : Cert.algebraic_KernelIdeal_ReferenceIdeal := by
  intro m ρ m' ρ' hpre hagree
  have hT : ∀ (c : Dev Cert.KernelIdeal.nD) (i : Fin 4096), (Cert.Proof.KI.tin m c (ix1 i)).toNat < 256 :=
    fun c i => Cert.Proof.Tail.labels_in_range _ _ (hpre c) i
  refine ⟨_, _, _, _, Cert.Proof.KI.kernel_run m ρ hT, ?_⟩
  refine (θ_run Cert.ReferenceIdeal.defs _ _).mono (fun r h c => ?_) (Cert.Proof.Ref.ref_run m' ρ')
  obtain ⟨h0, h1, h2, h3, h4, h5⟩ := h c
  obtain ⟨ea, eb⟩ := hagree c
  refine ⟨h0.trans ?_, h1.trans ?_, h2.trans ?_, h3.trans ?_, h4, h5⟩
  · rw [ea, eb]
  · rw [eb]
  · rw [ea, eb]
  · rw [ea, eb]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
